-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024 : Shape := ⟨1, ![1024]⟩
abbrev S2048 : Shape := ⟨1, ![2048]⟩
abbrev S1024x1024 : Shape := ⟨2, ![1024, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S2048 : S_.BroadcastsInDim S2048 (![] : Fin 0 → Fin S2048.rank)
  reducesTo_S2048_S_d0 : S2048.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S1024 .f32) (main_arg8 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S2048 .f32) (main_arg5 : FVec F S1024x1024 .f32) (main_arg6 : FVec F S1024 .f32) (main_arg7 : FVec F S1024 .f32) (main_arg8 : FVec F S1024 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S8x2048x1024 .f32) (main_arg1 : FVec F S1024 .f32) (main_arg2 : FVec F S1024 .f32) (main_arg3 : FVec F S2048 .f32) (main_arg4 : FVec F S2048 .f32) (main_arg5 : FVec F S1024x1024 .f32) (main_arg6 : FVec F S1024 .f32) (main_arg7 : FVec F S1024 .f32) (main_arg8 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_v13 main_v16
-- ==== Kernel.lean ====
abbrev S8x2048x1024 : Shape := ⟨3, ![8, 2048, 1024]⟩
abbrev S1024 : Shape := ⟨1, ![1024]⟩
abbrev S2048 : Shape := ⟨1, ![2048]⟩
abbrev S1024x1024 : Shape := ⟨2, ![1024, 1024]⟩
abbrev S1x2048x1024 : Shape := ⟨3, ![1, 2048, 1024]⟩
abbrev S1x256x1024 : Shape := ⟨3, ![1, 256, 1024]⟩
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1x2048 : Shape := ⟨2, ![1, 2048]⟩
abbrev S128x1024 : Shape := ⟨2, ![128, 1024]⟩
abbrev S128x2048 : Shape := ⟨2, ![128, 2048]⟩
abbrev S128 : Shape := ⟨1, ![128]⟩
abbrev S128x1 : Shape := ⟨2, ![128, 1]⟩
abbrev S1x128x1024 : Shape := ⟨3, ![1, 128, 1024]⟩

abbrev nBuf : Space → Nat
  | .hbm => 11
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024, .f32⟩
  | .hbm, ⟨3, _⟩ => ⟨S2048, .f32⟩
  | .hbm, ⟨4, _⟩ => ⟨S2048, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x1024, .bf16⟩
  | .hbm, ⟨10, _⟩ => ⟨S8x2048x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1024, .f32⟩
  | .local _ .vmem, ⟨3, _⟩ => ⟨S1024, .f32⟩
  | .local _ .vmem, ⟨4, _⟩ => ⟨S2048, .f32⟩
  | .local _ .vmem, ⟨5, _⟩ => ⟨S2048, .f32⟩
  | .local _ .vmem, ⟨6, _⟩ => ⟨S1024, .f32⟩
  | .local _ .vmem, ⟨7, _⟩ => ⟨S1024, .f32⟩
  | .local _ .vmem, ⟨8, _⟩ => ⟨S1024x1024, .bf16⟩
  | .local _ .vmem, ⟨9, _⟩ => ⟨S1024, .f32⟩
  | .local _ .vmem, ⟨10, _⟩ => ⟨S1x256x1024, .f32⟩
  | .local _ .vmem, ⟨11, _⟩ => ⟨S1x256x1024, .f32⟩
  | .local _ .vmem, ⟨12, _⟩ => ⟨S2048x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 : BitVec 32 :=
  let c0_i32_70 : BitVec 32 := 0#32
  let c256_i32_71 : BitVec 32 := 256#32
  let v240 : BitVec 32 := Scalar.muli c0_i32_70 c256_i32_71
  v240
def k0_off1 (c0_i32_70 : BitVec 32) : Fin 3 → Nat :=
  let c0_72 : Index := 0#32
  let c256_i32_71 : BitVec 32 := 256#32
  let v240 : BitVec 32 := Scalar.muli c0_i32_70 c256_i32_71
  let v241 : BitVec 32 := v240
  let v242 : Index := Scalar.indexCast v241
  let c0_73 : Index := 0#32
  ![0, v242.toNat, 0]
def k0_off2 (c0_i32_70 : BitVec 32) : Fin 2 → Nat :=
  let c256_i32_71 : BitVec 32 := 256#32
  let v240 : BitVec 32 := Scalar.muli c0_i32_70 c256_i32_71
  let v241 : BitVec 32 := v240
  let v268 : Index := Scalar.indexCast v241
  let c0_79 : Index := 0#32
  ![v268.toNat, 0]
def k0_mult2 : BitVec 32 :=
  let c1_i32 : BitVec 32 := 1#32
  let c256_i32_80 : BitVec 32 := 256#32
  let v272 : BitVec 32 := Scalar.muli c1_i32 c256_i32_80
  v272
def k0_mult3 : BitVec 32 :=
  let c2_i32 : BitVec 32 := 2#32
  let c256_i32_89 : BitVec 32 := 256#32
  let v304 : BitVec 32 := Scalar.muli c2_i32 c256_i32_89
  v304
def k0_mult4 : BitVec 32 :=
  let c3_i32 : BitVec 32 := 3#32
  let c256_i32_98 : BitVec 32 := 256#32
  let v336 : BitVec 32 := Scalar.muli c3_i32 c256_i32_98
  v336
def k0_mult5 : BitVec 32 :=
  let c4_i32 : BitVec 32 := 4#32
  let c256_i32_107 : BitVec 32 := 256#32
  let v368 : BitVec 32 := Scalar.muli c4_i32 c256_i32_107
  v368
def k0_mult6 : BitVec 32 :=
  let c5_i32 : BitVec 32 := 5#32
  let c256_i32_116 : BitVec 32 := 256#32
  let v400 : BitVec 32 := Scalar.muli c5_i32 c256_i32_116
  v400
def k0_mult7 : BitVec 32 :=
  let c6_i32 : BitVec 32 := 6#32
  let c256_i32_125 : BitVec 32 := 256#32
  let v432 : BitVec 32 := Scalar.muli c6_i32 c256_i32_125
  v432
def k0_mult8 : BitVec 32 :=
  let c7_i32 : BitVec 32 := 7#32
  let c256_i32_134 : BitVec 32 := 256#32
  let v464 : BitVec 32 := Scalar.muli c7_i32 c256_i32_134
  v464
def k0_mult9 (i : grid0.Coords) : BitVec 32 :=
  let arg1 : BitVec 32 := BitVec.ofNat 32 (i 1).val
  let c256_i32 : BitVec 32 := 256#32
  let v3 : BitVec 32 := Scalar.muli arg1 c256_i32
  v3
def k0_mult10 (i : grid0.Coords) : BitVec 32 :=
  let arg1 : BitVec 32 := BitVec.ofNat 32 (i 1).val
  let c256_i32 : BitVec 32 := 256#32
  let v3 : BitVec 32 := Scalar.muli arg1 c256_i32
  let v4 : BitVec 32 := v3
  let c0_i32_11 : BitVec 32 := 0#32
  let v22 : BitVec 32 := Scalar.addi v4 c0_i32_11
  v22
def k0_off3 (i : grid0.Coords) (c0_i32_11 : BitVec 32) : Fin 2 → Nat :=
  let arg1 : BitVec 32 := BitVec.ofNat 32 (i 1).val
  let c256_i32 : BitVec 32 := 256#32
  let v3 : BitVec 32 := Scalar.muli arg1 c256_i32
  let v4 : BitVec 32 := v3
  let v22 : BitVec 32 := Scalar.addi v4 c0_i32_11
  let v23 : BitVec 32 := v22
  let v24 : Index := Scalar.indexCast v23
  let c0_12 : Index := 0#32
  ![v24.toNat, 0]
def k0_off4 (i : grid0.Coords) (c0_i32_11 : BitVec 32) : Fin 3 → Nat :=
  let c0_24 : Index := 0#32
  let arg1 : BitVec 32 := BitVec.ofNat 32 (i 1).val
  let c256_i32 : BitVec 32 := 256#32
  let v3 : BitVec 32 := Scalar.muli arg1 c256_i32
  let v4 : BitVec 32 := v3
  let v22 : BitVec 32 := Scalar.addi v4 c0_i32_11
  let v23 : BitVec 32 := v22
  let v73 : Index := Scalar.indexCast v23
  let c0_25 : Index := 0#32
  ![0, v73.toNat, 0]
def k0_mult11 (i : grid0.Coords) : BitVec 32 :=
  let arg1 : BitVec 32 := BitVec.ofNat 32 (i 1).val
  let c256_i32 : BitVec 32 := 256#32
  let v3 : BitVec 32 := Scalar.muli arg1 c256_i32
  let v4 : BitVec 32 := v3
  let c128_i32 : BitVec 32 := 128#32
  let v129 : BitVec 32 := Scalar.addi v4 c128_i32
  v129
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  bitsLt_bf16_f32 : FTy.bits .bf16 < FTy.bits .f32
  inb_S1024_S1024_0 : ∀ a, (![0] : Fin 1 → Nat) a + S1024.size a ≤ S1024.size a
  h_S1024 : 0 < S1024.numel
  shapeCasts_S1024_S1x1024 : S1024.ShapeCasts S1x1024
  h_S1x256x1024 : 0 < S1x256x1024.numel
  shapeCasts_S1x256x1024_S256x1024 : S1x256x1024.ShapeCasts S256x1024
  reduces_S256x1024_S256 : S256x1024.Reduces [1] S256
  shapeCasts_S256_S256x1 : S256.ShapeCasts S256x1
  broadcasts_S256x1_S256x1024 : S256x1.Broadcasts S256x1024
  broadcasts_S1x1024_S256x1024 : S1x1024.Broadcasts S256x1024
  h_S256x1024 : 0 < S256x1024.numel
  shapeCasts_S256x1024_S256x1024 : S256x1024.ShapeCasts S256x1024
  inb_S2048_S2048_0 : ∀ a, (![0] : Fin 1 → Nat) a + S2048.size a ≤ S2048.size a
  h_S2048 : 0 < S2048.numel
  shapeCasts_S2048_S1x2048 : S2048.ShapeCasts S1x2048
  inb_S2048x1024_S2048x1024_0_0 : ∀ a, (![0, 0] : Fin 2 → Nat) a + S2048x1024.size a ≤ S2048x1024.size a
  h_S2048x1024 : 0 < S2048x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  h_S128x1024 : 0 < S128x1024.numel
  reduces_S128x2048_S128 : S128x2048.Reduces [1] S128
  shapeCasts_S128_S128x1 : S128.ShapeCasts S128x1
  broadcasts_S128x1_S128x2048 : S128x1.Broadcasts S128x2048
  broadcasts_S1x2048_S128x2048 : S1x2048.Broadcasts S128x2048
  reduces_S128x1024_S128 : S128x1024.Reduces [1] S128
  broadcasts_S128x1_S128x1024 : S128x1.Broadcasts S128x1024
  broadcasts_S1x1024_S128x1024 : S1x1024.Broadcasts S128x1024
  h_S1x128x1024 : 0 < S1x128x1024.numel
  shapeCasts_S1x128x1024_S128x1024 : S1x128x1024.ShapeCasts S128x1024
  inb_S1x256x1024_S1x128x1024_0_0_0 : ∀ a, (![0, 0, 0] : Fin 3 → Nat) a + S1x128x1024.size a ≤ S1x256x1024.size a
  shapeCasts_S128x1024_S1x128x1024 : S128x1024.ShapeCasts S1x128x1024
  inb_S1x256x1024_S1x128x1024_0_128_0 : ∀ a, (![0, 128, 0] : Fin 3 → Nat) a + S1x128x1024.size a ≤ S1x256x1024.size a
  dot_S128x1024_S2048x1024_S128x2048_1_1_0_0_n_n_wf : DotDims.WF S128x1024 S2048x1024 S128x2048 [1] [1] [0] [0] [] []
  dot_S128x2048_S2048x1024_S128x1024_1_0_0_1_n_n_wf : DotDims.WF S128x2048 S2048x1024 S128x1024 [1] [0] [0] [1] [] []
  dot_S128x1024_S1024x1024_S128x1024_1_1_0_0_n_n_wf : DotDims.WF S128x1024 S1024x1024 S128x1024 [1] [1] [0] [0] [] []
  hrank0 : 0 < grid0.rank
  k0_mult1_dvd : ∀ i : grid0.Coords, ∀ (k0_h1 : k0_cond1 i = 1#1), 256 ∣ k0_mult1.toNat
  k0_off1_inb : ∀ i : grid0.Coords, ∀ (k0_h1 : k0_cond1 i = 1#1), ∀ (r : Fin 8), ∀ a, (k0_off1 (BitVec.ofNat 32 r.val)) a + S1x256x1024.size a ≤ S1x2048x1024.size a
  k0_off2_inb : ∀ i : grid0.Coords, ∀ (k0_h1 : k0_cond1 i = 1#1), ∀ (r : Fin 8), ∀ a, (k0_off2 (BitVec.ofNat 32 r.val)) a + S256x1024.size a ≤ S2048x1024.size a
  k0_off2_packedbf16 : ∀ i : grid0.Coords, ∀ (k0_h1 : k0_cond1 i = 1#1), ∀ (r : Fin 8), (Rect.unit (s := S2048x1024) (k0_off2 (BitVec.ofNat 32 r.val)) S256x1024.size (k0_off2_inb i k0_h1 r)).PackedRows (EltTy.packing .bf16)
  k0_mult2_dvd : ∀ i : grid0.Coords, ∀ (k0_h1 : k0_cond1 i = 1#1), 256 ∣ k0_mult2.toNat
  k0_mult3_dvd : ∀ i : grid0.Coords, ∀ (k0_h1 : k0_cond1 i = 1#1), 256 ∣ k0_mult3.toNat
  k0_mult4_dvd : ∀ i : grid0.Coords, ∀ (k0_h1 : k0_cond1 i = 1#1), 256 ∣ k0_mult4.toNat
  k0_mult5_dvd : ∀ i : grid0.Coords, ∀ (k0_h1 : k0_cond1 i = 1#1), 256 ∣ k0_mult5.toNat
  k0_mult6_dvd : ∀ i : grid0.Coords, ∀ (k0_h1 : k0_cond1 i = 1#1), 256 ∣ k0_mult6.toNat
  k0_mult7_dvd : ∀ i : grid0.Coords, ∀ (k0_h1 : k0_cond1 i = 1#1), 256 ∣ k0_mult7.toNat
  k0_mult8_dvd : ∀ i : grid0.Coords, ∀ (k0_h1 : k0_cond1 i = 1#1), 256 ∣ k0_mult8.toNat
  k0_mult9_dvd : ∀ i : grid0.Coords, 256 ∣ (k0_mult9 i).toNat
  k0_mult10_dvd : ∀ i : grid0.Coords, 128 ∣ (k0_mult10 i).toNat
  k0_off3_inb : ∀ i : grid0.Coords, ∀ (r : Fin 2), ∀ a, (k0_off3 i (BitVec.ofNat 32 (128 * r.val))) a + S128x1024.size a ≤ S2048x1024.size a
  k0_off4_inb : ∀ i : grid0.Coords, ∀ (r : Fin 2), ∀ a, (k0_off4 i (BitVec.ofNat 32 (128 * r.val))) a + S1x128x1024.size a ≤ S1x2048x1024.size a
  k0_mult11_dvd : ∀ i : grid0.Coords, 128 ∣ (k0_mult11 i).toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x2048x1024.size a
  hwx0_0 : ∀ i : grid0.Coords, EltTy.bits .f32 = 32 ∨ (Rect.block (s := S8x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1024.size a
  hwx0_1 : ∀ i : grid0.Coords, EltTy.bits .f32 = 32 ∨ (Rect.block (s := S1024) S1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048.size a ≤ S2048.size a
  hwx0_3 : ∀ i : grid0.Coords, EltTy.bits .f32 = 32 ∨ (Rect.block (s := S2048) S2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048.size a ≤ S2048.size a
  hwx0_4 : ∀ i : grid0.Coords, EltTy.bits .f32 = 32 ∨ (Rect.block (s := S2048) S2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024.size a ≤ S1024.size a
  hwx0_8 : ∀ i : grid0.Coords, EltTy.bits .f32 = 32 ∨ (Rect.block (s := S1024) S1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256x1024.size a ≤ S8x2048x1024.size a
  hwx0_9 : ∀ i : grid0.Coords, EltTy.bits .f32 = 32 ∨ (Rect.block (s := S8x2048x1024) S1x256x1024.size (cc0_transform_9 i) (hinb0_9 i)).WholeWords (EltTy.packing .f32)

variable [Facts₀]

def dot_S128x1024_S2048x1024_S128x2048_1_1_0_0_n_n : DotDims S128x1024 S2048x1024 S128x2048 where
  lhsContracting := [1]
  rhsContracting := [1]
  lhsNonContracting := [0]
  rhsNonContracting := [0]
  lhsBatch := []
  rhsBatch := []
  wf := dot_S128x1024_S2048x1024_S128x2048_1_1_0_0_n_n_wf
def dot_S128x2048_S2048x1024_S128x1024_1_0_0_1_n_n : DotDims S128x2048 S2048x1024 S128x1024 where
  lhsContracting := [1]
  rhsContracting := [0]
  lhsNonContracting := [0]
  rhsNonContracting := [1]
  lhsBatch := []
  rhsBatch := []
  wf := dot_S128x2048_S2048x1024_S128x1024_1_0_0_1_n_n_wf
def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1) S1x256x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S1024 : Shape := ⟨1, ![1024]⟩
abbrev S2048 : Shape := ⟨1, ![2048]⟩
abbrev S1024x1024 : Shape := ⟨2, ![1024, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2048 : Shape := ⟨3, ![8, 2048, 2048]⟩
abbrev S1x1x2048 : Shape := ⟨3, ![1, 1, 2048]⟩

abbrev nBuf : Space → Nat
  | .hbm => 237
  | .vmem => 0
  | .smem => 0
  | _ => 0

abbrev hbmTy0_0 (i : Nat) : BufTy := match i % 128 with
  | 0 => ⟨S8x2048x1024, .f32⟩
  | 1 => ⟨S1024, .f32⟩
  | 2 => ⟨S1024, .f32⟩
  | 3 => ⟨S2048, .f32⟩
  | 4 => ⟨S2048, .f32⟩
  | 5 => ⟨S1024x1024, .f32⟩
  | 6 => ⟨S1024, .f32⟩
  | 7 => ⟨S1024, .f32⟩
  | 8 => ⟨S1024, .f32⟩
  | 9 => ⟨S_, .f32⟩
  | 10 => ⟨S8x2048, .f32⟩
  | 11 => ⟨S8x2048x1, .f32⟩
  | 12 => ⟨S_, .f32⟩
  | 13 => ⟨S8x2048x1, .f32⟩
  | 14 => ⟨S8x2048x1, .f32⟩
  | 15 => ⟨S_, .i32⟩
  | 16 => ⟨S_, .f32⟩
  | 17 => ⟨S8x2048, .f32⟩
  | 18 => ⟨S8x2048x1, .f32⟩
  | 19 => ⟨S_, .f32⟩
  | 20 => ⟨S8x2048x1, .f32⟩
  | 21 => ⟨S8x2048x1, .f32⟩
  | 22 => ⟨S8x2048x1024, .f32⟩
  | 23 => ⟨S8x2048x1024, .f32⟩
  | 24 => ⟨S8x2048x1024, .f32⟩
  | 25 => ⟨S_, .f32⟩
  | 26 => ⟨S_, .f32⟩
  | 27 => ⟨S_, .f32⟩
  | 28 => ⟨S_, .f32⟩
  | 29 => ⟨S8x2048, .f32⟩
  | 30 => ⟨S8x2048x1, .f32⟩
  | 31 => ⟨S8x2048x1, .f32⟩
  | 32 => ⟨S8x2048x1, .f32⟩
  | 33 => ⟨S_, .f32⟩
  | 34 => ⟨S_, .i1⟩
  | 35 => ⟨S_, .f32⟩
  | 36 => ⟨S_, .f32⟩
  | 37 => ⟨S8x2048x1, .f32⟩
  | 38 => ⟨S8x2048x1, .f32⟩
  | 39 => ⟨S8x2048x1024, .f32⟩
  | 40 => ⟨S8x2048x1024, .f32⟩
  | 41 => ⟨S_, .f32⟩
  | 42 => ⟨S8x2048x1, .f32⟩
  | 43 => ⟨S8x2048x1, .f32⟩
  | 44 => ⟨S8x2048x1, .f32⟩
  | 45 => ⟨S8x2048x1024, .f32⟩
  | 46 => ⟨S8x2048x1024, .f32⟩
  | 47 => ⟨S1x1x1024, .f32⟩
  | 48 => ⟨S8x2048x1024, .f32⟩
  | 49 => ⟨S8x2048x1024, .f32⟩
  | 50 => ⟨S1x1x1024, .f32⟩
  | 51 => ⟨S8x2048x1024, .f32⟩
  | 52 => ⟨S8x2048x1024, .f32⟩
  | 53 => ⟨S8x2048x2048, .f32⟩
  | 54 => ⟨S_, .f32⟩
  | 55 => ⟨S8x2048, .f32⟩
  | 56 => ⟨S8x2048x1, .f32⟩
  | 57 => ⟨S_, .f32⟩
  | 58 => ⟨S8x2048x1, .f32⟩
  | 59 => ⟨S8x2048x1, .f32⟩
  | 60 => ⟨S_, .i32⟩
  | 61 => ⟨S_, .f32⟩
  | 62 => ⟨S8x2048, .f32⟩
  | 63 => ⟨S8x2048x1, .f32⟩
  | 64 => ⟨S_, .f32⟩
  | 65 => ⟨S8x2048x1, .f32⟩
  | 66 => ⟨S8x2048x1, .f32⟩
  | 67 => ⟨S8x2048x2048, .f32⟩
  | 68 => ⟨S8x2048x2048, .f32⟩
  | 69 => ⟨S8x2048x2048, .f32⟩
  | 70 => ⟨S_, .f32⟩
  | 71 => ⟨S_, .f32⟩
  | 72 => ⟨S_, .f32⟩
  | 73 => ⟨S_, .f32⟩
  | 74 => ⟨S8x2048, .f32⟩
  | 75 => ⟨S8x2048x1, .f32⟩
  | 76 => ⟨S8x2048x1, .f32⟩
  | 77 => ⟨S8x2048x1, .f32⟩
  | 78 => ⟨S_, .f32⟩
  | 79 => ⟨S_, .i1⟩
  | 80 => ⟨S_, .f32⟩
  | 81 => ⟨S_, .f32⟩
  | 82 => ⟨S8x2048x1, .f32⟩
  | 83 => ⟨S8x2048x1, .f32⟩
  | 84 => ⟨S8x2048x2048, .f32⟩
  | 85 => ⟨S8x2048x2048, .f32⟩
  | 86 => ⟨S_, .f32⟩
  | 87 => ⟨S8x2048x1, .f32⟩
  | 88 => ⟨S8x2048x1, .f32⟩
  | 89 => ⟨S8x2048x1, .f32⟩
  | 90 => ⟨S8x2048x2048, .f32⟩
  | 91 => ⟨S8x2048x2048, .f32⟩
  | 92 => ⟨S1x1x2048, .f32⟩
  | 93 => ⟨S8x2048x2048, .f32⟩
  | 94 => ⟨S8x2048x2048, .f32⟩
  | 95 => ⟨S1x1x2048, .f32⟩
  | 96 => ⟨S8x2048x2048, .f32⟩
  | 97 => ⟨S8x2048x2048, .f32⟩
  | 98 => ⟨S8x2048x1024, .f32⟩
  | 99 => ⟨S_, .f32⟩
  | 100 => ⟨S8x2048, .f32⟩
  | 101 => ⟨S8x2048x1, .f32⟩
  | 102 => ⟨S_, .f32⟩
  | 103 => ⟨S8x2048x1, .f32⟩
  | 104 => ⟨S8x2048x1, .f32⟩
  | 105 => ⟨S_, .i32⟩
  | 106 => ⟨S_, .f32⟩
  | 107 => ⟨S8x2048, .f32⟩
  | 108 => ⟨S8x2048x1, .f32⟩
  | 109 => ⟨S_, .f32⟩
  | 110 => ⟨S8x2048x1, .f32⟩
  | 111 => ⟨S8x2048x1, .f32⟩
  | 112 => ⟨S8x2048x1024, .f32⟩
  | 113 => ⟨S8x2048x1024, .f32⟩
  | 114 => ⟨S8x2048x1024, .f32⟩
  | 115 => ⟨S_, .f32⟩
  | 116 => ⟨S_, .f32⟩
  | 117 => ⟨S_, .f32⟩
  | 118 => ⟨S_, .f32⟩
  | 119 => ⟨S8x2048, .f32⟩
  | 120 => ⟨S8x2048x1, .f32⟩
  | 121 => ⟨S8x2048x1, .f32⟩
  | 122 => ⟨S8x2048x1, .f32⟩
  | 123 => ⟨S_, .f32⟩
  | 124 => ⟨S_, .i1⟩
  | 125 => ⟨S_, .f32⟩
  | 126 => ⟨S_, .f32⟩
  | 127 => ⟨S8x2048x1, .f32⟩
  | _ => ⟨S8x2048x1024, .f32⟩

abbrev hbmTy0_1 (i : Nat) : BufTy := match i % 128 with
  | 0 => ⟨S8x2048x1, .f32⟩
  | 1 => ⟨S8x2048x1024, .f32⟩
  | 2 => ⟨S8x2048x1024, .f32⟩
  | 3 => ⟨S_, .f32⟩
  | 4 => ⟨S8x2048x1, .f32⟩
  | 5 => ⟨S8x2048x1, .f32⟩
  | 6 => ⟨S8x2048x1, .f32⟩
  | 7 => ⟨S8x2048x1024, .f32⟩
  | 8 => ⟨S8x2048x1024, .f32⟩
  | 9 => ⟨S1x1x1024, .f32⟩
  | 10 => ⟨S8x2048x1024, .f32⟩
  | 11 => ⟨S8x2048x1024, .f32⟩
  | 12 => ⟨S1x1x1024, .f32⟩
  | 13 => ⟨S8x2048x1024, .f32⟩
  | 14 => ⟨S8x2048x1024, .f32⟩
  | 15 => ⟨S8x2048x1024, .f32⟩
  | 16 => ⟨S_, .f32⟩
  | 17 => ⟨S8x2048, .f32⟩
  | 18 => ⟨S8x2048x1, .f32⟩
  | 19 => ⟨S_, .f32⟩
  | 20 => ⟨S8x2048x1, .f32⟩
  | 21 => ⟨S8x2048x1, .f32⟩
  | 22 => ⟨S_, .i32⟩
  | 23 => ⟨S_, .f32⟩
  | 24 => ⟨S8x2048, .f32⟩
  | 25 => ⟨S8x2048x1, .f32⟩
  | 26 => ⟨S_, .f32⟩
  | 27 => ⟨S8x2048x1, .f32⟩
  | 28 => ⟨S8x2048x1, .f32⟩
  | 29 => ⟨S8x2048x1024, .f32⟩
  | 30 => ⟨S8x2048x1024, .f32⟩
  | 31 => ⟨S8x2048x1024, .f32⟩
  | 32 => ⟨S_, .f32⟩
  | 33 => ⟨S_, .f32⟩
  | 34 => ⟨S_, .f32⟩
  | 35 => ⟨S_, .f32⟩
  | 36 => ⟨S8x2048, .f32⟩
  | 37 => ⟨S8x2048x1, .f32⟩
  | 38 => ⟨S8x2048x1, .f32⟩
  | 39 => ⟨S8x2048x1, .f32⟩
  | 40 => ⟨S_, .f32⟩
  | 41 => ⟨S_, .i1⟩
  | 42 => ⟨S_, .f32⟩
  | 43 => ⟨S_, .f32⟩
  | 44 => ⟨S8x2048x1, .f32⟩
  | 45 => ⟨S8x2048x1, .f32⟩
  | 46 => ⟨S8x2048x1024, .f32⟩
  | 47 => ⟨S8x2048x1024, .f32⟩
  | 48 => ⟨S_, .f32⟩
  | 49 => ⟨S8x2048x1, .f32⟩
  | 50 => ⟨S8x2048x1, .f32⟩
  | 51 => ⟨S8x2048x1, .f32⟩
  | 52 => ⟨S8x2048x1024, .f32⟩
  | 53 => ⟨S8x2048x1024, .f32⟩
  | 54 => ⟨S1x1x1024, .f32⟩
  | 55 => ⟨S8x2048x1024, .f32⟩
  | 56 => ⟨S8x2048x1024, .f32⟩
  | 57 => ⟨S1x1x1024, .f32⟩
  | 58 => ⟨S8x2048x1024, .f32⟩
  | 59 => ⟨S8x2048x1024, .f32⟩
  | 60 => ⟨S8x2048x1024, .f32⟩
  | 61 => ⟨S1x1x1024, .f32⟩
  | 62 => ⟨S8x2048x1024, .f32⟩
  | 63 => ⟨S8x2048x1024, .f32⟩
  | 64 => ⟨S_, .f32⟩
  | 65 => ⟨S8x2048, .f32⟩
  | 66 => ⟨S8x2048x1, .f32⟩
  | 67 => ⟨S_, .f32⟩
  | 68 => ⟨S8x2048x1, .f32⟩
  | 69 => ⟨S8x2048x1, .f32⟩
  | 70 => ⟨S_, .i32⟩
  | 71 => ⟨S_, .f32⟩
  | 72 => ⟨S8x2048, .f32⟩
  | 73 => ⟨S8x2048x1, .f32⟩
  | 74 => ⟨S_, .f32⟩
  | 75 => ⟨S8x2048x1, .f32⟩
  | 76 => ⟨S8x2048x1, .f32⟩
  | 77 => ⟨S8x2048x1024, .f32⟩
  | 78 => ⟨S8x2048x1024, .f32⟩
  | 79 => ⟨S8x2048x1024, .f32⟩
  | 80 => ⟨S_, .f32⟩
  | 81 => ⟨S_, .f32⟩
  | 82 => ⟨S_, .f32⟩
  | 83 => ⟨S_, .f32⟩
  | 84 => ⟨S8x2048, .f32⟩
  | 85 => ⟨S8x2048x1, .f32⟩
  | 86 => ⟨S8x2048x1, .f32⟩
  | 87 => ⟨S8x2048x1, .f32⟩
  | 88 => ⟨S_, .f32⟩
  | 89 => ⟨S_, .i1⟩
  | 90 => ⟨S_, .f32⟩
  | 91 => ⟨S_, .f32⟩
  | 92 => ⟨S8x2048x1, .f32⟩
  | 93 => ⟨S8x2048x1, .f32⟩
  | 94 => ⟨S8x2048x1024, .f32⟩
  | 95 => ⟨S8x2048x1024, .f32⟩
  | 96 => ⟨S_, .f32⟩
  | 97 => ⟨S8x2048x1, .f32⟩
  | 98 => ⟨S8x2048x1, .f32⟩
  | 99 => ⟨S8x2048x1, .f32⟩
  | 100 => ⟨S8x2048x1024, .f32⟩
  | 101 => ⟨S8x2048x1024, .f32⟩
  | 102 => ⟨S1x1x1024, .f32⟩
  | 103 => ⟨S8x2048x1024, .f32⟩
  | 104 => ⟨S8x2048x1024, .f32⟩
  | 105 => ⟨S1x1x1024, .f32⟩
  | 106 => ⟨S8x2048x1024, .f32⟩
  | 107 => ⟨S8x2048x1024, .f32⟩
  | 108 => ⟨S8x2048x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_cst_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_cst_1 : Ref sig .tc := ⟨.hbm, 26, rfl⟩
abbrev main_call0_v8 : Ref sig .tc := ⟨.hbm, 27, rfl⟩
abbrev main_call0_cst_2 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_cst_3 : Ref sig .tc := ⟨.hbm, 33, rfl⟩
abbrev main_call0_v13 : Ref sig .tc := ⟨.hbm, 34, rfl⟩
abbrev main_call0_cst_4 : Ref sig .tc := ⟨.hbm, 35, rfl⟩
abbrev main_call0_call0_v0 : Ref sig .tc := ⟨.hbm, 36, rfl⟩
abbrev main_call0_call0_v1 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_cst_1 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_cst_2 : Ref sig .tc := ⟨.hbm, 54, rfl⟩
abbrev main_v19 : Ref sig .tc := ⟨.hbm, 55, rfl⟩
abbrev main_v20 : Ref sig .tc := ⟨.hbm, 56, rfl⟩
abbrev main_cst_3 : Ref sig .tc := ⟨.hbm, 57, rfl⟩
abbrev main_v21 : Ref sig .tc := ⟨.hbm, 58, rfl⟩
abbrev main_v22 : Ref sig .tc := ⟨.hbm, 59, rfl⟩
abbrev main_c_4 : Ref sig .tc := ⟨.hbm, 60, rfl⟩
abbrev main_call1_cst : Ref sig .tc := ⟨.hbm, 61, rfl⟩
abbrev main_call1_v0 : Ref sig .tc := ⟨.hbm, 62, rfl⟩
abbrev main_call1_v1 : Ref sig .tc := ⟨.hbm, 63, rfl⟩
abbrev main_call1_cst_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_v6 : Ref sig .tc := ⟨.hbm, 69, rfl⟩
abbrev main_call1_v7 : Ref sig .tc := ⟨.hbm, 70, rfl⟩
abbrev main_call1_cst_1 : Ref sig .tc := ⟨.hbm, 71, rfl⟩
abbrev main_call1_v8 : Ref sig .tc := ⟨.hbm, 72, rfl⟩
abbrev main_call1_cst_2 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_v12 : Ref sig .tc := ⟨.hbm, 77, rfl⟩
abbrev main_call1_cst_3 : Ref sig .tc := ⟨.hbm, 78, rfl⟩
abbrev main_call1_v13 : Ref sig .tc := ⟨.hbm, 79, rfl⟩
abbrev main_call1_cst_4 : Ref sig .tc := ⟨.hbm, 80, rfl⟩
abbrev main_call1_call0_v0 : Ref sig .tc := ⟨.hbm, 81, rfl⟩
abbrev main_call1_call0_v1 : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev main_cst_5 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_cst_6 : Ref sig .tc := ⟨.hbm, 99, rfl⟩
abbrev main_v38 : Ref sig .tc := ⟨.hbm, 100, rfl⟩
abbrev main_v39 : Ref sig .tc := ⟨.hbm, 101, rfl⟩
abbrev main_cst_7 : Ref sig .tc := ⟨.hbm, 102, rfl⟩
abbrev main_v40 : Ref sig .tc := ⟨.hbm, 103, rfl⟩
abbrev main_v41 : Ref sig .tc := ⟨.hbm, 104, rfl⟩
abbrev main_c_8 : Ref sig .tc := ⟨.hbm, 105, rfl⟩
abbrev main_call2_cst : Ref sig .tc := ⟨.hbm, 106, rfl⟩
abbrev main_call2_v0 : Ref sig .tc := ⟨.hbm, 107, rfl⟩
abbrev main_call2_v1 : Ref sig .tc := ⟨.hbm, 108, rfl⟩
abbrev main_call2_cst_0 : Ref sig .tc := ⟨.hbm, 109, rfl⟩
abbrev main_call2_v2 : Ref sig .tc := ⟨.hbm, 110, rfl⟩
abbrev main_call2_v3 : Ref sig .tc := ⟨.hbm, 111, rfl⟩
abbrev main_call2_v4 : Ref sig .tc := ⟨.hbm, 112, rfl⟩
abbrev main_call2_v5 : Ref sig .tc := ⟨.hbm, 113, rfl⟩
abbrev main_call2_v6 : Ref sig .tc := ⟨.hbm, 114, rfl⟩
abbrev main_call2_v7 : Ref sig .tc := ⟨.hbm, 115, rfl⟩
abbrev main_call2_cst_1 : Ref sig .tc := ⟨.hbm, 116, rfl⟩
abbrev main_call2_v8 : Ref sig .tc := ⟨.hbm, 117, rfl⟩
abbrev main_call2_cst_2 : Ref sig .tc := ⟨.hbm, 118, rfl⟩
abbrev main_call2_v9 : Ref sig .tc := ⟨.hbm, 119, rfl⟩
abbrev main_call2_v10 : Ref sig .tc := ⟨.hbm, 120, rfl⟩
abbrev main_call2_v11 : Ref sig .tc := ⟨.hbm, 121, rfl⟩
abbrev main_call2_v12 : Ref sig .tc := ⟨.hbm, 122, rfl⟩
abbrev main_call2_cst_3 : Ref sig .tc := ⟨.hbm, 123, rfl⟩
abbrev main_call2_v13 : Ref sig .tc := ⟨.hbm, 124, rfl⟩
abbrev main_call2_cst_4 : Ref sig .tc := ⟨.hbm, 125, rfl⟩
abbrev main_call2_call0_v0 : Ref sig .tc := ⟨.hbm, 126, rfl⟩
abbrev main_call2_call0_v1 : Ref sig .tc := ⟨.hbm, 127, rfl⟩
abbrev main_v42 : Ref sig .tc := ⟨.hbm, 128, rfl⟩
abbrev main_v43 : Ref sig .tc := ⟨.hbm, 129, rfl⟩
abbrev main_v44 : Ref sig .tc := ⟨.hbm, 130, rfl⟩
abbrev main_cst_9 : Ref sig .tc := ⟨.hbm, 131, rfl⟩
abbrev main_v45 : Ref sig .tc := ⟨.hbm, 132, rfl⟩
abbrev main_v46 : Ref sig .tc := ⟨.hbm, 133, rfl⟩
abbrev main_v47 : Ref sig .tc := ⟨.hbm, 134, rfl⟩
abbrev main_v48 : Ref sig .tc := ⟨.hbm, 135, rfl⟩
abbrev main_v49 : Ref sig .tc := ⟨.hbm, 136, rfl⟩
abbrev main_v50 : Ref sig .tc := ⟨.hbm, 137, rfl⟩
abbrev main_v51 : Ref sig .tc := ⟨.hbm, 138, rfl⟩
abbrev main_v52 : Ref sig .tc := ⟨.hbm, 139, rfl⟩
abbrev main_v53 : Ref sig .tc := ⟨.hbm, 140, rfl⟩
abbrev main_v54 : Ref sig .tc := ⟨.hbm, 141, rfl⟩
abbrev main_v55 : Ref sig .tc := ⟨.hbm, 142, rfl⟩
abbrev main_v56 : Ref sig .tc := ⟨.hbm, 143, rfl⟩
abbrev main_cst_10 : Ref sig .tc := ⟨.hbm, 144, rfl⟩
abbrev main_v57 : Ref sig .tc := ⟨.hbm, 145, rfl⟩
abbrev main_v58 : Ref sig .tc := ⟨.hbm, 146, rfl⟩
abbrev main_cst_11 : Ref sig .tc := ⟨.hbm, 147, rfl⟩
abbrev main_v59 : Ref sig .tc := ⟨.hbm, 148, rfl⟩
abbrev main_v60 : Ref sig .tc := ⟨.hbm, 149, rfl⟩
abbrev main_c_12 : Ref sig .tc := ⟨.hbm, 150, rfl⟩
abbrev main_call3_cst : Ref sig .tc := ⟨.hbm, 151, rfl⟩
abbrev main_call3_v0 : Ref sig .tc := ⟨.hbm, 152, rfl⟩
abbrev main_call3_v1 : Ref sig .tc := ⟨.hbm, 153, rfl⟩
abbrev main_call3_cst_0 : Ref sig .tc := ⟨.hbm, 154, rfl⟩
abbrev main_call3_v2 : Ref sig .tc := ⟨.hbm, 155, rfl⟩
abbrev main_call3_v3 : Ref sig .tc := ⟨.hbm, 156, rfl⟩
abbrev main_call3_v4 : Ref sig .tc := ⟨.hbm, 157, rfl⟩
abbrev main_call3_v5 : Ref sig .tc := ⟨.hbm, 158, rfl⟩
abbrev main_call3_v6 : Ref sig .tc := ⟨.hbm, 159, rfl⟩
abbrev main_call3_v7 : Ref sig .tc := ⟨.hbm, 160, rfl⟩
abbrev main_call3_cst_1 : Ref sig .tc := ⟨.hbm, 161, rfl⟩
abbrev main_call3_v8 : Ref sig .tc := ⟨.hbm, 162, rfl⟩
abbrev main_call3_cst_2 : Ref sig .tc := ⟨.hbm, 163, rfl⟩
abbrev main_call3_v9 : Ref sig .tc := ⟨.hbm, 164, rfl⟩
abbrev main_call3_v10 : Ref sig .tc := ⟨.hbm, 165, rfl⟩
abbrev main_call3_v11 : Ref sig .tc := ⟨.hbm, 166, rfl⟩
abbrev main_call3_v12 : Ref sig .tc := ⟨.hbm, 167, rfl⟩
abbrev main_call3_cst_3 : Ref sig .tc := ⟨.hbm, 168, rfl⟩
abbrev main_call3_v13 : Ref sig .tc := ⟨.hbm, 169, rfl⟩
abbrev main_call3_cst_4 : Ref sig .tc := ⟨.hbm, 170, rfl⟩
abbrev main_call3_call0_v0 : Ref sig .tc := ⟨.hbm, 171, rfl⟩
abbrev main_call3_call0_v1 : Ref sig .tc := ⟨.hbm, 172, rfl⟩
abbrev main_v61 : Ref sig .tc := ⟨.hbm, 173, rfl⟩
abbrev main_v62 : Ref sig .tc := ⟨.hbm, 174, rfl⟩
abbrev main_v63 : Ref sig .tc := ⟨.hbm, 175, rfl⟩
abbrev main_cst_13 : Ref sig .tc := ⟨.hbm, 176, rfl⟩
abbrev main_v64 : Ref sig .tc := ⟨.hbm, 177, rfl⟩
abbrev main_v65 : Ref sig .tc := ⟨.hbm, 178, rfl⟩
abbrev main_v66 : Ref sig .tc := ⟨.hbm, 179, rfl⟩
abbrev main_v67 : Ref sig .tc := ⟨.hbm, 180, rfl⟩
abbrev main_v68 : Ref sig .tc := ⟨.hbm, 181, rfl⟩
abbrev main_v69 : Ref sig .tc := ⟨.hbm, 182, rfl⟩
abbrev main_v70 : Ref sig .tc := ⟨.hbm, 183, rfl⟩
abbrev main_v71 : Ref sig .tc := ⟨.hbm, 184, rfl⟩
abbrev main_v72 : Ref sig .tc := ⟨.hbm, 185, rfl⟩
abbrev main_v73 : Ref sig .tc := ⟨.hbm, 186, rfl⟩
abbrev main_v74 : Ref sig .tc := ⟨.hbm, 187, rfl⟩
abbrev main_v75 : Ref sig .tc := ⟨.hbm, 188, rfl⟩
abbrev main_v76 : Ref sig .tc := ⟨.hbm, 189, rfl⟩
abbrev main_v77 : Ref sig .tc := ⟨.hbm, 190, rfl⟩
abbrev main_v78 : Ref sig .tc := ⟨.hbm, 191, rfl⟩
abbrev main_cst_14 : Ref sig .tc := ⟨.hbm, 192, rfl⟩
abbrev main_v79 : Ref sig .tc := ⟨.hbm, 193, rfl⟩
abbrev main_v80 : Ref sig .tc := ⟨.hbm, 194, rfl⟩
abbrev main_cst_15 : Ref sig .tc := ⟨.hbm, 195, rfl⟩
abbrev main_v81 : Ref sig .tc := ⟨.hbm, 196, rfl⟩
abbrev main_v82 : Ref sig .tc := ⟨.hbm, 197, rfl⟩
abbrev main_c_16 : Ref sig .tc := ⟨.hbm, 198, rfl⟩
abbrev main_call4_cst : Ref sig .tc := ⟨.hbm, 199, rfl⟩
abbrev main_call4_v0 : Ref sig .tc := ⟨.hbm, 200, rfl⟩
abbrev main_call4_v1 : Ref sig .tc := ⟨.hbm, 201, rfl⟩
abbrev main_call4_cst_0 : Ref sig .tc := ⟨.hbm, 202, rfl⟩
abbrev main_call4_v2 : Ref sig .tc := ⟨.hbm, 203, rfl⟩
abbrev main_call4_v3 : Ref sig .tc := ⟨.hbm, 204, rfl⟩
abbrev main_call4_v4 : Ref sig .tc := ⟨.hbm, 205, rfl⟩
abbrev main_call4_v5 : Ref sig .tc := ⟨.hbm, 206, rfl⟩
abbrev main_call4_v6 : Ref sig .tc := ⟨.hbm, 207, rfl⟩
abbrev main_call4_v7 : Ref sig .tc := ⟨.hbm, 208, rfl⟩
abbrev main_call4_cst_1 : Ref sig .tc := ⟨.hbm, 209, rfl⟩
abbrev main_call4_v8 : Ref sig .tc := ⟨.hbm, 210, rfl⟩
abbrev main_call4_cst_2 : Ref sig .tc := ⟨.hbm, 211, rfl⟩
abbrev main_call4_v9 : Ref sig .tc := ⟨.hbm, 212, rfl⟩
abbrev main_call4_v10 : Ref sig .tc := ⟨.hbm, 213, rfl⟩
abbrev main_call4_v11 : Ref sig .tc := ⟨.hbm, 214, rfl⟩
abbrev main_call4_v12 : Ref sig .tc := ⟨.hbm, 215, rfl⟩
abbrev main_call4_cst_3 : Ref sig .tc := ⟨.hbm, 216, rfl⟩
abbrev main_call4_v13 : Ref sig .tc := ⟨.hbm, 217, rfl⟩
abbrev main_call4_cst_4 : Ref sig .tc := ⟨.hbm, 218, rfl⟩
abbrev main_call4_call0_v0 : Ref sig .tc := ⟨.hbm, 219, rfl⟩
abbrev main_call4_call0_v1 : Ref sig .tc := ⟨.hbm, 220, rfl⟩
abbrev main_v83 : Ref sig .tc := ⟨.hbm, 221, rfl⟩
abbrev main_v84 : Ref sig .tc := ⟨.hbm, 222, rfl⟩
abbrev main_v85 : Ref sig .tc := ⟨.hbm, 223, rfl⟩
abbrev main_cst_17 : Ref sig .tc := ⟨.hbm, 224, rfl⟩
abbrev main_v86 : Ref sig .tc := ⟨.hbm, 225, rfl⟩
abbrev main_v87 : Ref sig .tc := ⟨.hbm, 226, rfl⟩
abbrev main_v88 : Ref sig .tc := ⟨.hbm, 227, rfl⟩
abbrev main_v89 : Ref sig .tc := ⟨.hbm, 228, rfl⟩
abbrev main_v90 : Ref sig .tc := ⟨.hbm, 229, rfl⟩
abbrev main_v91 : Ref sig .tc := ⟨.hbm, 230, rfl⟩
abbrev main_v92 : Ref sig .tc := ⟨.hbm, 231, rfl⟩
abbrev main_v93 : Ref sig .tc := ⟨.hbm, 232, rfl⟩
abbrev main_v94 : Ref sig .tc := ⟨.hbm, 233, rfl⟩
abbrev main_v95 : Ref sig .tc := ⟨.hbm, 234, rfl⟩
abbrev main_v96 : Ref sig .tc := ⟨.hbm, 235, rfl⟩
abbrev main_v97 : Ref sig .tc := ⟨.hbm, 236, rfl⟩

abbrev nD : Nat := 1
abbrev τ : Topo := Topo.v7x

variable {F : FTy → Type} [FloatOps F]

class Facts₀ : Prop where
  reducesTo_S8x2048x1024_S8x2048_d2 : S8x2048x1024.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x1024_0_1_2 : S8x2048x1.BroadcastsInDim S8x2048x1024 (![0, 1, 2] : Fin 3 → Fin S8x2048x1024.rank)
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  reducesTo_S8x2048x2048_S8x2048_d2 : S8x2048x2048.ReducesTo [2] S8x2048
  bcast_S8x2048x1_S8x2048x2048_0_1_2 : S8x2048x1.BroadcastsInDim S8x2048x2048 (![0, 1, 2] : Fin 3 → Fin S8x2048x2048.rank)
  bcast_S2048_S1x1x2048_2 : S2048.BroadcastsInDim S1x1x2048 (![2] : Fin 1 → Fin S1x1x2048.rank)
  bcast_S1x1x2048_S8x2048x2048_0_1_2 : S1x1x2048.BroadcastsInDim S8x2048x2048 (![0, 1, 2] : Fin 3 → Fin S8x2048x2048.rank)
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]
  dot_S8x2048x1024_S1024x1024_S8x2048x1024_2_1_01_0_n_n_wf : DotDims.WF S8x2048x1024 S1024x1024 S8x2048x1024 [2] [1] [0, 1] [0] [] []

variable [Facts₀]

def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf
def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf

class Facts : Prop extends Facts₀ where

variable [Facts]
-- ==== Proof.RefTerm.lean ====
/-
  The reference's result as one term of its nine arguments, stage by stage: the row normalisation of
  each width (mean, deviations, variance, the inverse root, scale and shift), the two batched products
  and the affine map, composed in the order the reference applies them.
-/
import proofs.«402831_j2413771620561_3_alg».proof.Proof.Gen.ReferenceIdeal

noncomputable section

namespace Cert.ReferenceIdeal.Term

open Cert.ReferenceIdeal Cert.ReferenceIdeal.Gen Idealize.ShloMosaic Idealize.ShloMosaic.TcCoe

variable {F : FTy → Type} [FloatOps F]

/-- The row mean over the last axis, width 1024: the sum divided by 1024, one entry per row. -/
def mean1024 (x : FVec F S8x2048x1024 .f32) : FVec F S8x2048x1 .f32 :=
  Host.divf
    (broadcastInDim S8x2048x1 ![0, 1] bcast_S8x2048_S8x2048x1_0_1
      (Host.reduceAdd x (constant S_ .f32 0x00000000#32) reducesTo_S8x2048x1024_S8x2048_d2 h_S_))
    (broadcastInDim S8x2048x1 ![] bcast_S_S8x2048x1 (constant S_ .f32 0x44800000#32))

/-- The count the variance divides by: 1024 minus the integer 0 converted. -/
def cnt1024 : FVec F S_ .f32 :=
  subf (constant S_ .f32 0x44800000#32) (sitofp .f32 (constantI S_ 32 0#32))

/-- The deviations from the row mean. -/
def dev1024 (x : FVec F S8x2048x1024 .f32) : FVec F S8x2048x1024 .f32 :=
  subf x (broadcastInDim S8x2048x1024 ![0, 1, 2] bcast_S8x2048x1_S8x2048x1024_0_1_2 (mean1024 x))

/-- The row variance, width 1024: where the count is positive, the sum of squared deviations divided by it. -/
def var1024 (x : FVec F S8x2048x1024 .f32) : FVec F S8x2048x1 .f32 :=
  select (broadcastInDim S8x2048x1 ![] bcast_S_S8x2048x1 (cmpf .ogt (cnt1024 (F := F)) (constant S_ .f32 0x00000000#32)))
    (Host.divf
      (broadcastInDim S8x2048x1 ![0, 1] bcast_S8x2048_S8x2048x1_0_1
        (Host.reduceAdd (mulf (dev1024 x) (dev1024 x)) (constant S_ .f32 0x00000000#32) reducesTo_S8x2048x1024_S8x2048_d2 h_S_))
      (broadcastInDim S8x2048x1 ![] bcast_S_S8x2048x1 (cnt1024 (F := F))))
    (broadcastInDim S8x2048x1 ![] bcast_S_S8x2048x1 (id (constant S_ .f32 0x7FC00000#32)))

/-- The row normalisation, width 1024: `(x − mean) · rsqrt(var + ε) · scale + shift`. -/
def ln1024 (x : FVec F S8x2048x1024 .f32) (g b : FVec F S1024 .f32) : FVec F S8x2048x1024 .f32 :=
  addf
    (mulf
      (mulf (dev1024 x)
        (broadcastInDim S8x2048x1024 ![0, 1, 2] bcast_S8x2048x1_S8x2048x1024_0_1_2
          (Host.rsqrt (addf (var1024 x) (broadcastInDim S8x2048x1 ![] bcast_S_S8x2048x1 (constant S_ .f32 0x3727C5AC#32))))))
      (broadcastInDim S8x2048x1024 ![0, 1, 2] bcast_S1x1x1024_S8x2048x1024_0_1_2 (broadcastInDim S1x1x1024 ![2] bcast_S1024_S1x1x1024_2 g)))
    (broadcastInDim S8x2048x1024 ![0, 1, 2] bcast_S1x1x1024_S8x2048x1024_0_1_2 (broadcastInDim S1x1x1024 ![2] bcast_S1024_S1x1x1024_2 b))

/-- The row mean over the last axis, width 2048: the sum divided by 2048, one entry per row. -/
def mean2048 (x : FVec F S8x2048x2048 .f32) : FVec F S8x2048x1 .f32 :=
  Host.divf
    (broadcastInDim S8x2048x1 ![0, 1] bcast_S8x2048_S8x2048x1_0_1
      (Host.reduceAdd x (constant S_ .f32 0x00000000#32) reducesTo_S8x2048x2048_S8x2048_d2 h_S_))
    (broadcastInDim S8x2048x1 ![] bcast_S_S8x2048x1 (constant S_ .f32 0x45000000#32))

/-- The count the variance divides by: 2048 minus the integer 0 converted. -/
def cnt2048 : FVec F S_ .f32 :=
  subf (constant S_ .f32 0x45000000#32) (sitofp .f32 (constantI S_ 32 0#32))

/-- The deviations from the row mean. -/
def dev2048 (x : FVec F S8x2048x2048 .f32) : FVec F S8x2048x2048 .f32 :=
  subf x (broadcastInDim S8x2048x2048 ![0, 1, 2] bcast_S8x2048x1_S8x2048x2048_0_1_2 (mean2048 x))

/-- The row variance, width 2048: where the count is positive, the sum of squared deviations divided by it. -/
def var2048 (x : FVec F S8x2048x2048 .f32) : FVec F S8x2048x1 .f32 :=
  select (broadcastInDim S8x2048x1 ![] bcast_S_S8x2048x1 (cmpf .ogt (cnt2048 (F := F)) (constant S_ .f32 0x00000000#32)))
    (Host.divf
      (broadcastInDim S8x2048x1 ![0, 1] bcast_S8x2048_S8x2048x1_0_1
        (Host.reduceAdd (mulf (dev2048 x) (dev2048 x)) (constant S_ .f32 0x00000000#32) reducesTo_S8x2048x2048_S8x2048_d2 h_S_))
      (broadcastInDim S8x2048x1 ![] bcast_S_S8x2048x1 (cnt2048 (F := F))))
    (broadcastInDim S8x2048x1 ![] bcast_S_S8x2048x1 (id (constant S_ .f32 0x7FC00000#32)))

/-- The row normalisation, width 2048: `(x − mean) · rsqrt(var + ε) · scale + shift`. -/
def ln2048 (x : FVec F S8x2048x2048 .f32) (g b : FVec F S2048 .f32) : FVec F S8x2048x2048 .f32 :=
  addf
    (mulf
      (mulf (dev2048 x)
        (broadcastInDim S8x2048x2048 ![0, 1, 2] bcast_S8x2048x1_S8x2048x2048_0_1_2
          (Host.rsqrt (addf (var2048 x) (broadcastInDim S8x2048x1 ![] bcast_S_S8x2048x1 (constant S_ .f32 0x3727C5AC#32))))))
      (broadcastInDim S8x2048x2048 ![0, 1, 2] bcast_S1x1x2048_S8x2048x2048_0_1_2 (broadcastInDim S1x1x2048 ![2] bcast_S2048_S1x1x2048_2 g)))
    (broadcastInDim S8x2048x2048 ![0, 1, 2] bcast_S1x1x2048_S8x2048x2048_0_1_2 (broadcastInDim S1x1x2048 ![2] bcast_S2048_S1x1x2048_2 b))

/-- The normalised token rows. -/
def tokT (x : FVec F S8x2048x1024 .f32) (g1 b1 : FVec F S1024 .f32) : FVec F S8x2048x1024 .f32 := ln1024 x g1 b1

/-- The first residual: the token rows mixed by their normalised scores, normalised, plus the input. -/
def res1T (x : FVec F S8x2048x1024 .f32) (g1 b1 : FVec F S1024 .f32) (g2 b2 : FVec F S2048 .f32) : FVec F S8x2048x1024 .f32 :=
  addf
    (ln1024
      (Host.dotGeneral dot_S8x2048x2048_S8x2048x1024_S8x2048x1024_2_1_1_2_0_0 none
        (ln2048 (Host.dotGeneral dot_S8x2048x1024_S8x2048x1024_S8x2048x2048_2_2_1_1_0_0 none (tokT x g1 b1) (tokT x g1 b1)) g2 b2)
        (tokT x g1 b1))
      g1 b1)
    x

/-- The affine map of the normalised first residual. -/
def linT (r : FVec F S8x2048x1024 .f32) (w : FVec F S1024x1024 .f32) (wb g3 b3 : FVec F S1024 .f32) : FVec F S8x2048x1024 .f32 :=
  addf (Host.dotGeneral dot_S8x2048x1024_S1024x1024_S8x2048x1024_2_1_01_0_n_n none (ln1024 r g3 b3) w)
    (broadcastInDim S8x2048x1024 ![0, 1, 2] bcast_S1x1x1024_S8x2048x1024_0_1_2 (broadcastInDim S1x1x1024 ![2] bcast_S1024_S1x1x1024_2 wb))

/-- The reference's result, of its arguments in @main's order: x, token scale and shift, score scale and shift,
    weight, bias, second scale and shift. -/
def refOut (x : FVec F S8x2048x1024 .f32) (g1 b1 : FVec F S1024 .f32) (g2 b2 : FVec F S2048 .f32)
    (w : FVec F S1024x1024 .f32) (wb g3 b3 : FVec F S1024 .f32) : FVec F S8x2048x1024 .f32 :=
  addf (ln1024 (linT (res1T x g1 b1 g2 b2) w wb g3 b3) g3 b3) (res1T x g1 b1 g2 b2)

end Cert.ReferenceIdeal.Term

end
-- ==== Proof.Spec.lean ====
/-
  The mathematics of the block, over the extended reals.

  A row `v` of width `n` is normalised in two ways. The one-pass form takes the mean as `s·c` and the
  variance as `s₂·c − (s·c)²`, with `s = ∑ v`, `s₂ = ∑ v²` and `c` the reciprocal of the width; the
  two-pass form takes the mean as `s / N` and the variance as `(∑ (v − mean)²) / N`. On a row of real
  numbers, with `N = n` and `c = 1/N`, the two agree: `∑ (v − μ)² = s₂ − 2 μ s + n μ²`.
  The block itself (`net`) is stated once over an abstract row normalisation of each width:
  normalise every token row, take the scores of one token against all, normalise the score row over
  the tokens, mix the token rows by it, normalise, add the input, then normalise, apply the affine
  map, normalise and add again.
-/
import Idealize.ShloMosaic.PureOps.Ideal
import Idealize.ShloMosaic.Lib.ValueIdx

noncomputable section

namespace Cert.Spec

open Idealize.ShloMosaic Idealize.ShloMosaic.ValueIdx
open scoped BigOperators

/-- One-pass row normalisation: mean `s·c`, variance `s₂·c − (s·c)·(s·c)`. -/
def lnK {n : ℕ} (c eps : EReal) (v g b : Fin n → EReal) (k : Fin n) : EReal :=
  (v k - (∑ j, v j) * c)
      * Ideal.rsqrt (((∑ j, v j * v j) * c - (∑ j, v j) * c * ((∑ j, v j) * c)) + eps) * g k + b k

/-- Two-pass row normalisation: mean `s / N`, variance `(∑ (v − mean)·(v − mean)) / N`. -/
def lnR {n : ℕ} (N eps : EReal) (v g b : Fin n → EReal) (k : Fin n) : EReal :=
  (v k - Ideal.div (∑ j, v j) N)
      * Ideal.rsqrt (Ideal.div (∑ j, (v j - Ideal.div (∑ i, v i) N) * (v j - Ideal.div (∑ i, v i) N)) N + eps)
      * g k + b k

/-- A row normalisation of width `n`: the row, the scale, the shift, the position. -/
abbrev RowNorm (n : ℕ) := (Fin n → EReal) → (Fin n → EReal) → (Fin n → EReal) → Fin n → EReal

section Net

variable (L : RowNorm 1024) (L' : RowNorm 2048)
variable (x : Fin 8 → Fin 2048 → Fin 1024 → EReal) (g1 b1 : Fin 1024 → EReal) (g2 b2 : Fin 2048 → EReal)
variable (w : Fin 1024 → Fin 1024 → EReal) (wb g3 b3 : Fin 1024 → EReal)

/-- The normalised token rows of batch `p`. -/
def tok (p : Fin 8) (n : Fin 2048) : Fin 1024 → EReal := L (x p n) g1 b1

/-- Token `n`'s scores against every token of its batch. -/
def score (p : Fin 8) (n : Fin 2048) (m : Fin 2048) : EReal := ∑ d, tok L x g1 b1 p n d * tok L x g1 b1 p m d

/-- The score row normalised over the tokens. -/
def inter (p : Fin 8) (n : Fin 2048) : Fin 2048 → EReal := L' (score L x g1 b1 p n) g2 b2

/-- The token rows mixed by the normalised scores. -/
def mix (p : Fin 8) (n : Fin 2048) (d : Fin 1024) : EReal :=
  ∑ m, inter L L' x g1 b1 g2 b2 p n m * tok L x g1 b1 p m d

/-- The mixed row normalised, plus the input row. -/
def res1 (p : Fin 8) (n : Fin 2048) (d : Fin 1024) : EReal :=
  L (mix L L' x g1 b1 g2 b2 p n) g1 b1 d + x p n d

/-- The affine map of the normalised first residual: `∑ d, h d · w e d + wb e`. -/
def lin (p : Fin 8) (n : Fin 2048) (e : Fin 1024) : EReal :=
  (∑ d, L (res1 L L' x g1 b1 g2 b2 p n) g3 b3 d * w e d) + wb e

/-- The block's result at batch `p`, token `n`, feature `e`. -/
def net (p : Fin 8) (n : Fin 2048) (e : Fin 1024) : EReal :=
  L (lin L L' x g1 b1 g2 b2 w wb g3 b3 p n) g3 b3 e + res1 L L' x g1 b1 g2 b2 p n e

end Net

/-- Reading an array of each shape by coordinates. -/
abbrev arr3 (X : (⟨3, ![8, 2048, 1024]⟩ : Shape).Idx → EReal) : Fin 8 → Fin 2048 → Fin 1024 → EReal :=
  fun p n d => X (ix3 p n d)
abbrev arr2 (W : (⟨2, ![1024, 1024]⟩ : Shape).Idx → EReal) : Fin 1024 → Fin 1024 → EReal :=
  fun e d => W (ix2 e d)
abbrev arr1 {n : ℕ} (G : (⟨1, ![n]⟩ : Shape).Idx → EReal) : Fin n → EReal := fun k => G (ix1 k)

/-- The result array over an abstract pair of row normalisations, from the nine argument arrays in the
    order x, token scale, token shift, score scale, score shift, weight, bias, second scale, second shift. -/
def out (L : RowNorm 1024) (L' : RowNorm 2048)
    (X : (⟨3, ![8, 2048, 1024]⟩ : Shape).Idx → EReal) (G1 B1 : (⟨1, ![1024]⟩ : Shape).Idx → EReal)
    (G2 B2 : (⟨1, ![2048]⟩ : Shape).Idx → EReal) (W : (⟨2, ![1024, 1024]⟩ : Shape).Idx → EReal)
    (WB G3 B3 : (⟨1, ![1024]⟩ : Shape).Idx → EReal) : (⟨3, ![8, 2048, 1024]⟩ : Shape).Idx → EReal :=
  fun i => net L L' (arr3 X) (arr1 G1) (arr1 B1) (arr1 G2) (arr1 B2) (arr2 W) (arr1 WB) (arr1 G3) (arr1 B3)
    (i 0) (i 1) (i 2)

/-- Every entry is a real number. -/
def Real1 {n : ℕ} (v : Fin n → EReal) : Prop := ∀ k, ∃ r : ℝ, v k = (r : EReal)

/-! ### Reals inside the extended reals -/

/-- A finite sum of reals, taken in the extended reals, is the real sum. -/
theorem coe_sum {ι : Type*} (s : Finset ι) (r : ι → ℝ) :
    (∑ j ∈ s, ((r j : ℝ) : EReal)) = ((∑ j ∈ s, r j : ℝ) : EReal) := by
  classical
  induction s using Finset.induction_on with
  | empty => simp
  | insert a s ha ih => rw [Finset.sum_insert ha, Finset.sum_insert ha, EReal.coe_add, ih]

/-- The variance identity on a real row: `s₂/N − (s/N)² = (∑ (r − s/N)²)/N` when `N` is the width. -/
theorem var_identity {n : ℕ} (N : ℝ) (hn : (n : ℝ) = N) (hN : N ≠ 0) (r : Fin n → ℝ) :
    (∑ j, r j * r j) * (1 / N) - (∑ j, r j) * (1 / N) * ((∑ j, r j) * (1 / N))
      = (∑ j, (r j - (∑ i, r i) * (1 / N)) * (r j - (∑ i, r i) * (1 / N))) * (1 / N) := by
  have h : ∀ μ : ℝ, (∑ j, (r j - μ) * (r j - μ))
      = (∑ j, r j * r j) - 2 * μ * (∑ j, r j) + (n : ℝ) * (μ * μ) := by
    intro μ
    have : ∀ j, (r j - μ) * (r j - μ) = r j * r j - 2 * μ * r j + μ * μ := fun j => by ring
    simp only [this, Finset.sum_add_distrib, Finset.sum_sub_distrib, ← Finset.mul_sum,
      Finset.sum_const, Finset.card_univ, Fintype.card_fin, nsmul_eq_mul]
    ring
  rw [h, hn]
  field_simp
  ring

/-- A finite sum of products of two real families is a real. -/
theorem real_sum_mul {ι : Type*} [Fintype ι] (a b : ι → EReal)
    (ha : ∀ i, ∃ r : ℝ, a i = (r : EReal)) (hb : ∀ i, ∃ r : ℝ, b i = (r : EReal)) :
    ∃ r : ℝ, (∑ i, a i * b i) = (r : EReal) := by
  choose ra hra using ha
  choose rb hrb using hb
  refine ⟨∑ i, ra i * rb i, ?_⟩
  simp only [hra, hrb, ← EReal.coe_mul, coe_sum]

/-- The sum of two reals is a real. -/
theorem real_add {a b : EReal} (ha : ∃ r : ℝ, a = (r : EReal)) (hb : ∃ r : ℝ, b = (r : EReal)) :
    ∃ r : ℝ, a + b = (r : EReal) := by
  obtain ⟨ra, rfl⟩ := ha
  obtain ⟨rb, rfl⟩ := hb
  exact ⟨ra + rb, (EReal.coe_add _ _).symm⟩

/-- Two pairs of row normalisations that agree on real rows, the second pair keeping real rows real, give the
    same block on real arguments: every stage's rows are real, so the stages agree one after the other. -/
theorem net_agree {K R : RowNorm 1024} {K' R' : RowNorm 2048}
    (hKR : ∀ v g b, Real1 v → K v g b = R v g b)
    (hR : ∀ v g b, Real1 v → Real1 g → Real1 b → Real1 (R v g b))
    (hKR' : ∀ v g b, Real1 v → K' v g b = R' v g b)
    (hR' : ∀ v g b, Real1 v → Real1 g → Real1 b → Real1 (R' v g b))
    (x : Fin 8 → Fin 2048 → Fin 1024 → EReal) (g1 b1 : Fin 1024 → EReal) (g2 b2 : Fin 2048 → EReal)
    (w : Fin 1024 → Fin 1024 → EReal) (wb g3 b3 : Fin 1024 → EReal)
    (hx : ∀ p n, Real1 (x p n)) (hg1 : Real1 g1) (hb1 : Real1 b1) (hg2 : Real1 g2) (hb2 : Real1 b2)
    (hw : ∀ e', Real1 (w e')) (hwb : Real1 wb) (hg3 : Real1 g3) (hb3 : Real1 b3) :
    net K K' x g1 b1 g2 b2 w wb g3 b3 = net R R' x g1 b1 g2 b2 w wb g3 b3 := by
  -- the token rows
  have tok_eq : tok K x g1 b1 = tok R x g1 b1 := by
    funext p n
    exact hKR _ _ _ (hx p n)
  have tok_re : ∀ p n, Real1 (tok R x g1 b1 p n) := fun p n => hR _ _ _ (hx p n) hg1 hb1
  -- the scores
  have score_eq : score K x g1 b1 = score R x g1 b1 := by
    funext p n m
    show (∑ d, tok K x g1 b1 p n d * tok K x g1 b1 p m d) = ∑ d, tok R x g1 b1 p n d * tok R x g1 b1 p m d
    rw [tok_eq]
  have score_re : ∀ p n, Real1 (score R x g1 b1 p n) := fun p n m =>
    real_sum_mul (tok R x g1 b1 p n) (tok R x g1 b1 p m) (tok_re p n) (tok_re p m)
  -- the normalised scores
  have inter_eq : inter K K' x g1 b1 g2 b2 = inter R R' x g1 b1 g2 b2 := by
    funext p n
    show K' (score K x g1 b1 p n) g2 b2 = R' (score R x g1 b1 p n) g2 b2
    rw [score_eq]
    exact hKR' _ _ _ (score_re p n)
  have inter_re : ∀ p n, Real1 (inter R R' x g1 b1 g2 b2 p n) := fun p n =>
    hR' _ _ _ (score_re p n) hg2 hb2
  -- the mixed rows
  have mix_eq : mix K K' x g1 b1 g2 b2 = mix R R' x g1 b1 g2 b2 := by
    funext p n d
    show (∑ m, inter K K' x g1 b1 g2 b2 p n m * tok K x g1 b1 p m d)
      = ∑ m, inter R R' x g1 b1 g2 b2 p n m * tok R x g1 b1 p m d
    rw [inter_eq, tok_eq]
  have mix_re : ∀ p n, Real1 (mix R R' x g1 b1 g2 b2 p n) := fun p n d =>
    real_sum_mul (inter R R' x g1 b1 g2 b2 p n) (fun m => tok R x g1 b1 p m d) (inter_re p n)
      (fun m => tok_re p m d)
  -- the first residual
  have res1_eq : res1 K K' x g1 b1 g2 b2 = res1 R R' x g1 b1 g2 b2 := by
    funext p n d
    show K (mix K K' x g1 b1 g2 b2 p n) g1 b1 d + x p n d = R (mix R R' x g1 b1 g2 b2 p n) g1 b1 d + x p n d
    rw [mix_eq, hKR _ _ _ (mix_re p n)]
  have res1_re : ∀ p n, Real1 (res1 R R' x g1 b1 g2 b2 p n) := fun p n d =>
    real_add (hR _ _ _ (mix_re p n) hg1 hb1 d) (hx p n d)
  -- the affine map
  have lin_eq : lin K K' x g1 b1 g2 b2 w wb g3 b3 = lin R R' x g1 b1 g2 b2 w wb g3 b3 := by
    funext p n e
    show (∑ d, K (res1 K K' x g1 b1 g2 b2 p n) g3 b3 d * w e d) + wb e
      = (∑ d, R (res1 R R' x g1 b1 g2 b2 p n) g3 b3 d * w e d) + wb e
    rw [res1_eq, hKR _ _ _ (res1_re p n)]
  have lin_re : ∀ p n, Real1 (lin R R' x g1 b1 g2 b2 w wb g3 b3 p n) := fun p n e =>
    real_add
      (real_sum_mul (R (res1 R R' x g1 b1 g2 b2 p n) g3 b3) (w e) (hR _ _ _ (res1_re p n) hg3 hb3) (hw e))
      (hwb e)
  -- the result
  funext p n e
  show K (lin K K' x g1 b1 g2 b2 w wb g3 b3 p n) g3 b3 e + res1 K K' x g1 b1 g2 b2 p n e
    = R (lin R R' x g1 b1 g2 b2 w wb g3 b3 p n) g3 b3 e + res1 R R' x g1 b1 g2 b2 p n e
  rw [lin_eq, res1_eq, hKR _ _ _ (lin_re p n)]

/-- On a row of reals the two normalisations agree, when the divisor is the width and the factor its reciprocal. -/
theorem lnK_eq_lnR {n : ℕ} (N e : ℝ) (hn : (n : ℝ) = N) (hN : N ≠ 0) (v g b : Fin n → EReal) (hv : Real1 v) :
    lnK (((1 / N : ℝ)) : EReal) (e : EReal) v g b = lnR (N : EReal) (e : EReal) v g b := by
  choose r hr using hv
  obtain rfl : v = fun k => ((r k : ℝ) : EReal) := funext hr
  funext k
  have hvar : ((∑ j, ((r j : ℝ) : EReal) * ((r j : ℝ) : EReal)) * ((1 / N : ℝ) : EReal)
        - (∑ j, ((r j : ℝ) : EReal)) * ((1 / N : ℝ) : EReal)
            * ((∑ j, ((r j : ℝ) : EReal)) * ((1 / N : ℝ) : EReal)))
      = (∑ j, (((r j : ℝ) : EReal) - (∑ i, ((r i : ℝ) : EReal)) * ((1 / N : ℝ) : EReal))
            * (((r j : ℝ) : EReal) - (∑ i, ((r i : ℝ) : EReal)) * ((1 / N : ℝ) : EReal)))
          * ((1 / N : ℝ) : EReal) := by
    simp only [← EReal.coe_mul, coe_sum, ← EReal.coe_sub]
    exact congrArg _ (var_identity N hn hN r)
  simp only [lnK, lnR, Ideal.div_coe hN]
  rw [hvar]

/-- A normalised row of reals, with real scale and shift and a positive `ε`, is a row of reals: the variance is a
    mean of squares, so `variance + ε > 0` and its inverse root is real. -/
theorem lnR_real {n : ℕ} (N e : ℝ) (hN : 0 < N) (he : 0 < e) (v g b : Fin n → EReal)
    (hv : Real1 v) (hg : Real1 g) (hb : Real1 b) : Real1 (lnR (N : EReal) (e : EReal) v g b) := by
  choose r hr using hv
  choose gr hgr using hg
  choose br hbr using hb
  obtain rfl : v = fun k => ((r k : ℝ) : EReal) := funext hr
  obtain rfl : g = fun k => ((gr k : ℝ) : EReal) := funext hgr
  obtain rfl : b = fun k => ((br k : ℝ) : EReal) := funext hbr
  intro k
  have hpos : 0 < (∑ j, (r j - (∑ i, r i) * (1 / N)) * (r j - (∑ i, r i) * (1 / N))) * (1 / N) + e :=
    add_pos_of_nonneg_of_pos
      (mul_nonneg (Finset.sum_nonneg (fun j _ => mul_self_nonneg _)) (one_div_pos.mpr hN).le) he
  refine ⟨(r k - (∑ i, r i) * (1 / N))
      * (Real.sqrt ((∑ j, (r j - (∑ i, r i) * (1 / N)) * (r j - (∑ i, r i) * (1 / N))) * (1 / N) + e))⁻¹
      * gr k + br k, ?_⟩
  simp only [lnR, Ideal.div_coe hN.ne', ← EReal.coe_mul, coe_sum, ← EReal.coe_sub, ← EReal.coe_add]
  rw [Ideal.rsqrt_coe, if_neg (not_lt.mpr hpos.le), if_neg hpos.ne']
  simp only [← EReal.coe_mul, ← EReal.coe_add]

/-- On real arguments the block over the one-pass normalisations is the block over the two-pass ones. -/
theorem net_lnK_eq_lnR (e : ℝ) (he : 0 < e)
    (x : Fin 8 → Fin 2048 → Fin 1024 → EReal) (g1 b1 : Fin 1024 → EReal) (g2 b2 : Fin 2048 → EReal)
    (w : Fin 1024 → Fin 1024 → EReal) (wb g3 b3 : Fin 1024 → EReal)
    (hx : ∀ p n, Real1 (x p n)) (hg1 : Real1 g1) (hb1 : Real1 b1) (hg2 : Real1 g2) (hb2 : Real1 b2)
    (hw : ∀ e', Real1 (w e')) (hwb : Real1 wb) (hg3 : Real1 g3) (hb3 : Real1 b3) :
    net (lnK (((1 / 1024 : ℝ)) : EReal) (e : EReal)) (lnK (((1 / 2048 : ℝ)) : EReal) (e : EReal)) x g1 b1 g2 b2 w wb g3 b3
      = net (lnR ((1024 : ℝ) : EReal) (e : EReal)) (lnR ((2048 : ℝ) : EReal) (e : EReal)) x g1 b1 g2 b2 w wb g3 b3 := by
  exact net_agree
    (fun v g b hv => lnK_eq_lnR 1024 e (by norm_num) (by norm_num) v g b hv)
    (fun v g b hv hg hb => lnR_real 1024 e (by norm_num) he v g b hv hg hb)
    (fun v g b hv => lnK_eq_lnR 2048 e (by norm_num) (by norm_num) v g b hv)
    (fun v g b hv hg hb => lnR_real 2048 e (by norm_num) he v g b hv hg hb)
    x g1 b1 g2 b2 w wb g3 b3 hx hg1 hb1 hg2 hb2 hw hwb hg3 hb3

end Cert.Spec

end
-- ==== Proof.Consts.lean ====
/-
  The float words the two programs spell, as the extended reals they denote: the reciprocals of the two
  widths are exact powers of two, so the kernel's factor `2⁻¹⁰` is the real `1/1024` and `2⁻¹¹` is `1/2048`;
  the reference's divisors are the reals `1024` and `2048`; `ε` is a positive real.
-/
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_1024 : Ideal.ofBits .f32 0x44800000#32 = ((1024 : ℝ) : EReal) := by
  simp [Ideal.ofBits, Ideal.ieee, -EReal.coe_mul]; norm_num

theorem ofBits_2048 : Ideal.ofBits .f32 0x45000000#32 = ((2048 : ℝ) : EReal) := by
  simp [Ideal.ofBits, Ideal.ieee, -EReal.coe_mul]; norm_num

theorem ofBits_inv1024 : Ideal.ofBits .f32 0x3A800000#32 = ((1 / 1024 : ℝ) : EReal) := by
  simp [Ideal.ofBits, Ideal.ieee, -EReal.coe_mul]; norm_num

theorem ofBits_inv2048 : Ideal.ofBits .f32 0x3A000000#32 = ((1 / 2048 : ℝ) : EReal) := by
  simp [Ideal.ofBits, Ideal.ieee, -EReal.coe_mul]; norm_num

/-- The real `ε` denotes. -/
def epsR : ℝ := 10995116 / 2 ^ 40

theorem epsR_pos : 0 < epsR := by unfold epsR; norm_num

theorem ofBits_eps : Ideal.ofBits .f32 0x3727C5AC#32 = ((epsR : ℝ) : EReal) := by
  unfold epsR
  simp [Ideal.ofBits, Ideal.ieee, -EReal.coe_mul]; norm_num

end Cert.Consts

end
-- ==== Proof.Finite.lean ====
/-
  From the precondition to real entries. The precondition says, array by array, that every entry's absolute
  value is below `+∞`; an extended real whose absolute value `max x (−x)` is below `+∞` is neither
  infinity, so it is a real number.
-/
import proofs.«402831_j2413771620561_3_alg».proof.Pre_finite_inputs
import proofs.«402831_j2413771620561_3_alg».proof.Proof.Gen.Pre_finite_inputs
import Idealize.ShloMosaic.Lib.ReduceAll
import Idealize.ShloMosaic.Lib.Affine
import Idealize.ShloMosaic.Lib.ValueIdx
import Idealize.ShloMosaic.PureOps.Ideal

noncomputable section

namespace Cert.Finite

open Idealize.ShloMosaic Cert.Pre_finite_inputs Cert.Pre_finite_inputs.Gen

instance : Subsingleton S_.Idx := ⟨fun a b => funext fun d => d.elim0⟩

/-- The word of `+∞` denotes the top element. -/
theorem ofBits_inf : Ideal.ofBits .f32 0x7F800000#32 = ⊤ := by
  simp [Ideal.ofBits, Ideal.ieee]

/-- An extended real whose absolute value is below `+∞` is a real. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- Where the mask "absolute value below `+∞`" of an array is set, the entry is a real. -/
theorem entry_real {s : Shape} (a : FVec Ideal s .f32) (hb : S_.BroadcastsInDim s (![] : Fin 0 → Fin s.rank)) (i : s.Idx)
    (h : cmpf .olt (Host.absf a) (broadcastInDim s ![] hb (constant (F := Ideal) S_ .f32 0x7F800000#32)) i = 1#1) :
    ∃ r : ℝ, a i = (r : EReal) := by
  have h' : Ideal.cmp .olt (max (a i) (-(a i))) (Ideal.ofBits .f32 0x7F800000#32) = 1#1 := h
  rw [ofBits_inf] at h'
  exact real_of_abs_lt_top _ h'

/-- Under the precondition every entry of every argument array is a real. -/
theorem real_of_pre (a0 : FVec Ideal S8x2048x1024 .f32) (a1 a2 : FVec Ideal S1024 .f32) (a3 a4 : FVec Ideal S2048 .f32)
    (a5 : FVec Ideal S1024x1024 .f32) (a6 a7 a8 : FVec Ideal S1024 .f32)
    (h : fn (F := Ideal) a0 a1 a2 a3 a4 a5 a6 a7 a8 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) ∧ (∀ i, ∃ r : ℝ, a8 i = (r : EReal)) := by
  have h0 := congrFun h ValueIdx.ix0
  dsimp only [fn, fn_part1, fn_part2] at h0
  obtain ⟨h0, e8⟩ := IntOp.andi_eq_one.mp h0
  obtain ⟨h0, e7⟩ := IntOp.andi_eq_one.mp h0
  obtain ⟨h0, e6⟩ := IntOp.andi_eq_one.mp h0
  obtain ⟨h0, e5⟩ := IntOp.andi_eq_one.mp h0
  obtain ⟨h0, e4⟩ := IntOp.andi_eq_one.mp h0
  obtain ⟨h0, e3⟩ := IntOp.andi_eq_one.mp h0
  obtain ⟨h0, e2⟩ := IntOp.andi_eq_one.mp h0
  obtain ⟨e0, e1⟩ := IntOp.andi_eq_one.mp h0
  exact ⟨fun i => entry_real a0 _ i (Host.reduce_andi_all _ _ _ _ ValueIdx.ix0 e0 i),
    fun i => entry_real a1 _ i (Host.reduce_andi_all _ _ _ _ ValueIdx.ix0 e1 i),
    fun i => entry_real a2 _ i (Host.reduce_andi_all _ _ _ _ ValueIdx.ix0 e2 i),
    fun i => entry_real a3 _ i (Host.reduce_andi_all _ _ _ _ ValueIdx.ix0 e3 i),
    fun i => entry_real a4 _ i (Host.reduce_andi_all _ _ _ _ ValueIdx.ix0 e4 i),
    fun i => entry_real a5 _ i (Host.reduce_andi_all _ _ _ _ ValueIdx.ix0 e5 i),
    fun i => entry_real a6 _ i (Host.reduce_andi_all _ _ _ _ ValueIdx.ix0 e6 i),
    fun i => entry_real a7 _ i (Host.reduce_andi_all _ _ _ _ ValueIdx.ix0 e7 i),
    fun i => entry_real a8 _ i (Host.reduce_andi_all _ _ _ _ ValueIdx.ix0 e8 i)⟩

end Cert.Finite

end
-- ==== Proof.Assemble.lean ====
/-
  The five claims from three facts: the kernel's run ends with its result array at the block over the
  one-pass normalisations of its arguments; the reference's run ends with its result at the reference's
  composed term; and that term, read index by index, is the block over the two-pass normalisations.
  Under the precondition every argument entry is real, so the two blocks agree.
-/
import proofs.«402831_j2413771620561_3_alg».proof.Defs
import proofs.«402831_j2413771620561_3_alg».proof.Proof.Gen.Kernel.Frame
import proofs.«402831_j2413771620561_3_alg».proof.Proof.Gen.KernelIdeal.Frame
import proofs.«402831_j2413771620561_3_alg».proof.Proof.Gen.ReferenceIdeal
import proofs.«402831_j2413771620561_3_alg».proof.Proof.Gen.Pre_finite_inputs
import proofs.«402831_j2413771620561_3_alg».proof.Proof.RefTerm
import proofs.«402831_j2413771620561_3_alg».proof.Proof.Spec
import proofs.«402831_j2413771620561_3_alg».proof.Proof.Consts
import proofs.«402831_j2413771620561_3_alg».proof.Proof.Finite

noncomputable section

namespace Cert.Assemble

open Idealize.ShloMosaic Idealize.SL.Sem Cert.Spec

/-- The one-pass and the two-pass normalisations of the two widths, with the programs' constants as reals. -/
abbrev LK : RowNorm 1024 := lnK (((1 / 1024 : ℝ)) : EReal) ((Cert.Consts.epsR : ℝ) : EReal)
abbrev LK' : RowNorm 2048 := lnK (((1 / 2048 : ℝ)) : EReal) ((Cert.Consts.epsR : ℝ) : EReal)
abbrev LR : RowNorm 1024 := lnR ((1024 : ℝ) : EReal) ((Cert.Consts.epsR : ℝ) : EReal)
abbrev LR' : RowNorm 2048 := lnR ((2048 : ℝ) : EReal) ((Cert.Consts.epsR : ℝ) : EReal)

/-- On arrays of reals the result array over the one-pass normalisations is the one over the two-pass ones. -/
theorem out_eq (X : (⟨3, ![8, 2048, 1024]⟩ : Shape).Idx → EReal) (G1 B1 : (⟨1, ![1024]⟩ : Shape).Idx → EReal)
    (G2 B2 : (⟨1, ![2048]⟩ : Shape).Idx → EReal) (W : (⟨2, ![1024, 1024]⟩ : Shape).Idx → EReal)
    (WB G3 B3 : (⟨1, ![1024]⟩ : Shape).Idx → EReal)
    (hX : ∀ i, ∃ r : ℝ, X i = (r : EReal)) (hG1 : ∀ i, ∃ r : ℝ, G1 i = (r : EReal)) (hB1 : ∀ i, ∃ r : ℝ, B1 i = (r : EReal))
    (hG2 : ∀ i, ∃ r : ℝ, G2 i = (r : EReal)) (hB2 : ∀ i, ∃ r : ℝ, B2 i = (r : EReal)) (hW : ∀ i, ∃ r : ℝ, W i = (r : EReal))
    (hWB : ∀ i, ∃ r : ℝ, WB i = (r : EReal)) (hG3 : ∀ i, ∃ r : ℝ, G3 i = (r : EReal)) (hB3 : ∀ i, ∃ r : ℝ, B3 i = (r : EReal)) :
    out LK LK' X G1 B1 G2 B2 W WB G3 B3 = out LR LR' X G1 B1 G2 B2 W WB G3 B3 := by
  funext i
  exact congrFun (congrFun (congrFun
    (net_lnK_eq_lnR Cert.Consts.epsR Cert.Consts.epsR_pos (arr3 X) (arr1 G1) (arr1 B1) (arr1 G2) (arr1 B2) (arr2 W) (arr1 WB) (arr1 G3) (arr1 B3)
      (fun p n k => hX _) (fun k => hG1 _) (fun k => hB1 _) (fun k => hG2 _) (fun k => hB2 _) (fun e' k => hW _)
      (fun k => hWB _) (fun k => hG3 _) (fun k => hB3 _)) (i 0)) (i 1)) (i 2)

/-- The claim, from the kernel's run, the reference's run and the reference's term read index by index. -/
theorem claim_of
    (hK : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ fun r => ∀ c : Dev Cert.KernelIdeal.nD,
        r.2.mem ((c.tc : Thread Cert.KernelIdeal.nD Cert.KernelIdeal.τ).loc Cert.KernelIdeal.main_v1)
            = out LK LK' (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
    (hR : ∀ (m' : (ℓ : Loc Cert.ReferenceIdeal.nD Cert.ReferenceIdeal.τ Cert.ReferenceIdeal.sig) → Buf (Elt Ideal) ℓ) (ρ : Dev Cert.ReferenceIdeal.nD → PrngReg),
      θ_run (Cert.ReferenceIdeal.defs (F := Ideal)) (onTc (τ := Cert.ReferenceIdeal.τ) (Cert.ReferenceIdeal.main (F := Ideal))) ⟨m', fun _ => 0, ρ⟩ fun r => ∀ c : Dev Cert.ReferenceIdeal.nD,
        r.2.mem ((c.tc : Thread Cert.ReferenceIdeal.nD Cert.ReferenceIdeal.τ).loc Cert.ReferenceIdeal.main_v97)
            = Cert.ReferenceIdeal.Term.refOut (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))
    (hRead : ∀ (x : FVec Ideal Cert.ReferenceIdeal.S8x2048x1024 .f32) (g1 b1 : FVec Ideal Cert.ReferenceIdeal.S1024 .f32)
        (g2 b2 : FVec Ideal Cert.ReferenceIdeal.S2048 .f32) (w : FVec Ideal Cert.ReferenceIdeal.S1024x1024 .f32)
        (wb g3 b3 : FVec Ideal Cert.ReferenceIdeal.S1024 .f32),
        Cert.ReferenceIdeal.Term.refOut (F := Ideal) x g1 b1 g2 b2 w wb g3 b3 = out LR LR' x g1 b1 g2 b2 w wb g3 b3) :
    Cert.Claim := by
  refine ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ,
    fun m ρ _ => (θ_run Cert.ReferenceIdeal.defs _ _).mono (fun _ h c => (h c).2) (hR m ρ), trivial, ?_⟩
  intro m ρ m' ρ' hpre hagree
  refine ⟨fun c => out LK LK' (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), hK m ρ, ?_⟩
  refine (θ_run Cert.ReferenceIdeal.defs _ _).mono (fun _ h c => ⟨(h c).1.trans ?_, (h c).2⟩) (hR m' ρ')
  obtain ⟨e0, e1, e2, e3, e4, e5, e6, e7, e8⟩ := hagree c
  obtain ⟨r0, r1, r2, r3, r4, r5, r6, r7, r8⟩ := Cert.Finite.real_of_pre _ _ _ _ _ _ _ _ _ (hpre c)
  rw [hRead, e0, e1, e2, e3, e4, e5, e6, e7, e8]
  exact (out_eq _ _ _ _ _ _ _ _ _ r0 r1 r2 r3 r4 r5 r6 r7 r8).symm

end Cert.Assemble

end
-- ==== Proof.SpecH.lean ====
/-
  One query row of the block against a given matrix of normalised token rows `H`: the scores of row `n`
  against every row of `H`, normalised over the tokens, mix the rows of `H`; the result is normalised and the
  input row `xr` added, then normalised, mapped affinely, normalised and added again. With `H` the
  normalised rows of a batch this is the block itself.
-/
import proofs.«402831_j2413771620561_3_alg».proof.Proof.Spec

noncomputable section

namespace Cert.Spec

open scoped BigOperators

section RowH

variable (L : RowNorm 1024) (L' : RowNorm 2048) (H : Fin 2048 → Fin 1024 → EReal)
variable (g1 b1 : Fin 1024 → EReal) (g2 b2 : Fin 2048 → EReal)
variable (w : Fin 1024 → Fin 1024 → EReal) (wb g3 b3 : Fin 1024 → EReal) (xr : Fin 1024 → EReal)

/-- Row `n`'s scores against every row of `H`. -/
def scoreH (n m : Fin 2048) : EReal := ∑ d, H n d * H m d

/-- The score row normalised over the tokens. -/
def interH (n : Fin 2048) : Fin 2048 → EReal := L' (scoreH H n) g2 b2

/-- The rows of `H` mixed by the normalised scores. -/
def mixH (n : Fin 2048) (d : Fin 1024) : EReal := ∑ m, interH L' H g2 b2 n m * H m d

/-- The mixed row normalised, plus the input row. -/
def res1H (n : Fin 2048) (d : Fin 1024) : EReal := L (mixH L' H g2 b2 n) g1 b1 d + xr d

/-- The affine map of the normalised first residual. -/
def linH (n : Fin 2048) (e : Fin 1024) : EReal :=
  (∑ d, L (res1H L L' H g1 b1 g2 b2 xr n) g3 b3 d * w e d) + wb e

/-- The row's result at feature `e`. -/
def netH (n : Fin 2048) (e : Fin 1024) : EReal :=
  L (linH L L' H g1 b1 g2 b2 w wb g3 b3 xr n) g3 b3 e + res1H L L' H g1 b1 g2 b2 xr n e

end RowH

/-- The block at batch `p` is the row computation against that batch's normalised token rows. -/
theorem net_eq_netH (L : RowNorm 1024) (L' : RowNorm 2048) (x : Fin 8 → Fin 2048 → Fin 1024 → EReal)
    (g1 b1 : Fin 1024 → EReal) (g2 b2 : Fin 2048 → EReal) (w : Fin 1024 → Fin 1024 → EReal) (wb g3 b3 : Fin 1024 → EReal)
    (p : Fin 8) (n : Fin 2048) (e : Fin 1024) :
    net L L' x g1 b1 g2 b2 w wb g3 b3 p n e
      = netH L L' (tok L x g1 b1 p) g1 b1 g2 b2 w wb g3 b3 (x p n) n e := rfl

end Cert.Spec

end
-- ==== Proof.KDefs.lean ====
/-
  The vocabulary in which one grid point's effect is stated over the extended reals: the one-pass
  normalisations with the kernel's factors as reals, the row of the batch a tile row names, the normalised token
  rows of a staged batch block, and the block's row computation from the staged blocks.
-/
import proofs.«402831_j2413771620561_3_alg».proof.Proof.Gen.KernelIdeal.Frame
import proofs.«402831_j2413771620561_3_alg».proof.Proof.SpecH
import proofs.«402831_j2413771620561_3_alg».proof.Proof.Consts
import Idealize.ShloMosaic.Lib.ValueIdx

noncomputable section

namespace Cert.KernelIdeal.Pieces

open Cert.KernelIdeal Cert.KernelIdeal.Gen Idealize.ShloMosaic Idealize.ShloMosaic.TcCoe Idealize.ShloMosaic.ValueIdx
open Cert.Spec

/-- The one-pass normalisations of the two widths, with the kernel's factors and `ε` as reals. -/
abbrev LK : RowNorm 1024 := lnK (((1 / 1024 : ℝ)) : EReal) ((Cert.Consts.epsR : ℝ) : EReal)
abbrev LK' : RowNorm 2048 := lnK (((1 / 2048 : ℝ)) : EReal) ((Cert.Consts.epsR : ℝ) : EReal)

/-- The row of the batch that offset `r` of the tile at grid position `i` names: `256 · i₁ + r`. -/
def rowOf (i : grid0.Coords) (r : Fin 256) : Fin 2048 :=
  ⟨(i 1).val * 256 + r.val, by have h : (i 1).val < 8 := (i 1).isLt; have h' := r.isLt; omega⟩

/-- The normalised token rows of a staged batch block `x0` with scale `x1` and shift `x2`. -/
def tokOf (x0 : Vec Ideal S1x2048x1024 .f32) (x1 x2 : Vec Ideal S1024 .f32) : Fin 2048 → Fin 1024 → EReal :=
  fun n d => LK (fun d' => x0 (ix3 0 n d')) (arr1 x1) (arr1 x2) d

/-- The row computation against a token matrix `H`, from the staged blocks: `x3, x4` the score scale and shift,
    `x5, x6` the second scale and shift, `x7` the weight, `x8` the bias. -/
def rowOut (H : Fin 2048 → Fin 1024 → EReal) (x0 : Vec Ideal S1x2048x1024 .f32) (x1 x2 : Vec Ideal S1024 .f32)
    (x3 x4 : Vec Ideal S2048 .f32) (x5 x6 : Vec Ideal S1024 .f32) (x7 : Vec Ideal S1024x1024 .bf16) (x8 : Vec Ideal S1024 .f32)
    (n : Fin 2048) (e : Fin 1024) : EReal :=
  netH LK LK' H (arr1 x1) (arr1 x2) (arr1 x3) (arr1 x4) (fun e' d => x7 (ix2 e' d)) (arr1 x8) (arr1 x5) (arr1 x6)
    (fun d => x0 (ix3 0 n d)) n e

end Cert.KernelIdeal.Pieces

end
-- ==== Proof.KScratch.lean ====
/-
  At a batch's first point the token scratch is filled, eight chunks of 256 rows, with the one-pass
  normalisation of the staged batch block's rows: read at a row and a feature it is that row's normalisation.

  One chunk's stored value, read at a row `p` and a feature `q`, is
  `(x − s·c) · rsqrt((s₂·c − (s·c)·(s·c)) + ε) · g q + b q` with `s` and `s₂` the sum and the sum of squares of row `p` of
  the 256 loaded rows, `c = 1/1024`: the lane sums are kept as columns, the factor and `ε` are splats of their float
  words, the column quantities are broadcast along the row and the scale and shift down the rows. The eight chunks
  are that one arithmetic cut into named parts at different places, so each is the first chunk's term of its own
  loaded rows. Row `n` of the scratch lies in chunk `n / 256` at offset `n % 256`, and the chunk's rows were loaded
  from the same offset of the staged block, so the eight stores are blocks of ONE function of the scratch's index.
-/
import proofs.«402831_j2413771620561_3_alg».proof.Proof.KDefs
import Idealize.ShloMosaic.PureOps.Ideal.Laws
import Idealize.ShloMosaic.Lib.ValueLayout
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.ValueIdx
open Cert.Spec
open scoped BigOperators

namespace Scratch

/-! ## Layout operations of a row statistic, read at an index -/

/-- A vector `[a]` cast to a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the second axis of an `[a, b]` array, at row `p`, is the sum of that row. -/
theorem rowSum_apply {a b : ℕ} (X : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ X 0x00000000#32 h hφ hacc (ix1 p) = ∑ k : Fin b, X (ix2 p k) := by
  refine (Ideal.multiReduction_add_single X _ h hφ hacc (ix1 p)).trans ?_
  refine Finset.sum_congr rfl fun k _ => congrArg X ?_
  funext c
  apply Fin.ext
  match c with
  | ⟨0, _⟩ => rfl
  | ⟨1, _⟩ => rfl

/-! Elementwise operations on extended-real vectors, read at an index whose operands' values are known. -/

theorem addf_at {s : Shape} {φ : FTy} (a b : FVec Ideal s φ) (i : s.Idx) {x y : EReal} (ha : a i = x) (hb : b i = y) :
    addf a b i = x + y := by subst ha hb; rfl
theorem subf_at {s : Shape} {φ : FTy} (a b : FVec Ideal s φ) (i : s.Idx) {x y : EReal} (ha : a i = x) (hb : b i = y) :
    subf a b i = x - y := by subst ha hb; rfl
theorem mulf_at {s : Shape} {φ : FTy} (a b : FVec Ideal s φ) (i : s.Idx) {x y : EReal} (ha : a i = x) (hb : b i = y) :
    mulf a b i = x * y := by subst ha hb; rfl
theorem rsqrt_at {s : Shape} {φ : FTy} (a : FVec Ideal s φ) (i : s.Idx) {x : EReal} (ha : a i = x) :
    rsqrt a i = Ideal.rsqrt x := by subst ha; rfl
theorem truncf_at {s : Shape} {φ ψ : FTy} (a : FVec Ideal s φ) (h : ψ.bits < φ.bits) (i : s.Idx) {x : EReal} (ha : a i = x) :
    (truncf ψ a h : FVec Ideal s ψ) i = x := by subst ha; rfl
/-- A splat of a float word reads the extended real the word denotes. -/
theorem splat_at {s : Shape} (w : BitVec 32) (i : s.Idx) {c : EReal} (hc : Ideal.ofBits .f32 w = c) :
    (broadcast s (Scalar.ofBits (F := Ideal) .f32 w) : FVec Ideal s .f32) i = c := by subst hc; rfl

/-- A row's sum, kept as a column: at `(p, u)` it is the sum of row `p`. -/
theorem sumCol_at {a b : ℕ} (Xm : FVec Ideal ⟨2, ![a, b]⟩ .f32) (hr : (⟨2, ![a, b]⟩ : Shape).Reduces [1] ⟨1, ![a]⟩)
    (hφ : FKind.Formats .f32) (hacc : (0x00000000#32 : BitVec 32) = FKind.add.neutral .f32 hφ)
    (h2 : (⟨1, ![a]⟩ : Shape).ShapeCasts ⟨2, ![a, 1]⟩) (p : Fin a) (u : Fin 1) {v : Fin b → EReal}
    (hv : ∀ k, Xm (ix2 p k) = v k) :
    shapeCast ⟨2, ![a, 1]⟩ (multiReduction .add [1] ⟨1, ![a]⟩ Xm 0x00000000#32 hr hφ hacc) h2 (ix2 p u) = ∑ k, v k :=
  (shapeCast_a_a1_apply _ h2 p u).trans ((rowSum_apply Xm hr hφ hacc p).trans (Finset.sum_congr rfl fun k _ => hv k))

/-! ## One chunk -/

/-- THE CHUNK. The payload of a chunk's store, read at row `p` and feature `q`: the one-pass normalisation of row `p`
    of the loaded rows `X`, scaled by `g` and shifted by `b`. The row's sum and sum of squares are lane sums kept as
    columns; the factor and `ε` are splats of their float words; the mean, the centred row and the inverse root are
    broadcast along the row, the scale and shift down the rows. -/
theorem pay4_apply (g b : Vec Ideal S1024 .f32) (X : Vec Ideal S1x256x1024 .f32) (p : Fin 256) (q : Fin 1024) :
    k0_pay4 (F := Ideal) g b X (ix2 p q) = LK (fun k => X (ix3 0 p k)) (arr1 g) (arr1 b) q := by
  have hX : ∀ k : Fin 1024, shapeCast S256x1024 X shapeCasts_S1x256x1024_S256x1024 (ix2 p k) = X (ix3 0 p k) :=
    fun k => shapeCast_1ab_ab_apply X _ p k
  unfold LK lnK k0_pay4 k0_pay2 k0_pay3
  refine (congrFun (shapeCast_self _ _) (ix2 p q)).trans ?_
  refine truncf_at _ _ _ (addf_at _ _ _ (mulf_at _ _ _ (mulf_at _ _ _ (subf_at _ _ _ (hX q) ?mean) ?root) ?scale) ?shift)
  case mean =>
    exact (broadcastTo_a1_ab_apply _ _ p q).trans
      (mulf_at _ _ _ (sumCol_at _ _ _ _ _ p 0 hX) (splat_at _ _ Cert.Consts.ofBits_inv1024))
  case root =>
    refine (broadcastTo_a1_ab_apply _ _ p q).trans (rsqrt_at _ _ (addf_at _ _ _ (subf_at _ _ _ ?_ ?_) (splat_at _ _ Cert.Consts.ofBits_eps)))
    · exact mulf_at _ _ _ (sumCol_at _ _ _ _ _ p 0 fun k => mulf_at _ _ _ (hX k) (hX k)) (splat_at _ _ Cert.Consts.ofBits_inv1024)
    · exact mulf_at _ _ _
        (mulf_at _ _ _ (sumCol_at _ _ _ _ _ p 0 hX) (splat_at _ _ Cert.Consts.ofBits_inv1024))
        (mulf_at _ _ _ (sumCol_at _ _ _ _ _ p 0 hX) (splat_at _ _ Cert.Consts.ofBits_inv1024))
  case scale =>
    exact (broadcastTo_1b_ab_apply _ _ p q).trans (shapeCast_a_1a_apply g _ 0 q)
  case shift =>
    exact (broadcastTo_1b_ab_apply _ _ p q).trans (shapeCast_a_1a_apply b _ 0 q)

/-! The other seven chunks' payloads are the same arithmetic, cut at other places into named parts: each is the
    first chunk's payload of its own loaded rows, by unfolding the parts. -/

theorem cut7 (g b : Vec Ideal S1024 .f32) (X : Vec Ideal S1x256x1024 .f32) :
    k0_pay7 (F := Ideal) (k0_pay2 g) (k0_pay3 b) (k0_pay5 X) (k0_pay6 X) = k0_pay4 g b X := rfl
theorem cut13 (g b : Vec Ideal S1024 .f32) (X : Vec Ideal S1x256x1024 .f32) :
    k0_pay13 (F := Ideal) (k0_pay2 g) (k0_pay3 b) (k0_pay10 X) (k0_pay11 X) k0_pay12 = k0_pay4 g b X := rfl
theorem cut14 (g b : Vec Ideal S1024 .f32) (X : Vec Ideal S1x256x1024 .f32) :
    k0_pay14 (F := Ideal) (k0_pay2 g) (k0_pay3 b) X = k0_pay4 g b X := rfl
theorem cut15 (g b : Vec Ideal S1024 .f32) (X : Vec Ideal S1x256x1024 .f32) :
    k0_pay15 (F := Ideal) (k0_pay2 g) (k0_pay3 b) X = k0_pay4 g b X := rfl
theorem cut19 (g b : Vec Ideal S1024 .f32) (X : Vec Ideal S1x256x1024 .f32) :
    k0_pay19 (F := Ideal) (k0_pay2 g) (k0_pay3 b) (k0_pay16 X) (k0_pay17 X) (k0_pay18 X) = k0_pay4 g b X := rfl
theorem cut21 (g b : Vec Ideal S1024 .f32) (X : Vec Ideal S1x256x1024 .f32) :
    k0_pay21 (F := Ideal) (k0_pay20 (k0_pay2 g) (k0_pay3 b) X) = k0_pay4 g b X := rfl
theorem cut22 (g b : Vec Ideal S1024 .f32) (X : Vec Ideal S1x256x1024 .f32) :
    k0_pay22 (F := Ideal) (k0_pay2 g) (k0_pay3 b) X = k0_pay4 g b X := rfl

/-- A chunk's payload of the rows loaded at offset `o` of the staged batch block, at `(p, q)`, is the normalised
    token row `o + p` at feature `q`: the load reads row `o + p` of the block. -/
theorem chunk_tok (x0 : Vec Ideal S1x2048x1024 .f32) (x1 x2 : Vec Ideal S1024 .f32) (o : ℕ)
    (inb : ∀ a, (![0, o, 0] : Fin 3 → ℕ) a + S1x256x1024.size a ≤ S1x2048x1024.size a)
    (p : Fin 256) (q : Fin 1024) (n : Fin 2048) (d : Fin 1024) (hn : n.val = o + p.val) (hd : d.val = q.val) :
    k0_pay4 (F := Ideal) x1 x2 (View.ld x0 (Rect.unit ![0, o, 0] S1x256x1024.size inb)) (ix2 p q) = tokOf x0 x1 x2 n d := by
  obtain rfl : d = q := Fin.ext hd
  refine (pay4_apply x1 x2 _ p d).trans ?_
  unfold tokOf
  refine congrArg (fun v => LK v (arr1 x1) (arr1 x2) d) (funext fun k => ?_)
  refine congrArg x0 (funext fun a => Fin.ext ?_)
  match a with
  | ⟨0, _⟩ => rfl
  | ⟨1, _⟩ => show o + 1 * p.val = n.val; omega
  | ⟨2, _⟩ => show 0 + 1 * k.val = k.val; omega

/-! ## The eight stores read back as one function -/

theorem hz1 : (![0] : Fin 1 → ℕ) = fun _ => 0 := funext fun a => by fin_cases a; rfl

end Scratch

open Scratch in
/-- At a batch's first point the scratch ends holding the normalised token rows of the staged batch block. -/
theorem sout0_A_0_apply (c : Dev nD) (i : grid0.Coords) (arg2 : Memref sig .tc .vmem S1x2048x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S2048 .f32) (harg5 : arg5.IsWhole) (arg6 : Memref sig .tc .vmem S2048 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1024x1024 .bf16) (harg9 : arg9.IsWhole) (arg10 : Memref sig .tc .vmem S1024 .f32) (harg10 : arg10.IsWhole) (arg11 : Memref sig .tc .vmem S1x256x1024 .f32) (harg11 : arg11.IsWhole) (arg12 : Memref sig .tc .vmem S2048x1024 .bf16) (harg12 : arg12.IsWhole) (hc0 : cond0_0 i)
    (x0 : Vec Ideal S1x2048x1024 .f32) (x1 : Vec Ideal S1024 .f32) (x2 : Vec Ideal S1024 .f32) (x3 : Vec Ideal S2048 .f32) (x4 : Vec Ideal S2048 .f32) (x5 : Vec Ideal S1024 .f32) (x6 : Vec Ideal S1024 .f32) (x7 : Vec Ideal S1024x1024 .bf16) (x8 : Vec Ideal S1024 .f32) (n : Fin 2048) (d : Fin 1024) :
    sout0_A_0 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 x8 (ix2 n d) = tokOf x0 x1 x2 n d := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 x0 x1 x2 x3 x4 x5 x6 x7 x8)]
  -- the eight stores each write a block of ONE function of the scratch's index: the normalised token rows
  refine View.canon_apply_of_pieces
    (fun y : S2048x1024.Idx => tokOf x0 x1 x2 ⟨(y 0).val, idx2_lt0 y⟩ ⟨(y 1).val, idx2_lt1 y⟩) _ ?_ (ix2 n d)
    (scover0_A_0 c i arg2 harg2 arg3 harg3 arg4 harg4 arg5 harg5 arg6 harg6 arg7 harg7 arg8 harg8 arg9 harg9 arg10 harg10 arg11 harg11 arg12 harg12 hc0 x0 x1 x2 x3 x4 x5 x6 x7 x8 (ix2 n d))
  unfold kernelRun0_A
  dsimp only
  sl_unfold_words
  simp only [View.readAt_eq_ld, harg2.read_unread, harg3.read_unread, harg4.read_unread, View.ld_unit_zero (S := S1024) hz1]
  intro pc hpc
  rcases List.mem_cons.mp hpc with rfl | hpc
  · intro x
    obtain ⟨p, q, rfl⟩ : ∃ (p : Fin 256) (q : Fin 1024), x = ix2 p q := ⟨x 0, x 1, eq_ix2 x⟩
    refine (congrFun (cut22 x1 x2 _) (ix2 p q)).trans (chunk_tok x0 x1 x2 1792 _ p q _ _ ?_ ?_)
    · show 1792 + 1 * p.val = 1792 + p.val; omega
    · show 0 + 1 * q.val = q.val; omega
  rcases List.mem_cons.mp hpc with rfl | hpc
  · intro x
    obtain ⟨p, q, rfl⟩ : ∃ (p : Fin 256) (q : Fin 1024), x = ix2 p q := ⟨x 0, x 1, eq_ix2 x⟩
    refine (congrFun (cut21 x1 x2 _) (ix2 p q)).trans (chunk_tok x0 x1 x2 1536 _ p q _ _ ?_ ?_)
    · show 1536 + 1 * p.val = 1536 + p.val; omega
    · show 0 + 1 * q.val = q.val; omega
  rcases List.mem_cons.mp hpc with rfl | hpc
  · intro x
    obtain ⟨p, q, rfl⟩ : ∃ (p : Fin 256) (q : Fin 1024), x = ix2 p q := ⟨x 0, x 1, eq_ix2 x⟩
    refine (congrFun (cut19 x1 x2 _) (ix2 p q)).trans (chunk_tok x0 x1 x2 1280 _ p q _ _ ?_ ?_)
    · show 1280 + 1 * p.val = 1280 + p.val; omega
    · show 0 + 1 * q.val = q.val; omega
  rcases List.mem_cons.mp hpc with rfl | hpc
  · intro x
    obtain ⟨p, q, rfl⟩ : ∃ (p : Fin 256) (q : Fin 1024), x = ix2 p q := ⟨x 0, x 1, eq_ix2 x⟩
    refine (congrFun (cut15 x1 x2 _) (ix2 p q)).trans (chunk_tok x0 x1 x2 1024 _ p q _ _ ?_ ?_)
    · show 1024 + 1 * p.val = 1024 + p.val; omega
    · show 0 + 1 * q.val = q.val; omega
  rcases List.mem_cons.mp hpc with rfl | hpc
  · intro x
    obtain ⟨p, q, rfl⟩ : ∃ (p : Fin 256) (q : Fin 1024), x = ix2 p q := ⟨x 0, x 1, eq_ix2 x⟩
    refine (congrFun (cut14 x1 x2 _) (ix2 p q)).trans (chunk_tok x0 x1 x2 768 _ p q _ _ ?_ ?_)
    · show 768 + 1 * p.val = 768 + p.val; omega
    · show 0 + 1 * q.val = q.val; omega
  rcases List.mem_cons.mp hpc with rfl | hpc
  · intro x
    obtain ⟨p, q, rfl⟩ : ∃ (p : Fin 256) (q : Fin 1024), x = ix2 p q := ⟨x 0, x 1, eq_ix2 x⟩
    refine (congrFun (cut13 x1 x2 _) (ix2 p q)).trans (chunk_tok x0 x1 x2 512 _ p q _ _ ?_ ?_)
    · show 512 + 1 * p.val = 512 + p.val; omega
    · show 0 + 1 * q.val = q.val; omega
  rcases List.mem_cons.mp hpc with rfl | hpc
  · intro x
    obtain ⟨p, q, rfl⟩ : ∃ (p : Fin 256) (q : Fin 1024), x = ix2 p q := ⟨x 0, x 1, eq_ix2 x⟩
    refine (congrFun (cut7 x1 x2 _) (ix2 p q)).trans (chunk_tok x0 x1 x2 256 _ p q _ _ ?_ ?_)
    · show 256 + 1 * p.val = 256 + p.val; omega
    · show 0 + 1 * q.val = q.val; omega
  rcases List.mem_cons.mp hpc with rfl | hpc
  · intro x
    obtain ⟨p, q, rfl⟩ : ∃ (p : Fin 256) (q : Fin 1024), x = ix2 p q := ⟨x 0, x 1, eq_ix2 x⟩
    refine chunk_tok x0 x1 x2 0 _ p q _ _ ?_ ?_
    · show 0 + 1 * p.val = 0 + p.val; omega
    · show 0 + 1 * q.val = q.val; omega
  nomatch hpc

end Cert.KernelIdeal.Pieces

end
-- ==== Proof.KChainLib.lean ====
/-
  The steps of the row computation as the kernel spells them on a tile of 128 rows, read at an index: the lane sum
  kept as a column, the column and row broadcasts, the three matrix products as sums over the contracted
  coordinate, and the one-pass normalisation of a tile from its mean column and its mean-square column, which at a
  row is the row normalisation `lnK` of that row.
-/
import proofs.«402831_j2413771620561_3_alg».proof.Proof.Gen.KernelIdeal.Skeleton
import proofs.«402831_j2413771620561_3_alg».proof.Proof.SpecH
import proofs.«402831_j2413771620561_3_alg».proof.Proof.Consts
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Chain

open Cert.KernelIdeal Cert.KernelIdeal.Gen Idealize.ShloMosaic Idealize.ShloMosaic.ValueIdx
open Cert.Spec
open scoped BigOperators

/-! ## Layout steps of a 128-row tile, read at an index -/

/-- A lane sum kept as a column: at row `r` it is the sum of that row. -/
theorem rowsum_apply {n : ℕ} (v : FVec Ideal ⟨2, ![128, n]⟩ .f32)
    (h : (⟨2, ![128, n]⟩ : Shape).Reduces [1] ⟨1, ![128]⟩) (hφ : FKind.Formats .f32)
    (hacc : (0x00000000#32 : BitVec 32) = FKind.add.neutral .f32 hφ)
    (hc : (⟨1, ![128]⟩ : Shape).ShapeCasts ⟨2, ![128, 1]⟩) (r : Fin 128) (u : Fin 1) :
    shapeCast ⟨2, ![128, 1]⟩ (multiReduction .add [1] ⟨1, ![128]⟩ v 0x00000000#32 h hφ hacc) hc (ix2 r u)
      = ∑ k : Fin n, v (ix2 r k) := by
  refine (shapeCast_apply _ hc (ix2 r u) (ix1 r) ?_).trans ?_
  · have hu : u.val = 0 := by omega
    rw [Shape.rowMajor_val_one, Shape.rowMajor_val_two]
    show r.val = r.val * 1 + u.val
    omega
  · refine (Ideal.multiReduction_add_single v 0x00000000#32 h hφ hacc (ix1 r)).trans ?_
    refine Finset.sum_congr rfl fun k _ => congrArg v ?_
    funext a
    match a with
    | ⟨0, _⟩ => rfl
    | ⟨1, _⟩ => rfl

/-- A column broadcast along the rows reads the column at the row. -/
theorem bcol_apply {α : Type} {n : ℕ} (c : (⟨2, ![128, 1]⟩ : Shape).Idx → α)
    (h : (⟨2, ![128, 1]⟩ : Shape).Broadcasts ⟨2, ![128, n]⟩) (r : Fin 128) (k : Fin n) :
    broadcastTo ⟨2, ![128, n]⟩ c h (ix2 r k) = c (ix2 r (0 : Fin 1)) := by
  refine broadcastTo_apply c h (ix2 r k) (ix2 r (0 : Fin 1)) fun ax => ?_
  match ax with
  | ⟨0, _⟩ => rfl
  | ⟨1, _⟩ => rfl

/-- The inverse square root of a vector, entry by entry. -/
theorem rsqrt_apply {s : Shape} {φ : FTy} (a : FVec Ideal s φ) (i : s.Idx) : rsqrt a i = Ideal.rsqrt (a i) := rfl

/-! ## The three products at an index -/

theorem lhs_dS_0 (i : S128x2048.Idx) (q : dot_S128x1024_S2048x1024_S128x2048_1_1_0_0_n_n.contr.Idx) :
    (dot_S128x1024_S2048x1024_S128x2048_1_1_0_0_n_n.lhsIdx i q 0).val = (i 0).val := by
  unfold DotDims.lhsIdx
  rw [dif_neg (show ¬(0 : Fin S128x1024.rank) ∈ dot_S128x1024_S2048x1024_S128x2048_1_1_0_0_n_n.lhsBatch by decide),
    dif_pos (show (0 : Fin S128x1024.rank) ∈ dot_S128x1024_S2048x1024_S128x2048_1_1_0_0_n_n.lhsNonContracting by decide)]
  rfl
theorem lhs_dS_1 (i : S128x2048.Idx) (q : dot_S128x1024_S2048x1024_S128x2048_1_1_0_0_n_n.contr.Idx) :
    (dot_S128x1024_S2048x1024_S128x2048_1_1_0_0_n_n.lhsIdx i q 1).val = (q ⟨0, by decide⟩).val :=
  dot_S128x1024_S2048x1024_S128x2048_1_1_0_0_n_n.lhsIdx_val_of_single rfl i q
theorem rhs_dS_0 (i : S128x2048.Idx) (q : dot_S128x1024_S2048x1024_S128x2048_1_1_0_0_n_n.contr.Idx) :
    (dot_S128x1024_S2048x1024_S128x2048_1_1_0_0_n_n.rhsIdx i q 0).val = (i 1).val := by
  unfold DotDims.rhsIdx
  rw [dif_neg (show ¬(0 : Fin S2048x1024.rank) ∈ dot_S128x1024_S2048x1024_S128x2048_1_1_0_0_n_n.rhsBatch by decide),
    dif_pos (show (0 : Fin S2048x1024.rank) ∈ dot_S128x1024_S2048x1024_S128x2048_1_1_0_0_n_n.rhsNonContracting by decide)]
  rfl
theorem rhs_dS_1 (i : S128x2048.Idx) (q : dot_S128x1024_S2048x1024_S128x2048_1_1_0_0_n_n.contr.Idx) :
    (dot_S128x1024_S2048x1024_S128x2048_1_1_0_0_n_n.rhsIdx i q 1).val = (q ⟨0, by decide⟩).val :=
  dot_S128x1024_S2048x1024_S128x2048_1_1_0_0_n_n.rhsIdx_val_of_single rfl i q

/-- The score product: row `r` of the left factor against row `c` of the right one. -/
theorem score_apply (a : FVec Ideal S128x1024 .bf16) (b : FVec Ideal S2048x1024 .bf16) (r : Fin 128) (c : Fin 2048) :
    matmul dot_S128x1024_S2048x1024_S128x2048_1_1_0_0_n_n none a b (constant (F := Ideal) S128x2048 .f32 0x00000000#32) (ix2 r c)
      = ∑ k : Fin 1024, a (ix2 r k) * b (ix2 c k) := by
  refine (Ideal.matmul_constant_zero_apply _ none a b (ix2 r c)).trans ?_
  rw [← Equiv.sum_comp (contrEquiv1 dot_S128x1024_S2048x1024_S128x2048_1_1_0_0_n_n 1024 rfl rfl).symm]
  refine Finset.sum_congr rfl fun k _ => ?_
  have hk := contrEquiv1_symm_val dot_S128x1024_S2048x1024_S128x2048_1_1_0_0_n_n 1024 rfl rfl k
  have el : dot_S128x1024_S2048x1024_S128x2048_1_1_0_0_n_n.lhsIdx (ix2 r c)
      ((contrEquiv1 dot_S128x1024_S2048x1024_S128x2048_1_1_0_0_n_n 1024 rfl rfl).symm k) = ix2 r k := funext fun x => Fin.ext (by
    match x with
    | ⟨0, _⟩ => exact lhs_dS_0 _ _
    | ⟨1, _⟩ => exact (lhs_dS_1 _ _).trans hk)
  have er : dot_S128x1024_S2048x1024_S128x2048_1_1_0_0_n_n.rhsIdx (ix2 r c)
      ((contrEquiv1 dot_S128x1024_S2048x1024_S128x2048_1_1_0_0_n_n 1024 rfl rfl).symm k) = ix2 c k := funext fun x => Fin.ext (by
    match x with
    | ⟨0, _⟩ => exact rhs_dS_0 _ _
    | ⟨1, _⟩ => exact (rhs_dS_1 _ _).trans hk)
  rw [el, er]

theorem lhs_dM_0 (i : S128x1024.Idx) (q : dot_S128x2048_S2048x1024_S128x1024_1_0_0_1_n_n.contr.Idx) :
    (dot_S128x2048_S2048x1024_S128x1024_1_0_0_1_n_n.lhsIdx i q 0).val = (i 0).val := by
  unfold DotDims.lhsIdx
  rw [dif_neg (show ¬(0 : Fin S128x2048.rank) ∈ dot_S128x2048_S2048x1024_S128x1024_1_0_0_1_n_n.lhsBatch by decide),
    dif_pos (show (0 : Fin S128x2048.rank) ∈ dot_S128x2048_S2048x1024_S128x1024_1_0_0_1_n_n.lhsNonContracting by decide)]
  rfl
theorem lhs_dM_1 (i : S128x1024.Idx) (q : dot_S128x2048_S2048x1024_S128x1024_1_0_0_1_n_n.contr.Idx) :
    (dot_S128x2048_S2048x1024_S128x1024_1_0_0_1_n_n.lhsIdx i q 1).val = (q ⟨0, by decide⟩).val :=
  dot_S128x2048_S2048x1024_S128x1024_1_0_0_1_n_n.lhsIdx_val_of_single rfl i q
theorem rhs_dM_0 (i : S128x1024.Idx) (q : dot_S128x2048_S2048x1024_S128x1024_1_0_0_1_n_n.contr.Idx) :
    (dot_S128x2048_S2048x1024_S128x1024_1_0_0_1_n_n.rhsIdx i q 0).val = (q ⟨0, by decide⟩).val :=
  dot_S128x2048_S2048x1024_S128x1024_1_0_0_1_n_n.rhsIdx_val_of_single rfl i q
theorem rhs_dM_1 (i : S128x1024.Idx) (q : dot_S128x2048_S2048x1024_S128x1024_1_0_0_1_n_n.contr.Idx) :
    (dot_S128x2048_S2048x1024_S128x1024_1_0_0_1_n_n.rhsIdx i q 1).val = (i 1).val := by
  unfold DotDims.rhsIdx
  rw [dif_neg (show ¬(1 : Fin S2048x1024.rank) ∈ dot_S128x2048_S2048x1024_S128x1024_1_0_0_1_n_n.rhsBatch by decide),
    dif_pos (show (1 : Fin S2048x1024.rank) ∈ dot_S128x2048_S2048x1024_S128x1024_1_0_0_1_n_n.rhsNonContracting by decide)]
  rfl

/-- The mixing product: row `r` of the left factor against column `c` of the right one. -/
theorem mix_apply (a : FVec Ideal S128x2048 .bf16) (b : FVec Ideal S2048x1024 .bf16) (r : Fin 128) (c : Fin 1024) :
    matmul dot_S128x2048_S2048x1024_S128x1024_1_0_0_1_n_n none a b (constant (F := Ideal) S128x1024 .f32 0x00000000#32) (ix2 r c)
      = ∑ k : Fin 2048, a (ix2 r k) * b (ix2 k c) := by
  refine (Ideal.matmul_constant_zero_apply _ none a b (ix2 r c)).trans ?_
  rw [← Equiv.sum_comp (contrEquiv1 dot_S128x2048_S2048x1024_S128x1024_1_0_0_1_n_n 2048 rfl rfl).symm]
  refine Finset.sum_congr rfl fun k _ => ?_
  have hk := contrEquiv1_symm_val dot_S128x2048_S2048x1024_S128x1024_1_0_0_1_n_n 2048 rfl rfl k
  have el : dot_S128x2048_S2048x1024_S128x1024_1_0_0_1_n_n.lhsIdx (ix2 r c)
      ((contrEquiv1 dot_S128x2048_S2048x1024_S128x1024_1_0_0_1_n_n 2048 rfl rfl).symm k) = ix2 r k := funext fun x => Fin.ext (by
    match x with
    | ⟨0, _⟩ => exact lhs_dM_0 _ _
    | ⟨1, _⟩ => exact (lhs_dM_1 _ _).trans hk)
  have er : dot_S128x2048_S2048x1024_S128x1024_1_0_0_1_n_n.rhsIdx (ix2 r c)
      ((contrEquiv1 dot_S128x2048_S2048x1024_S128x1024_1_0_0_1_n_n 2048 rfl rfl).symm k) = ix2 k c := funext fun x => Fin.ext (by
    match x with
    | ⟨0, _⟩ => exact (rhs_dM_0 _ _).trans hk
    | ⟨1, _⟩ => exact rhs_dM_1 _ _)
  rw [el, er]

theorem lhs_dW_0 (i : S128x1024.Idx) (q : dot_S128x1024_S1024x1024_S128x1024_1_1_0_0_n_n.contr.Idx) :
    (dot_S128x1024_S1024x1024_S128x1024_1_1_0_0_n_n.lhsIdx i q 0).val = (i 0).val := by
  unfold DotDims.lhsIdx
  rw [dif_neg (show ¬(0 : Fin S128x1024.rank) ∈ dot_S128x1024_S1024x1024_S128x1024_1_1_0_0_n_n.lhsBatch by decide),
    dif_pos (show (0 : Fin S128x1024.rank) ∈ dot_S128x1024_S1024x1024_S128x1024_1_1_0_0_n_n.lhsNonContracting by decide)]
  rfl
theorem lhs_dW_1 (i : S128x1024.Idx) (q : dot_S128x1024_S1024x1024_S128x1024_1_1_0_0_n_n.contr.Idx) :
    (dot_S128x1024_S1024x1024_S128x1024_1_1_0_0_n_n.lhsIdx i q 1).val = (q ⟨0, by decide⟩).val :=
  dot_S128x1024_S1024x1024_S128x1024_1_1_0_0_n_n.lhsIdx_val_of_single rfl i q
theorem rhs_dW_0 (i : S128x1024.Idx) (q : dot_S128x1024_S1024x1024_S128x1024_1_1_0_0_n_n.contr.Idx) :
    (dot_S128x1024_S1024x1024_S128x1024_1_1_0_0_n_n.rhsIdx i q 0).val = (i 1).val := by
  unfold DotDims.rhsIdx
  rw [dif_neg (show ¬(0 : Fin S1024x1024.rank) ∈ dot_S128x1024_S1024x1024_S128x1024_1_1_0_0_n_n.rhsBatch by decide),
    dif_pos (show (0 : Fin S1024x1024.rank) ∈ dot_S128x1024_S1024x1024_S128x1024_1_1_0_0_n_n.rhsNonContracting by decide)]
  rfl
theorem rhs_dW_1 (i : S128x1024.Idx) (q : dot_S128x1024_S1024x1024_S128x1024_1_1_0_0_n_n.contr.Idx) :
    (dot_S128x1024_S1024x1024_S128x1024_1_1_0_0_n_n.rhsIdx i q 1).val = (q ⟨0, by decide⟩).val :=
  dot_S128x1024_S1024x1024_S128x1024_1_1_0_0_n_n.rhsIdx_val_of_single rfl i q

/-- The weight product: row `r` of the left factor against row `c` of the weight. -/
theorem weight_apply (a : FVec Ideal S128x1024 .bf16) (b : FVec Ideal S1024x1024 .bf16) (r : Fin 128) (c : Fin 1024) :
    matmul dot_S128x1024_S1024x1024_S128x1024_1_1_0_0_n_n none a b (constant (F := Ideal) S128x1024 .f32 0x00000000#32) (ix2 r c)
      = ∑ k : Fin 1024, a (ix2 r k) * b (ix2 c k) := by
  refine (Ideal.matmul_constant_zero_apply _ none a b (ix2 r c)).trans ?_
  rw [← Equiv.sum_comp (contrEquiv1 dot_S128x1024_S1024x1024_S128x1024_1_1_0_0_n_n 1024 rfl rfl).symm]
  refine Finset.sum_congr rfl fun k _ => ?_
  have hk := contrEquiv1_symm_val dot_S128x1024_S1024x1024_S128x1024_1_1_0_0_n_n 1024 rfl rfl k
  have el : dot_S128x1024_S1024x1024_S128x1024_1_1_0_0_n_n.lhsIdx (ix2 r c)
      ((contrEquiv1 dot_S128x1024_S1024x1024_S128x1024_1_1_0_0_n_n 1024 rfl rfl).symm k) = ix2 r k := funext fun x => Fin.ext (by
    match x with
    | ⟨0, _⟩ => exact lhs_dW_0 _ _
    | ⟨1, _⟩ => exact (lhs_dW_1 _ _).trans hk)
  have er : dot_S128x1024_S1024x1024_S128x1024_1_1_0_0_n_n.rhsIdx (ix2 r c)
      ((contrEquiv1 dot_S128x1024_S1024x1024_S128x1024_1_1_0_0_n_n 1024 rfl rfl).symm k) = ix2 c k := funext fun x => Fin.ext (by
    match x with
    | ⟨0, _⟩ => exact rhs_dW_0 _ _
    | ⟨1, _⟩ => exact (rhs_dW_1 _ _).trans hk)
  rw [el, er]

/-! ## Columns of a tile: a constant, the row sums, the row means and mean squares -/

/-- The column every entry of which is the float word `w`. -/
def ccol (w : BitVec 32) : FVec Ideal S128x1 .f32 := broadcast S128x1 (Scalar.ofBits .f32 w)

theorem ccol_apply (w : BitVec 32) (i : S128x1.Idx) : ccol w i = Ideal.ofBits .f32 w := rfl

/-- The row sums of a tile of width 2048, as a column. -/
def rsumA (v : FVec Ideal S128x2048 .f32) : FVec Ideal S128x1 .f32 :=
  shapeCast S128x1 (multiReduction .add [1] S128 v 0x00000000#32 reduces_S128x2048_S128 (.inl rfl) rfl) shapeCasts_S128_S128x1

/-- The row sums of a tile of width 1024, as a column. -/
def rsumB (v : FVec Ideal S128x1024 .f32) : FVec Ideal S128x1 .f32 :=
  shapeCast S128x1 (multiReduction .add [1] S128 v 0x00000000#32 reduces_S128x1024_S128 (.inl rfl) rfl) shapeCasts_S128_S128x1

theorem rsumA_apply (v : FVec Ideal S128x2048 .f32) (r : Fin 128) (u : Fin 1) :
    rsumA v (ix2 r u) = ∑ k : Fin 2048, v (ix2 r k) :=
  rowsum_apply (n := 2048) v reduces_S128x2048_S128 (.inl rfl) rfl shapeCasts_S128_S128x1 r u

theorem rsumB_apply (v : FVec Ideal S128x1024 .f32) (r : Fin 128) (u : Fin 1) :
    rsumB v (ix2 r u) = ∑ k : Fin 1024, v (ix2 r k) :=
  rowsum_apply (n := 1024) v reduces_S128x1024_S128 (.inl rfl) rfl shapeCasts_S128_S128x1 r u

/-- The row means of a tile of width 2048: the row sums times the word of `2⁻¹¹`. -/
def meanA (v : FVec Ideal S128x2048 .f32) : FVec Ideal S128x1 .f32 := mulf (rsumA v) (ccol 0x3A000000#32)
/-- The row mean squares of a tile of width 2048. -/
def msqA (v : FVec Ideal S128x2048 .f32) : FVec Ideal S128x1 .f32 := mulf (rsumA (mulf v v)) (ccol 0x3A000000#32)
/-- The row means of a tile of width 1024: the row sums times the word of `2⁻¹⁰`. -/
def meanB (v : FVec Ideal S128x1024 .f32) : FVec Ideal S128x1 .f32 := mulf (rsumB v) (ccol 0x3A800000#32)
/-- The row mean squares of a tile of width 1024. -/
def msqB (v : FVec Ideal S128x1024 .f32) : FVec Ideal S128x1 .f32 := mulf (rsumB (mulf v v)) (ccol 0x3A800000#32)

theorem meanA_apply (v : FVec Ideal S128x2048 .f32) (r : Fin 128) (u : Fin 1) :
    meanA v (ix2 r u) = (∑ k : Fin 2048, v (ix2 r k)) * Ideal.ofBits .f32 0x3A000000#32 := by
  show rsumA v (ix2 r u) * Ideal.ofBits .f32 0x3A000000#32 = _
  rw [rsumA_apply]

theorem msqA_apply (v : FVec Ideal S128x2048 .f32) (r : Fin 128) (u : Fin 1) :
    msqA v (ix2 r u) = (∑ k : Fin 2048, v (ix2 r k) * v (ix2 r k)) * Ideal.ofBits .f32 0x3A000000#32 := by
  show rsumA (mulf v v) (ix2 r u) * Ideal.ofBits .f32 0x3A000000#32 = _
  rw [rsumA_apply]; rfl

theorem meanB_apply (v : FVec Ideal S128x1024 .f32) (r : Fin 128) (u : Fin 1) :
    meanB v (ix2 r u) = (∑ k : Fin 1024, v (ix2 r k)) * Ideal.ofBits .f32 0x3A800000#32 := by
  show rsumB v (ix2 r u) * Ideal.ofBits .f32 0x3A800000#32 = _
  rw [rsumB_apply]

theorem msqB_apply (v : FVec Ideal S128x1024 .f32) (r : Fin 128) (u : Fin 1) :
    msqB v (ix2 r u) = (∑ k : Fin 1024, v (ix2 r k) * v (ix2 r k)) * Ideal.ofBits .f32 0x3A800000#32 := by
  show rsumB (mulf v v) (ix2 r u) * Ideal.ofBits .f32 0x3A800000#32 = _
  rw [rsumB_apply]; rfl

/-- The mean square as the kernel takes it from a column of sums of squares. -/
theorem mulf_ccol_apply (s : FVec Ideal S128x1 .f32) (w : BitVec 32) (i : S128x1.Idx) :
    mulf s (ccol w) i = s i * Ideal.ofBits .f32 w := rfl

/-! ## The one-pass normalisation of a tile -/

/-- The inverse deviation column from the mean column `m` and the mean-square column `s`: `1 / √(s − m·m + ε)`. -/
def istd (m s : FVec Ideal S128x1 .f32) : FVec Ideal S128x1 .f32 :=
  rsqrt (addf (subf s (mulf m m)) (ccol 0x3727C5AC#32))

theorem istd_apply (m s : FVec Ideal S128x1 .f32) (i : S128x1.Idx) :
    istd m s i = Ideal.rsqrt (s i - m i * m i + Ideal.ofBits .f32 0x3727C5AC#32) := rfl

/-- A tile of width 2048 centred, scaled by the inverse deviation and by the row `g`. -/
def normA0 (v : FVec Ideal S128x2048 .f32) (m s : FVec Ideal S128x1 .f32) (g : FVec Ideal S1x2048 .f32) : FVec Ideal S128x2048 .f32 :=
  mulf (mulf (subf v (broadcastTo S128x2048 m broadcasts_S128x1_S128x2048))
    (broadcastTo S128x2048 (istd m s) broadcasts_S128x1_S128x2048)) (broadcastTo S128x2048 g broadcasts_S1x2048_S128x2048)
/-- … and shifted by the row `b`. -/
def normA (v : FVec Ideal S128x2048 .f32) (m s : FVec Ideal S128x1 .f32) (g b : FVec Ideal S1x2048 .f32) : FVec Ideal S128x2048 .f32 :=
  addf (normA0 v m s g) (broadcastTo S128x2048 b broadcasts_S1x2048_S128x2048)

/-- A tile of width 1024 centred, scaled by the inverse deviation and by the row `g`. -/
def normB0 (v : FVec Ideal S128x1024 .f32) (m s : FVec Ideal S128x1 .f32) (g : FVec Ideal S1x1024 .f32) : FVec Ideal S128x1024 .f32 :=
  mulf (mulf (subf v (broadcastTo S128x1024 m broadcasts_S128x1_S128x1024))
    (broadcastTo S128x1024 (istd m s) broadcasts_S128x1_S128x1024)) (broadcastTo S128x1024 g broadcasts_S1x1024_S128x1024)
/-- … and shifted by the row `b`. -/
def normB (v : FVec Ideal S128x1024 .f32) (m s : FVec Ideal S128x1 .f32) (g b : FVec Ideal S1x1024 .f32) : FVec Ideal S128x1024 .f32 :=
  addf (normB0 v m s g) (broadcastTo S128x1024 b broadcasts_S1x1024_S128x1024)

theorem normA0_apply (v : FVec Ideal S128x2048 .f32) (m s : FVec Ideal S128x1 .f32) (g : FVec Ideal S1x2048 .f32)
    (r : Fin 128) (k : Fin 2048) :
    normA0 v m s g (ix2 r k) = (v (ix2 r k) - m (ix2 r (0 : Fin 1)))
      * Ideal.rsqrt (s (ix2 r (0 : Fin 1)) - m (ix2 r (0 : Fin 1)) * m (ix2 r (0 : Fin 1)) + Ideal.ofBits .f32 0x3727C5AC#32)
      * g (ix2 (0 : Fin 1) k) := by
  show (v (ix2 r k) - broadcastTo S128x2048 m broadcasts_S128x1_S128x2048 (ix2 r k))
      * broadcastTo S128x2048 (istd m s) broadcasts_S128x1_S128x2048 (ix2 r k)
      * broadcastTo S128x2048 g broadcasts_S1x2048_S128x2048 (ix2 r k) = _
  rw [bcol_apply m, bcol_apply (istd m s), broadcastTo_1b_ab_apply g]; rfl

theorem normA_apply (v : FVec Ideal S128x2048 .f32) (m s : FVec Ideal S128x1 .f32) (g b : FVec Ideal S1x2048 .f32)
    (r : Fin 128) (k : Fin 2048) :
    normA v m s g b (ix2 r k) = (v (ix2 r k) - m (ix2 r (0 : Fin 1)))
      * Ideal.rsqrt (s (ix2 r (0 : Fin 1)) - m (ix2 r (0 : Fin 1)) * m (ix2 r (0 : Fin 1)) + Ideal.ofBits .f32 0x3727C5AC#32)
      * g (ix2 (0 : Fin 1) k) + b (ix2 (0 : Fin 1) k) := by
  show normA0 v m s g (ix2 r k) + broadcastTo S128x2048 b broadcasts_S1x2048_S128x2048 (ix2 r k) = _
  rw [normA0_apply, broadcastTo_1b_ab_apply b]

theorem normB0_apply (v : FVec Ideal S128x1024 .f32) (m s : FVec Ideal S128x1 .f32) (g : FVec Ideal S1x1024 .f32)
    (r : Fin 128) (k : Fin 1024) :
    normB0 v m s g (ix2 r k) = (v (ix2 r k) - m (ix2 r (0 : Fin 1)))
      * Ideal.rsqrt (s (ix2 r (0 : Fin 1)) - m (ix2 r (0 : Fin 1)) * m (ix2 r (0 : Fin 1)) + Ideal.ofBits .f32 0x3727C5AC#32)
      * g (ix2 (0 : Fin 1) k) := by
  show (v (ix2 r k) - broadcastTo S128x1024 m broadcasts_S128x1_S128x1024 (ix2 r k))
      * broadcastTo S128x1024 (istd m s) broadcasts_S128x1_S128x1024 (ix2 r k)
      * broadcastTo S128x1024 g broadcasts_S1x1024_S128x1024 (ix2 r k) = _
  rw [bcol_apply m, bcol_apply (istd m s), broadcastTo_1b_ab_apply g]; rfl

theorem normB_apply (v : FVec Ideal S128x1024 .f32) (m s : FVec Ideal S128x1 .f32) (g b : FVec Ideal S1x1024 .f32)
    (r : Fin 128) (k : Fin 1024) :
    normB v m s g b (ix2 r k) = (v (ix2 r k) - m (ix2 r (0 : Fin 1)))
      * Ideal.rsqrt (s (ix2 r (0 : Fin 1)) - m (ix2 r (0 : Fin 1)) * m (ix2 r (0 : Fin 1)) + Ideal.ofBits .f32 0x3727C5AC#32)
      * g (ix2 (0 : Fin 1) k) + b (ix2 (0 : Fin 1) k) := by
  show normB0 v m s g (ix2 r k) + broadcastTo S128x1024 b broadcasts_S1x1024_S128x1024 (ix2 r k) = _
  rw [normB0_apply, broadcastTo_1b_ab_apply b]

/-- At a row whose entries are `row`, whose mean entry is `(∑ row)·2⁻¹¹` and whose mean-square entry is
    `(∑ row²)·2⁻¹¹`, the normalised tile of width 2048 is the one-pass row normalisation of `row`. -/
theorem normA_lnK (v : FVec Ideal S128x2048 .f32) (m s : FVec Ideal S128x1 .f32) (g b : FVec Ideal S1x2048 .f32)
    (r : Fin 128) (row : Fin 2048 → EReal) (hv : ∀ k, v (ix2 r k) = row k)
    (hm : m (ix2 r (0 : Fin 1)) = (∑ j, row j) * Ideal.ofBits .f32 0x3A000000#32)
    (hs : s (ix2 r (0 : Fin 1)) = (∑ j, row j * row j) * Ideal.ofBits .f32 0x3A000000#32) (k : Fin 2048) :
    normA v m s g b (ix2 r k)
      = lnK (((1 / 2048 : ℝ)) : EReal) ((Cert.Consts.epsR : ℝ) : EReal) row (fun j => g (ix2 (0 : Fin 1) j)) (fun j => b (ix2 (0 : Fin 1) j)) k := by
  rw [normA_apply, hv k, hm, hs, Cert.Consts.ofBits_inv2048, Cert.Consts.ofBits_eps]; rfl

/-- The same at width 1024, with `2⁻¹⁰`. -/
theorem normB_lnK (v : FVec Ideal S128x1024 .f32) (m s : FVec Ideal S128x1 .f32) (g b : FVec Ideal S1x1024 .f32)
    (r : Fin 128) (row : Fin 1024 → EReal) (hv : ∀ k, v (ix2 r k) = row k)
    (hm : m (ix2 r (0 : Fin 1)) = (∑ j, row j) * Ideal.ofBits .f32 0x3A800000#32)
    (hs : s (ix2 r (0 : Fin 1)) = (∑ j, row j * row j) * Ideal.ofBits .f32 0x3A800000#32) (k : Fin 1024) :
    normB v m s g b (ix2 r k)
      = lnK (((1 / 1024 : ℝ)) : EReal) ((Cert.Consts.epsR : ℝ) : EReal) row (fun j => g (ix2 (0 : Fin 1) j)) (fun j => b (ix2 (0 : Fin 1) j)) k := by
  rw [normB_apply, hv k, hm, hs, Cert.Consts.ofBits_inv1024, Cert.Consts.ofBits_eps]; rfl

/-! ## The parameter vectors as rows, and the tile's leading unit axis -/

/-- A vector of width 2048 laid out as one row. -/
theorem row2048_apply (x : Vec Ideal S2048 .f32) (h : S2048.ShapeCasts S1x2048) (u : Fin 1) (j : Fin 2048) :
    shapeCast S1x2048 x h (ix2 u j) = x (ix1 j) := shapeCast_a_1a_apply x h u j

/-- A vector of width 1024 laid out as one row. -/
theorem row1024_apply (x : Vec Ideal S1024 .f32) (h : S1024.ShapeCasts S1x1024) (u : Fin 1) (j : Fin 1024) :
    shapeCast S1x1024 x h (ix2 u j) = x (ix1 j) := shapeCast_a_1a_apply x h u j

theorem pay23_row (x : Vec Ideal S2048 .f32) : (fun j => k0_pay23 x (ix2 (0 : Fin 1) j)) = arr1 x :=
  funext fun j => row2048_apply x _ 0 j
theorem pay24_row (x : Vec Ideal S2048 .f32) : (fun j => k0_pay24 x (ix2 (0 : Fin 1) j)) = arr1 x :=
  funext fun j => row2048_apply x _ 0 j
theorem pay25_row (x : Vec Ideal S1024 .f32) : (fun j => k0_pay25 x (ix2 (0 : Fin 1) j)) = arr1 x :=
  funext fun j => row1024_apply x _ 0 j
theorem pay26_row (x : Vec Ideal S1024 .f32) : (fun j => k0_pay26 x (ix2 (0 : Fin 1) j)) = arr1 x :=
  funext fun j => row1024_apply x _ 0 j
theorem pay27_row (x : Vec Ideal S1024 .f32) : (fun j => k0_pay27 x (ix2 (0 : Fin 1) j)) = arr1 x :=
  funext fun j => row1024_apply x _ 0 j
theorem pay28_row (x : Vec Ideal S1024 .f32) : (fun j => k0_pay28 x (ix2 (0 : Fin 1) j)) = arr1 x :=
  funext fun j => row1024_apply x _ 0 j
theorem pay29_row (x : Vec Ideal S1024 .f32) : (fun j => k0_pay29 x (ix2 (0 : Fin 1) j)) = arr1 x :=
  funext fun j => row1024_apply x _ 0 j
/-- The weight's cast to its own shape changes nothing. -/
theorem pay30_eq (x : Vec Ideal S1024x1024 .bf16) : k0_pay30 x = x := shapeCast_self x _

end Cert.KernelIdeal.Chain

end
-- ==== Proof.KChain.lean ====
/-
  The first sub-tile of the main chain at an index: the stored value at row `r`, feature `e` of the tile is the
  block's row computation `netH` for the token row the query row `r` holds, against the token rows the scratch holds.
  Each payload is first restated as a composition of the tile steps (scores, their normalisation over the tokens,
  the mixing product, the normalisation plus the input rows, the normalisation, the affine map, the normalisation
  plus the earlier sum); each step is then read at the row.
-/
import proofs.«402831_j2413771620561_3_alg».proof.Proof.KChainLib
import proofs.«402831_j2413771620561_3_alg».proof.Proof.KDefs

noncomputable section

namespace Cert.KernelIdeal.Chain

open Cert.KernelIdeal Cert.KernelIdeal.Gen Idealize.ShloMosaic Idealize.ShloMosaic.ValueIdx
open Cert.Spec
open scoped BigOperators

/-! ## The row normalisation with the scale and the shift named -/

/-- `normA_lnK` with the scale row and the shift row given as functions of the position. -/
theorem normA_lnK_of (v : FVec Ideal S128x2048 .f32) (m s : FVec Ideal S128x1 .f32) (g b : FVec Ideal S1x2048 .f32)
    (r : Fin 128) (row G B : Fin 2048 → EReal) (hv : ∀ k, v (ix2 r k) = row k)
    (hm : m (ix2 r (0 : Fin 1)) = (∑ j, row j) * Ideal.ofBits .f32 0x3A000000#32)
    (hs : s (ix2 r (0 : Fin 1)) = (∑ j, row j * row j) * Ideal.ofBits .f32 0x3A000000#32)
    (hg : ∀ j, g (ix2 (0 : Fin 1) j) = G j) (hb : ∀ j, b (ix2 (0 : Fin 1) j) = B j) (k : Fin 2048) :
    normA v m s g b (ix2 r k) = (lnK (((1 / 2048 : ℝ)) : EReal) ((Cert.Consts.epsR : ℝ) : EReal)) row G B k := by
  refine (normA_lnK v m s g b r row hv hm hs k).trans ?_
  unfold lnK
  dsimp only
  rw [hg k, hb k]

/-- `normB_lnK` with the scale row and the shift row given as functions of the position. -/
theorem normB_lnK_of (v : FVec Ideal S128x1024 .f32) (m s : FVec Ideal S128x1 .f32) (g b : FVec Ideal S1x1024 .f32)
    (r : Fin 128) (row G B : Fin 1024 → EReal) (hv : ∀ k, v (ix2 r k) = row k)
    (hm : m (ix2 r (0 : Fin 1)) = (∑ j, row j) * Ideal.ofBits .f32 0x3A800000#32)
    (hs : s (ix2 r (0 : Fin 1)) = (∑ j, row j * row j) * Ideal.ofBits .f32 0x3A800000#32)
    (hg : ∀ j, g (ix2 (0 : Fin 1) j) = G j) (hb : ∀ j, b (ix2 (0 : Fin 1) j) = B j) (k : Fin 1024) :
    normB v m s g b (ix2 r k) = (lnK (((1 / 1024 : ℝ)) : EReal) ((Cert.Consts.epsR : ℝ) : EReal)) row G B k := by
  refine (normB_lnK v m s g b r row hv hm hs k).trans ?_
  unfold lnK
  dsimp only
  rw [hg k, hb k]

/-! ## The payloads as compositions of the tile steps -/

/-- The scores `sc`, normalised over the tokens from their mean column `m` and mean-square column `s`, times
    the token rows. -/
def mixOf (g2 b2 : FVec Ideal S1x2048 .f32) (Hs : FVec Ideal S2048x1024 .bf16) (sc : FVec Ideal S128x2048 .f32)
    (m s : FVec Ideal S128x1 .f32) : FVec Ideal S128x1024 .f32 :=
  matmul dot_S128x2048_S2048x1024_S128x1024_1_0_0_1_n_n none (truncf .bf16 (normA sc m s g2 b2) bitsLt_bf16_f32) Hs
    (constant (F := Ideal) S128x1024 .f32 0x00000000#32)

/-- The tile `v`, normalised from its mean column `m` and its column `ss` of sums of squares, mapped by the
    weight and shifted by the bias. -/
def linOf (g3 b3 wb : FVec Ideal S1x1024 .f32) (w : FVec Ideal S1024x1024 .bf16) (v : FVec Ideal S128x1024 .f32)
    (m ss : FVec Ideal S128x1 .f32) : FVec Ideal S128x1024 .f32 :=
  addf (matmul dot_S128x1024_S1024x1024_S128x1024_1_1_0_0_n_n none
      (truncf .bf16 (normB v m (mulf ss (ccol 0x3A800000#32)) g3 b3) bitsLt_bf16_f32) w
      (constant (F := Ideal) S128x1024 .f32 0x00000000#32))
    (broadcastTo S128x1024 wb broadcasts_S1x1024_S128x1024)

theorem pay31_eq (Hs : FVec Ideal S2048x1024 .bf16) (q : FVec Ideal S128x1024 .bf16) :
    k0_pay31 (F := Ideal) Hs q = matmul dot_S128x1024_S2048x1024_S128x2048_1_1_0_0_n_n none q Hs
      (constant (F := Ideal) S128x2048 .f32 0x00000000#32) := rfl

theorem pay32_eq (Hs : FVec Ideal S2048x1024 .bf16) (q : FVec Ideal S128x1024 .bf16) :
    k0_pay32 (F := Ideal) Hs q = meanA (k0_pay31 (F := Ideal) Hs q) := rfl

theorem pay33_eq (Hs : FVec Ideal S2048x1024 .bf16) (q : FVec Ideal S128x1024 .bf16) :
    k0_pay33 (F := Ideal) Hs q = msqA (k0_pay31 (F := Ideal) Hs q) := rfl

theorem pay34_eq (v6 v8 : FVec Ideal S1x2048 .f32) (v10 v12 : FVec Ideal S1x1024 .f32) (v19 : FVec Ideal S2048x1024 .bf16)
    (v26 : FVec Ideal S128x2048 .f32) (v33 v35 : FVec Ideal S128x1 .f32) (v74 : FVec Ideal S1x128x1024 .f32) :
    k0_pay34 (F := Ideal) v6 v8 v10 v12 v19 v26 v33 v35 v74
      = addf (normB (mixOf v6 v8 v19 v26 v33 v35) (meanB (mixOf v6 v8 v19 v26 v33 v35)) (msqB (mixOf v6 v8 v19 v26 v33 v35)) v10 v12)
          (shapeCast S128x1024 v74 shapeCasts_S1x128x1024_S128x1024) := rfl

theorem pay35_eq (v6 v8 : FVec Ideal S1x2048 .f32) (v10 v12 : FVec Ideal S1x1024 .f32) (v19 : FVec Ideal S2048x1024 .bf16)
    (v26 : FVec Ideal S128x2048 .f32) (v33 v35 : FVec Ideal S128x1 .f32) (v74 : FVec Ideal S1x128x1024 .f32) :
    k0_pay35 (F := Ideal) v6 v8 v10 v12 v19 v26 v33 v35 v74
      = rsumB (mulf (k0_pay34 (F := Ideal) v6 v8 v10 v12 v19 v26 v33 v35 v74) (k0_pay34 (F := Ideal) v6 v8 v10 v12 v19 v26 v33 v35 v74)) := rfl

theorem pay36_eq (v6 v8 : FVec Ideal S1x2048 .f32) (v10 v12 : FVec Ideal S1x1024 .f32) (v19 : FVec Ideal S2048x1024 .bf16)
    (v26 : FVec Ideal S128x2048 .f32) (v33 v35 : FVec Ideal S128x1 .f32) (v74 : FVec Ideal S1x128x1024 .f32) :
    k0_pay36 (F := Ideal) v6 v8 v10 v12 v19 v26 v33 v35 v74 = meanB (k0_pay34 (F := Ideal) v6 v8 v10 v12 v19 v26 v33 v35 v74) := rfl

theorem pay37_eq (v14 v16 v18 : FVec Ideal S1x1024 .f32) (v21 : FVec Ideal S1024x1024 .bf16) (v76 : FVec Ideal S128x1024 .f32)
    (v81 v83 : FVec Ideal S128x1 .f32) :
    k0_pay37 (F := Ideal) v14 v16 v18 v21 v76 v81 v83
      = shapeCast S1x128x1024
          (addf (normB (linOf v14 v16 v18 v21 v76 v83 v81) (meanB (linOf v14 v16 v18 v21 v76 v83 v81))
            (msqB (linOf v14 v16 v18 v21 v76 v83 v81)) v14 v16) v76)
          shapeCasts_S128x1024_S1x128x1024 := rfl

/-! ## The steps at the row -/

/-- The score tile at row `r`: the scores of token row `n`. -/
theorem score_row (g1 b1 : FVec Ideal S1x1024 .f32) (g2 b2 : FVec Ideal S1x2048 .f32) (g3 b3 wb : FVec Ideal S1x1024 .f32)
    (w : FVec Ideal S1024x1024 .bf16) (Hs : FVec Ideal S2048x1024 .bf16) (q : FVec Ideal S128x1024 .bf16)
    (xt : FVec Ideal S1x128x1024 .f32) (G1 B1 : Fin 1024 → EReal) (G2 B2 : Fin 2048 → EReal) (G3 B3 WB : Fin 1024 → EReal)
    (W : Fin 1024 → Fin 1024 → EReal) (xr : Fin 1024 → EReal) (r : Fin 128) (n : Fin 2048)
    (hg1 : ∀ j, g1 (ix2 (0 : Fin 1) j) = G1 j) (hb1 : ∀ j, b1 (ix2 (0 : Fin 1) j) = B1 j)
    (hg2 : ∀ j, g2 (ix2 (0 : Fin 1) j) = G2 j) (hb2 : ∀ j, b2 (ix2 (0 : Fin 1) j) = B2 j)
    (hg3 : ∀ j, g3 (ix2 (0 : Fin 1) j) = G3 j) (hb3 : ∀ j, b3 (ix2 (0 : Fin 1) j) = B3 j)
    (hwb : ∀ j, wb (ix2 (0 : Fin 1) j) = WB j) (hw : ∀ a d, w (ix2 a d) = W a d)
    (hq : ∀ d, q (ix2 r d) = Hs (ix2 n d)) (hx : ∀ d, xt (ix3 (0 : Fin 1) r d) = xr d) (m : Fin 2048) :
    (k0_pay31 (F := Ideal) Hs q) (ix2 r m) = scoreH (fun a d => Hs (ix2 a d)) n m := by
  rw [pay31_eq]
  refine (score_apply q Hs r m).trans ?_
  exact Finset.sum_congr rfl fun d _ => by rw [hq d]

/-- The normalised score tile at row `r`. -/
theorem inter_row (g1 b1 : FVec Ideal S1x1024 .f32) (g2 b2 : FVec Ideal S1x2048 .f32) (g3 b3 wb : FVec Ideal S1x1024 .f32)
    (w : FVec Ideal S1024x1024 .bf16) (Hs : FVec Ideal S2048x1024 .bf16) (q : FVec Ideal S128x1024 .bf16)
    (xt : FVec Ideal S1x128x1024 .f32) (G1 B1 : Fin 1024 → EReal) (G2 B2 : Fin 2048 → EReal) (G3 B3 WB : Fin 1024 → EReal)
    (W : Fin 1024 → Fin 1024 → EReal) (xr : Fin 1024 → EReal) (r : Fin 128) (n : Fin 2048)
    (hg1 : ∀ j, g1 (ix2 (0 : Fin 1) j) = G1 j) (hb1 : ∀ j, b1 (ix2 (0 : Fin 1) j) = B1 j)
    (hg2 : ∀ j, g2 (ix2 (0 : Fin 1) j) = G2 j) (hb2 : ∀ j, b2 (ix2 (0 : Fin 1) j) = B2 j)
    (hg3 : ∀ j, g3 (ix2 (0 : Fin 1) j) = G3 j) (hb3 : ∀ j, b3 (ix2 (0 : Fin 1) j) = B3 j)
    (hwb : ∀ j, wb (ix2 (0 : Fin 1) j) = WB j) (hw : ∀ a d, w (ix2 a d) = W a d)
    (hq : ∀ d, q (ix2 r d) = Hs (ix2 n d)) (hx : ∀ d, xt (ix3 (0 : Fin 1) r d) = xr d) (m : Fin 2048) :
    normA (k0_pay31 (F := Ideal) Hs q) (k0_pay32 (F := Ideal) Hs q) (k0_pay33 (F := Ideal) Hs q) g2 b2 (ix2 r m) = interH (lnK (((1 / 2048 : ℝ)) : EReal) ((Cert.Consts.epsR : ℝ) : EReal)) (fun a d => Hs (ix2 a d)) G2 B2 n m := by
  refine normA_lnK_of _ _ _ g2 b2 r (scoreH (fun a d => Hs (ix2 a d)) n) G2 B2 (fun k => score_row g1 b1 g2 b2 g3 b3 wb w Hs q xt G1 B1 G2 B2 G3 B3 WB W xr r n hg1 hb1 hg2 hb2 hg3 hb3 hwb hw hq hx k) ?_ ?_ hg2 hb2 m
  · rw [pay32_eq]
    refine (meanA_apply _ r 0).trans (congrArg (· * Ideal.ofBits .f32 0x3A000000#32) ?_)
    exact Finset.sum_congr rfl fun k _ => score_row g1 b1 g2 b2 g3 b3 wb w Hs q xt G1 B1 G2 B2 G3 B3 WB W xr r n hg1 hb1 hg2 hb2 hg3 hb3 hwb hw hq hx k
  · rw [pay33_eq]
    refine (msqA_apply _ r 0).trans (congrArg (· * Ideal.ofBits .f32 0x3A000000#32) ?_)
    exact Finset.sum_congr rfl fun k _ => by rw [score_row g1 b1 g2 b2 g3 b3 wb w Hs q xt G1 B1 G2 B2 G3 B3 WB W xr r n hg1 hb1 hg2 hb2 hg3 hb3 hwb hw hq hx k]

/-- The mixed tile at row `r`. -/
theorem mix_row (g1 b1 : FVec Ideal S1x1024 .f32) (g2 b2 : FVec Ideal S1x2048 .f32) (g3 b3 wb : FVec Ideal S1x1024 .f32)
    (w : FVec Ideal S1024x1024 .bf16) (Hs : FVec Ideal S2048x1024 .bf16) (q : FVec Ideal S128x1024 .bf16)
    (xt : FVec Ideal S1x128x1024 .f32) (G1 B1 : Fin 1024 → EReal) (G2 B2 : Fin 2048 → EReal) (G3 B3 WB : Fin 1024 → EReal)
    (W : Fin 1024 → Fin 1024 → EReal) (xr : Fin 1024 → EReal) (r : Fin 128) (n : Fin 2048)
    (hg1 : ∀ j, g1 (ix2 (0 : Fin 1) j) = G1 j) (hb1 : ∀ j, b1 (ix2 (0 : Fin 1) j) = B1 j)
    (hg2 : ∀ j, g2 (ix2 (0 : Fin 1) j) = G2 j) (hb2 : ∀ j, b2 (ix2 (0 : Fin 1) j) = B2 j)
    (hg3 : ∀ j, g3 (ix2 (0 : Fin 1) j) = G3 j) (hb3 : ∀ j, b3 (ix2 (0 : Fin 1) j) = B3 j)
    (hwb : ∀ j, wb (ix2 (0 : Fin 1) j) = WB j) (hw : ∀ a d, w (ix2 a d) = W a d)
    (hq : ∀ d, q (ix2 r d) = Hs (ix2 n d)) (hx : ∀ d, xt (ix3 (0 : Fin 1) r d) = xr d) (d : Fin 1024) :
    (mixOf g2 b2 Hs (k0_pay31 (F := Ideal) Hs q) (k0_pay32 (F := Ideal) Hs q) (k0_pay33 (F := Ideal) Hs q)) (ix2 r d) = mixH (lnK (((1 / 2048 : ℝ)) : EReal) ((Cert.Consts.epsR : ℝ) : EReal)) (fun a d => Hs (ix2 a d)) G2 B2 n d := by
  refine (mix_apply _ Hs r d).trans ?_
  refine Finset.sum_congr rfl fun m _ => ?_
  exact congrArg (· * Hs (ix2 m d)) (inter_row g1 b1 g2 b2 g3 b3 wb w Hs q xt G1 B1 G2 B2 G3 B3 WB W xr r n hg1 hb1 hg2 hb2 hg3 hb3 hwb hw hq hx m)

/-- The first residual tile at row `r`. -/
theorem res1_row (g1 b1 : FVec Ideal S1x1024 .f32) (g2 b2 : FVec Ideal S1x2048 .f32) (g3 b3 wb : FVec Ideal S1x1024 .f32)
    (w : FVec Ideal S1024x1024 .bf16) (Hs : FVec Ideal S2048x1024 .bf16) (q : FVec Ideal S128x1024 .bf16)
    (xt : FVec Ideal S1x128x1024 .f32) (G1 B1 : Fin 1024 → EReal) (G2 B2 : Fin 2048 → EReal) (G3 B3 WB : Fin 1024 → EReal)
    (W : Fin 1024 → Fin 1024 → EReal) (xr : Fin 1024 → EReal) (r : Fin 128) (n : Fin 2048)
    (hg1 : ∀ j, g1 (ix2 (0 : Fin 1) j) = G1 j) (hb1 : ∀ j, b1 (ix2 (0 : Fin 1) j) = B1 j)
    (hg2 : ∀ j, g2 (ix2 (0 : Fin 1) j) = G2 j) (hb2 : ∀ j, b2 (ix2 (0 : Fin 1) j) = B2 j)
    (hg3 : ∀ j, g3 (ix2 (0 : Fin 1) j) = G3 j) (hb3 : ∀ j, b3 (ix2 (0 : Fin 1) j) = B3 j)
    (hwb : ∀ j, wb (ix2 (0 : Fin 1) j) = WB j) (hw : ∀ a d, w (ix2 a d) = W a d)
    (hq : ∀ d, q (ix2 r d) = Hs (ix2 n d)) (hx : ∀ d, xt (ix3 (0 : Fin 1) r d) = xr d) (d : Fin 1024) :
    (k0_pay34 (F := Ideal) g2 b2 g1 b1 Hs (k0_pay31 (F := Ideal) Hs q) (k0_pay32 (F := Ideal) Hs q) (k0_pay33 (F := Ideal) Hs q) xt) (ix2 r d) = (res1H (lnK (((1 / 1024 : ℝ)) : EReal) ((Cert.Consts.epsR : ℝ) : EReal)) (lnK (((1 / 2048 : ℝ)) : EReal) ((Cert.Consts.epsR : ℝ) : EReal)) (fun a d => Hs (ix2 a d)) G1 B1 G2 B2 xr n) d := by
  rw [pay34_eq]
  show normB (mixOf g2 b2 Hs (k0_pay31 (F := Ideal) Hs q) (k0_pay32 (F := Ideal) Hs q) (k0_pay33 (F := Ideal) Hs q)) (meanB (mixOf g2 b2 Hs (k0_pay31 (F := Ideal) Hs q) (k0_pay32 (F := Ideal) Hs q) (k0_pay33 (F := Ideal) Hs q))) (msqB (mixOf g2 b2 Hs (k0_pay31 (F := Ideal) Hs q) (k0_pay32 (F := Ideal) Hs q) (k0_pay33 (F := Ideal) Hs q))) g1 b1 (ix2 r d)
      + shapeCast S128x1024 xt shapeCasts_S1x128x1024_S128x1024 (ix2 r d) = _
  rw [shapeCast_1ab_ab_apply, hx d]
  refine congrArg (· + xr d) ?_
  refine normB_lnK_of _ _ _ g1 b1 r (mixH (lnK (((1 / 2048 : ℝ)) : EReal) ((Cert.Consts.epsR : ℝ) : EReal)) (fun a d => Hs (ix2 a d)) G2 B2 n) G1 B1 (fun k => mix_row g1 b1 g2 b2 g3 b3 wb w Hs q xt G1 B1 G2 B2 G3 B3 WB W xr r n hg1 hb1 hg2 hb2 hg3 hb3 hwb hw hq hx k) ?_ ?_ hg1 hb1 d
  · refine (meanB_apply _ r 0).trans (congrArg (· * Ideal.ofBits .f32 0x3A800000#32) ?_)
    exact Finset.sum_congr rfl fun k _ => mix_row g1 b1 g2 b2 g3 b3 wb w Hs q xt G1 B1 G2 B2 G3 B3 WB W xr r n hg1 hb1 hg2 hb2 hg3 hb3 hwb hw hq hx k
  · refine (msqB_apply _ r 0).trans (congrArg (· * Ideal.ofBits .f32 0x3A800000#32) ?_)
    exact Finset.sum_congr rfl fun k _ => by rw [mix_row g1 b1 g2 b2 g3 b3 wb w Hs q xt G1 B1 G2 B2 G3 B3 WB W xr r n hg1 hb1 hg2 hb2 hg3 hb3 hwb hw hq hx k]

/-- The normalised first residual at row `r`. -/
theorem hid_row (g1 b1 : FVec Ideal S1x1024 .f32) (g2 b2 : FVec Ideal S1x2048 .f32) (g3 b3 wb : FVec Ideal S1x1024 .f32)
    (w : FVec Ideal S1024x1024 .bf16) (Hs : FVec Ideal S2048x1024 .bf16) (q : FVec Ideal S128x1024 .bf16)
    (xt : FVec Ideal S1x128x1024 .f32) (G1 B1 : Fin 1024 → EReal) (G2 B2 : Fin 2048 → EReal) (G3 B3 WB : Fin 1024 → EReal)
    (W : Fin 1024 → Fin 1024 → EReal) (xr : Fin 1024 → EReal) (r : Fin 128) (n : Fin 2048)
    (hg1 : ∀ j, g1 (ix2 (0 : Fin 1) j) = G1 j) (hb1 : ∀ j, b1 (ix2 (0 : Fin 1) j) = B1 j)
    (hg2 : ∀ j, g2 (ix2 (0 : Fin 1) j) = G2 j) (hb2 : ∀ j, b2 (ix2 (0 : Fin 1) j) = B2 j)
    (hg3 : ∀ j, g3 (ix2 (0 : Fin 1) j) = G3 j) (hb3 : ∀ j, b3 (ix2 (0 : Fin 1) j) = B3 j)
    (hwb : ∀ j, wb (ix2 (0 : Fin 1) j) = WB j) (hw : ∀ a d, w (ix2 a d) = W a d)
    (hq : ∀ d, q (ix2 r d) = Hs (ix2 n d)) (hx : ∀ d, xt (ix3 (0 : Fin 1) r d) = xr d) (d : Fin 1024) :
    normB (k0_pay34 (F := Ideal) g2 b2 g1 b1 Hs (k0_pay31 (F := Ideal) Hs q) (k0_pay32 (F := Ideal) Hs q) (k0_pay33 (F := Ideal) Hs q) xt) (k0_pay36 (F := Ideal) g2 b2 g1 b1 Hs (k0_pay31 (F := Ideal) Hs q) (k0_pay32 (F := Ideal) Hs q) (k0_pay33 (F := Ideal) Hs q) xt) (mulf (k0_pay35 (F := Ideal) g2 b2 g1 b1 Hs (k0_pay31 (F := Ideal) Hs q) (k0_pay32 (F := Ideal) Hs q) (k0_pay33 (F := Ideal) Hs q) xt) (ccol 0x3A800000#32)) g3 b3 (ix2 r d) = (lnK (((1 / 1024 : ℝ)) : EReal) ((Cert.Consts.epsR : ℝ) : EReal)) (res1H (lnK (((1 / 1024 : ℝ)) : EReal) ((Cert.Consts.epsR : ℝ) : EReal)) (lnK (((1 / 2048 : ℝ)) : EReal) ((Cert.Consts.epsR : ℝ) : EReal)) (fun a d => Hs (ix2 a d)) G1 B1 G2 B2 xr n) G3 B3 d := by
  refine normB_lnK_of _ _ _ g3 b3 r (res1H (lnK (((1 / 1024 : ℝ)) : EReal) ((Cert.Consts.epsR : ℝ) : EReal)) (lnK (((1 / 2048 : ℝ)) : EReal) ((Cert.Consts.epsR : ℝ) : EReal)) (fun a d => Hs (ix2 a d)) G1 B1 G2 B2 xr n) G3 B3 (fun k => res1_row g1 b1 g2 b2 g3 b3 wb w Hs q xt G1 B1 G2 B2 G3 B3 WB W xr r n hg1 hb1 hg2 hb2 hg3 hb3 hwb hw hq hx k) ?_ ?_ hg3 hb3 d
  · rw [pay36_eq]
    refine (meanB_apply _ r 0).trans (congrArg (· * Ideal.ofBits .f32 0x3A800000#32) ?_)
    exact Finset.sum_congr rfl fun k _ => res1_row g1 b1 g2 b2 g3 b3 wb w Hs q xt G1 B1 G2 B2 G3 B3 WB W xr r n hg1 hb1 hg2 hb2 hg3 hb3 hwb hw hq hx k
  · rw [pay35_eq]
    refine (mulf_ccol_apply _ _ _).trans (congrArg (· * Ideal.ofBits .f32 0x3A800000#32) ?_)
    refine (rsumB_apply _ r 0).trans ?_
    exact Finset.sum_congr rfl fun k _ => by
      show (k0_pay34 (F := Ideal) g2 b2 g1 b1 Hs (k0_pay31 (F := Ideal) Hs q) (k0_pay32 (F := Ideal) Hs q) (k0_pay33 (F := Ideal) Hs q) xt) (ix2 r k) * (k0_pay34 (F := Ideal) g2 b2 g1 b1 Hs (k0_pay31 (F := Ideal) Hs q) (k0_pay32 (F := Ideal) Hs q) (k0_pay33 (F := Ideal) Hs q) xt) (ix2 r k) = _
      rw [res1_row g1 b1 g2 b2 g3 b3 wb w Hs q xt G1 B1 G2 B2 G3 B3 WB W xr r n hg1 hb1 hg2 hb2 hg3 hb3 hwb hw hq hx k]

/-- The affine map's tile at row `r`. -/
theorem lin_row (g1 b1 : FVec Ideal S1x1024 .f32) (g2 b2 : FVec Ideal S1x2048 .f32) (g3 b3 wb : FVec Ideal S1x1024 .f32)
    (w : FVec Ideal S1024x1024 .bf16) (Hs : FVec Ideal S2048x1024 .bf16) (q : FVec Ideal S128x1024 .bf16)
    (xt : FVec Ideal S1x128x1024 .f32) (G1 B1 : Fin 1024 → EReal) (G2 B2 : Fin 2048 → EReal) (G3 B3 WB : Fin 1024 → EReal)
    (W : Fin 1024 → Fin 1024 → EReal) (xr : Fin 1024 → EReal) (r : Fin 128) (n : Fin 2048)
    (hg1 : ∀ j, g1 (ix2 (0 : Fin 1) j) = G1 j) (hb1 : ∀ j, b1 (ix2 (0 : Fin 1) j) = B1 j)
    (hg2 : ∀ j, g2 (ix2 (0 : Fin 1) j) = G2 j) (hb2 : ∀ j, b2 (ix2 (0 : Fin 1) j) = B2 j)
    (hg3 : ∀ j, g3 (ix2 (0 : Fin 1) j) = G3 j) (hb3 : ∀ j, b3 (ix2 (0 : Fin 1) j) = B3 j)
    (hwb : ∀ j, wb (ix2 (0 : Fin 1) j) = WB j) (hw : ∀ a d, w (ix2 a d) = W a d)
    (hq : ∀ d, q (ix2 r d) = Hs (ix2 n d)) (hx : ∀ d, xt (ix3 (0 : Fin 1) r d) = xr d) (e : Fin 1024) :
    (linOf g3 b3 wb w (k0_pay34 (F := Ideal) g2 b2 g1 b1 Hs (k0_pay31 (F := Ideal) Hs q) (k0_pay32 (F := Ideal) Hs q) (k0_pay33 (F := Ideal) Hs q) xt) (k0_pay36 (F := Ideal) g2 b2 g1 b1 Hs (k0_pay31 (F := Ideal) Hs q) (k0_pay32 (F := Ideal) Hs q) (k0_pay33 (F := Ideal) Hs q) xt) (k0_pay35 (F := Ideal) g2 b2 g1 b1 Hs (k0_pay31 (F := Ideal) Hs q) (k0_pay32 (F := Ideal) Hs q) (k0_pay33 (F := Ideal) Hs q) xt)) (ix2 r e) = (linH (lnK (((1 / 1024 : ℝ)) : EReal) ((Cert.Consts.epsR : ℝ) : EReal)) (lnK (((1 / 2048 : ℝ)) : EReal) ((Cert.Consts.epsR : ℝ) : EReal)) (fun a d => Hs (ix2 a d)) G1 B1 G2 B2 W WB G3 B3 xr n) e := by
  show matmul dot_S128x1024_S1024x1024_S128x1024_1_1_0_0_n_n none
        (truncf .bf16 (normB (k0_pay34 (F := Ideal) g2 b2 g1 b1 Hs (k0_pay31 (F := Ideal) Hs q) (k0_pay32 (F := Ideal) Hs q) (k0_pay33 (F := Ideal) Hs q) xt) (k0_pay36 (F := Ideal) g2 b2 g1 b1 Hs (k0_pay31 (F := Ideal) Hs q) (k0_pay32 (F := Ideal) Hs q) (k0_pay33 (F := Ideal) Hs q) xt) (mulf (k0_pay35 (F := Ideal) g2 b2 g1 b1 Hs (k0_pay31 (F := Ideal) Hs q) (k0_pay32 (F := Ideal) Hs q) (k0_pay33 (F := Ideal) Hs q) xt) (ccol 0x3A800000#32)) g3 b3) bitsLt_bf16_f32) w
        (constant (F := Ideal) S128x1024 .f32 0x00000000#32) (ix2 r e)
      + broadcastTo S128x1024 wb broadcasts_S1x1024_S128x1024 (ix2 r e) = _
  rw [weight_apply, broadcastTo_1b_ab_apply, hwb e]
  refine congrArg (· + WB e) ?_
  refine Finset.sum_congr rfl fun d _ => ?_
  rw [hw e d]
  exact congrArg (· * W e d) (hid_row g1 b1 g2 b2 g3 b3 wb w Hs q xt G1 B1 G2 B2 G3 B3 WB W xr r n hg1 hb1 hg2 hb2 hg3 hb3 hwb hw hq hx d)

/-- The stored tile at row `r`, feature `e`, over named parameter rows. -/
theorem out_row (g1 b1 : FVec Ideal S1x1024 .f32) (g2 b2 : FVec Ideal S1x2048 .f32) (g3 b3 wb : FVec Ideal S1x1024 .f32)
    (w : FVec Ideal S1024x1024 .bf16) (Hs : FVec Ideal S2048x1024 .bf16) (q : FVec Ideal S128x1024 .bf16)
    (xt : FVec Ideal S1x128x1024 .f32) (G1 B1 : Fin 1024 → EReal) (G2 B2 : Fin 2048 → EReal) (G3 B3 WB : Fin 1024 → EReal)
    (W : Fin 1024 → Fin 1024 → EReal) (xr : Fin 1024 → EReal) (r : Fin 128) (n : Fin 2048)
    (hg1 : ∀ j, g1 (ix2 (0 : Fin 1) j) = G1 j) (hb1 : ∀ j, b1 (ix2 (0 : Fin 1) j) = B1 j)
    (hg2 : ∀ j, g2 (ix2 (0 : Fin 1) j) = G2 j) (hb2 : ∀ j, b2 (ix2 (0 : Fin 1) j) = B2 j)
    (hg3 : ∀ j, g3 (ix2 (0 : Fin 1) j) = G3 j) (hb3 : ∀ j, b3 (ix2 (0 : Fin 1) j) = B3 j)
    (hwb : ∀ j, wb (ix2 (0 : Fin 1) j) = WB j) (hw : ∀ a d, w (ix2 a d) = W a d)
    (hq : ∀ d, q (ix2 r d) = Hs (ix2 n d)) (hx : ∀ d, xt (ix3 (0 : Fin 1) r d) = xr d) (e : Fin 1024) :
    k0_pay37 (F := Ideal) g3 b3 wb w (k0_pay34 (F := Ideal) g2 b2 g1 b1 Hs (k0_pay31 (F := Ideal) Hs q) (k0_pay32 (F := Ideal) Hs q) (k0_pay33 (F := Ideal) Hs q) xt) (k0_pay35 (F := Ideal) g2 b2 g1 b1 Hs (k0_pay31 (F := Ideal) Hs q) (k0_pay32 (F := Ideal) Hs q) (k0_pay33 (F := Ideal) Hs q) xt) (k0_pay36 (F := Ideal) g2 b2 g1 b1 Hs (k0_pay31 (F := Ideal) Hs q) (k0_pay32 (F := Ideal) Hs q) (k0_pay33 (F := Ideal) Hs q) xt) (ix3 (0 : Fin 1) r e)
      = netH (lnK (((1 / 1024 : ℝ)) : EReal) ((Cert.Consts.epsR : ℝ) : EReal)) (lnK (((1 / 2048 : ℝ)) : EReal) ((Cert.Consts.epsR : ℝ) : EReal)) (fun a d => Hs (ix2 a d)) G1 B1 G2 B2 W WB G3 B3 xr n e := by
  rw [pay37_eq, shapeCast_ab_1ab_apply]
  show normB (linOf g3 b3 wb w (k0_pay34 (F := Ideal) g2 b2 g1 b1 Hs (k0_pay31 (F := Ideal) Hs q) (k0_pay32 (F := Ideal) Hs q) (k0_pay33 (F := Ideal) Hs q) xt) (k0_pay36 (F := Ideal) g2 b2 g1 b1 Hs (k0_pay31 (F := Ideal) Hs q) (k0_pay32 (F := Ideal) Hs q) (k0_pay33 (F := Ideal) Hs q) xt) (k0_pay35 (F := Ideal) g2 b2 g1 b1 Hs (k0_pay31 (F := Ideal) Hs q) (k0_pay32 (F := Ideal) Hs q) (k0_pay33 (F := Ideal) Hs q) xt)) (meanB (linOf g3 b3 wb w (k0_pay34 (F := Ideal) g2 b2 g1 b1 Hs (k0_pay31 (F := Ideal) Hs q) (k0_pay32 (F := Ideal) Hs q) (k0_pay33 (F := Ideal) Hs q) xt) (k0_pay36 (F := Ideal) g2 b2 g1 b1 Hs (k0_pay31 (F := Ideal) Hs q) (k0_pay32 (F := Ideal) Hs q) (k0_pay33 (F := Ideal) Hs q) xt) (k0_pay35 (F := Ideal) g2 b2 g1 b1 Hs (k0_pay31 (F := Ideal) Hs q) (k0_pay32 (F := Ideal) Hs q) (k0_pay33 (F := Ideal) Hs q) xt))) (msqB (linOf g3 b3 wb w (k0_pay34 (F := Ideal) g2 b2 g1 b1 Hs (k0_pay31 (F := Ideal) Hs q) (k0_pay32 (F := Ideal) Hs q) (k0_pay33 (F := Ideal) Hs q) xt) (k0_pay36 (F := Ideal) g2 b2 g1 b1 Hs (k0_pay31 (F := Ideal) Hs q) (k0_pay32 (F := Ideal) Hs q) (k0_pay33 (F := Ideal) Hs q) xt) (k0_pay35 (F := Ideal) g2 b2 g1 b1 Hs (k0_pay31 (F := Ideal) Hs q) (k0_pay32 (F := Ideal) Hs q) (k0_pay33 (F := Ideal) Hs q) xt))) g3 b3 (ix2 r e) + (k0_pay34 (F := Ideal) g2 b2 g1 b1 Hs (k0_pay31 (F := Ideal) Hs q) (k0_pay32 (F := Ideal) Hs q) (k0_pay33 (F := Ideal) Hs q) xt) (ix2 r e) = _
  rw [res1_row g1 b1 g2 b2 g3 b3 wb w Hs q xt G1 B1 G2 B2 G3 B3 WB W xr r n hg1 hb1 hg2 hb2 hg3 hb3 hwb hw hq hx e]
  refine congrArg (· + (res1H (lnK (((1 / 1024 : ℝ)) : EReal) ((Cert.Consts.epsR : ℝ) : EReal)) (lnK (((1 / 2048 : ℝ)) : EReal) ((Cert.Consts.epsR : ℝ) : EReal)) (fun a d => Hs (ix2 a d)) G1 B1 G2 B2 xr n) e) ?_
  refine normB_lnK_of _ _ _ g3 b3 r (linH (lnK (((1 / 1024 : ℝ)) : EReal) ((Cert.Consts.epsR : ℝ) : EReal)) (lnK (((1 / 2048 : ℝ)) : EReal) ((Cert.Consts.epsR : ℝ) : EReal)) (fun a d => Hs (ix2 a d)) G1 B1 G2 B2 W WB G3 B3 xr n) G3 B3 (fun k => lin_row g1 b1 g2 b2 g3 b3 wb w Hs q xt G1 B1 G2 B2 G3 B3 WB W xr r n hg1 hb1 hg2 hb2 hg3 hb3 hwb hw hq hx k) ?_ ?_ hg3 hb3 e
  · refine (meanB_apply _ r 0).trans (congrArg (· * Ideal.ofBits .f32 0x3A800000#32) ?_)
    exact Finset.sum_congr rfl fun k _ => lin_row g1 b1 g2 b2 g3 b3 wb w Hs q xt G1 B1 G2 B2 G3 B3 WB W xr r n hg1 hb1 hg2 hb2 hg3 hb3 hwb hw hq hx k
  · refine (msqB_apply _ r 0).trans (congrArg (· * Ideal.ofBits .f32 0x3A800000#32) ?_)
    exact Finset.sum_congr rfl fun k _ => by rw [lin_row g1 b1 g2 b2 g3 b3 wb w Hs q xt G1 B1 G2 B2 G3 B3 WB W xr r n hg1 hb1 hg2 hb2 hg3 hb3 hwb hw hq hx k]

end Cert.KernelIdeal.Chain

namespace Cert.KernelIdeal.Pieces

open Cert.KernelIdeal Cert.KernelIdeal.Gen Idealize.ShloMosaic Idealize.ShloMosaic.ValueIdx
open Cert.Spec

/-! ## The first sub-tile -/

/-- The first sub-tile's stored value at row `r`, feature `e`: with `Hs` the scratch as loaded, `q` the loaded query
    rows, `xt` the loaded input rows and the parameter rows as loaded, if row `r` of `q` is row `n` of `Hs`, it is the
    block's row computation for token row `n` against the rows of `Hs`, with row `r` of `xt` as the input row. -/
theorem chain0_apply
    (g2 b2 : FVec Ideal S1x2048 .f32) (g1 b1 g3 b3 wb : FVec Ideal S1x1024 .f32)
    (Hs : Vec Ideal S2048x1024 .bf16) (W : FVec Ideal S1024x1024 .bf16)
    (q : Vec Ideal S128x1024 .bf16) (xt : Vec Ideal S1x128x1024 .f32)
    (r : Fin 128) (e : Fin 1024) (n : Fin 2048)
    (hq : ∀ d, q (ix2 r d) = Hs (ix2 n d)) :
    k0_pay37 g3 b3 wb W
        (k0_pay34 g2 b2 g1 b1 Hs (k0_pay31 Hs q) (k0_pay32 Hs q) (k0_pay33 Hs q) xt)
        (k0_pay35 g2 b2 g1 b1 Hs (k0_pay31 Hs q) (k0_pay32 Hs q) (k0_pay33 Hs q) xt)
        (k0_pay36 g2 b2 g1 b1 Hs (k0_pay31 Hs q) (k0_pay32 Hs q) (k0_pay33 Hs q) xt) (ix3 0 r e)
      = netH LK LK' (fun n' d => Hs (ix2 n' d))
          (fun k => g1 (ix2 0 k)) (fun k => b1 (ix2 0 k)) (fun k => g2 (ix2 0 k)) (fun k => b2 (ix2 0 k))
          (fun e' d => W (ix2 e' d)) (fun k => wb (ix2 0 k)) (fun k => g3 (ix2 0 k)) (fun k => b3 (ix2 0 k))
          (fun d => xt (ix3 0 r d)) n e :=
  Chain.out_row g1 b1 g2 b2 g3 b3 wb W Hs q xt
    (fun k => g1 (ix2 0 k)) (fun k => b1 (ix2 0 k)) (fun k => g2 (ix2 0 k)) (fun k => b2 (ix2 0 k))
    (fun k => g3 (ix2 0 k)) (fun k => b3 (ix2 0 k)) (fun k => wb (ix2 0 k)) (fun e' d => W (ix2 e' d))
    (fun d => xt (ix3 0 r d)) r n (fun _ => rfl) (fun _ => rfl) (fun _ => rfl) (fun _ => rfl) (fun _ => rfl) (fun _ => rfl)
    (fun _ => rfl) (fun _ _ => rfl) hq (fun _ => rfl) e

end Cert.KernelIdeal.Pieces

end
-- ==== Proof.KChain1.lean ====
/-
  The arithmetic of the second 128-row sub-tile, read at an index. From the whole staged token matrix, the
  128 query rows, the 128 input rows and the parameter vectors, the sub-tile's stored value at row `r` and
  feature `e` is the block's row computation: the scores of the query row against every token row, normalised
  over the tokens, mix the token rows; the mixed row is normalised and the input row added, then normalised,
  mapped affinely, normalised and added again. Each normalisation is the one-pass form: mean `s·c`, variance
  `s₂·c − (s·c)·(s·c)`, then `(v − mean)·rsqrt(variance + ε)·g + b`.
-/
import proofs.«402831_j2413771620561_3_alg».proof.Proof.KDefs
import proofs.«402831_j2413771620561_3_alg».proof.Proof.KChainLib
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pieces

open Cert.KernelIdeal Cert.KernelIdeal.Gen Idealize.ShloMosaic Idealize.ShloMosaic.TcCoe Idealize.ShloMosaic.ValueIdx
open Cert.Spec Cert.KernelIdeal.Chain
open scoped BigOperators

/-! ## A normalised tile at a row whose entries are known -/

theorem meanA_row (v : FVec Ideal S128x2048 .f32) (r : Fin 128) (row : Fin 2048 → EReal)
    (hv : ∀ k, v (ix2 r k) = row k) :
    meanA v (ix2 r (0 : Fin 1)) = (∑ j, row j) * Ideal.ofBits .f32 0x3A000000#32 := by
  rw [meanA_apply]
  exact congrArg (· * Ideal.ofBits .f32 0x3A000000#32) (Finset.sum_congr rfl fun k _ => hv k)

theorem msqA_row (v : FVec Ideal S128x2048 .f32) (r : Fin 128) (row : Fin 2048 → EReal)
    (hv : ∀ k, v (ix2 r k) = row k) :
    msqA v (ix2 r (0 : Fin 1)) = (∑ j, row j * row j) * Ideal.ofBits .f32 0x3A000000#32 := by
  rw [msqA_apply]
  exact congrArg (· * Ideal.ofBits .f32 0x3A000000#32) (Finset.sum_congr rfl fun k _ => by rw [hv k])

theorem meanB_row (v : FVec Ideal S128x1024 .f32) (r : Fin 128) (row : Fin 1024 → EReal)
    (hv : ∀ k, v (ix2 r k) = row k) :
    meanB v (ix2 r (0 : Fin 1)) = (∑ j, row j) * Ideal.ofBits .f32 0x3A800000#32 := by
  rw [meanB_apply]
  exact congrArg (· * Ideal.ofBits .f32 0x3A800000#32) (Finset.sum_congr rfl fun k _ => hv k)

theorem msqB_row (v : FVec Ideal S128x1024 .f32) (r : Fin 128) (row : Fin 1024 → EReal)
    (hv : ∀ k, v (ix2 r k) = row k) :
    msqB v (ix2 r (0 : Fin 1)) = (∑ j, row j * row j) * Ideal.ofBits .f32 0x3A800000#32 := by
  rw [msqB_apply]
  exact congrArg (· * Ideal.ofBits .f32 0x3A800000#32) (Finset.sum_congr rfl fun k _ => by rw [hv k])

/-- A tile of width 2048 normalised from its own row means and mean squares is, at a row, the one-pass
    normalisation of that row. -/
theorem normA_row (v : FVec Ideal S128x2048 .f32) (g b : FVec Ideal S1x2048 .f32) (r : Fin 128)
    (row : Fin 2048 → EReal) (hv : ∀ k, v (ix2 r k) = row k) (k : Fin 2048) :
    normA v (meanA v) (msqA v) g b (ix2 r k)
      = LK' row (fun j => g (ix2 (0 : Fin 1) j)) (fun j => b (ix2 (0 : Fin 1) j)) k :=
  normA_lnK v (meanA v) (msqA v) g b r row hv (meanA_row v r row hv) (msqA_row v r row hv) k

/-- The same at width 1024. -/
theorem normB_row (v : FVec Ideal S128x1024 .f32) (g b : FVec Ideal S1x1024 .f32) (r : Fin 128)
    (row : Fin 1024 → EReal) (hv : ∀ k, v (ix2 r k) = row k) (k : Fin 1024) :
    normB v (meanB v) (msqB v) g b (ix2 r k)
      = LK row (fun j => g (ix2 (0 : Fin 1) j)) (fun j => b (ix2 (0 : Fin 1) j)) k :=
  normB_lnK v (meanB v) (msqB v) g b r row hv (meanB_row v r row hv) (msqB_row v r row hv) k

/-! ## The sub-tile's intermediate tiles -/

section Tiles

variable (g2 b2 : FVec Ideal S1x2048 .f32) (g1 b1 g3 b3 wb : FVec Ideal S1x1024 .f32)
variable (Hs : FVec Ideal S2048x1024 .bf16) (W : FVec Ideal S1024x1024 .bf16)
variable (q : FVec Ideal S128x1024 .bf16) (xt : FVec Ideal S1x128x1024 .f32)

/-- The scores of the 128 query rows against every staged row. -/
def scoreT : FVec Ideal S128x2048 .f32 :=
  matmul dot_S128x1024_S2048x1024_S128x2048_1_1_0_0_n_n none q Hs (constant (F := Ideal) S128x2048 .f32 0x00000000#32)

/-- The score rows normalised over the tokens. -/
def interT : FVec Ideal S128x2048 .f32 :=
  normA (scoreT Hs q) (meanA (scoreT Hs q)) (msqA (scoreT Hs q)) g2 b2

/-- The staged rows mixed by the normalised scores. -/
def mixT : FVec Ideal S128x1024 .f32 :=
  matmul dot_S128x2048_S2048x1024_S128x1024_1_0_0_1_n_n none (truncf .bf16 (interT g2 b2 Hs q) bitsLt_bf16_f32) Hs
    (constant (F := Ideal) S128x1024 .f32 0x00000000#32)

/-- The mixed rows normalised, plus the input rows. -/
def res1T : FVec Ideal S128x1024 .f32 :=
  addf (normB (mixT g2 b2 Hs q) (meanB (mixT g2 b2 Hs q)) (msqB (mixT g2 b2 Hs q)) g1 b1)
    (shapeCast S128x1024 xt shapeCasts_S1x128x1024_S128x1024)

/-- The affine map of a normalised tile `R`. -/
def linOf (R : FVec Ideal S128x1024 .f32) : FVec Ideal S128x1024 .f32 :=
  addf (matmul dot_S128x1024_S1024x1024_S128x1024_1_1_0_0_n_n none
      (truncf .bf16 (normB R (meanB R) (msqB R) g3 b3) bitsLt_bf16_f32) W (constant (F := Ideal) S128x1024 .f32 0x00000000#32))
    (broadcastTo S128x1024 wb broadcasts_S1x1024_S128x1024)

/-- The affine map of the normalised first residual. -/
def linT : FVec Ideal S128x1024 .f32 := linOf g3 b3 wb W (res1T g2 b2 g1 b1 Hs q xt)

/-! The generated payloads are these compositions, by unfolding. -/

theorem pay38_eq : k0_pay38 g2 b2 g1 Hs q
    = normB0 (mixT g2 b2 Hs q) (meanB (mixT g2 b2 Hs q)) (msqB (mixT g2 b2 Hs q)) g1 := rfl

theorem pay39_eq : k0_pay39 b1 (k0_pay38 g2 b2 g1 Hs q) xt = res1T g2 b2 g1 b1 Hs q xt := rfl

theorem pay40_eq (t : FVec Ideal S128x1024 .f32) :
    k0_pay40 b1 g3 b3 wb W t xt = linOf g3 b3 wb W (k0_pay39 b1 t xt) := rfl

theorem pay41_eq (t : FVec Ideal S128x1024 .f32) :
    k0_pay41 b1 g3 b3 wb W t xt = meanB (k0_pay40 b1 g3 b3 wb W t xt) := rfl

theorem pay42_eq (t : FVec Ideal S128x1024 .f32) :
    k0_pay42 b1 g3 b3 wb W t xt
      = subf (k0_pay40 b1 g3 b3 wb W t xt)
          (broadcastTo S128x1024 (meanB (k0_pay40 b1 g3 b3 wb W t xt)) broadcasts_S128x1_S128x1024) := rfl

theorem pay43_eq (t : FVec Ideal S128x1024 .f32) :
    k0_pay43 b1 g3 b3 wb W t xt
      = addf (subf (msqB (k0_pay40 b1 g3 b3 wb W t xt))
          (mulf (meanB (k0_pay40 b1 g3 b3 wb W t xt)) (meanB (k0_pay40 b1 g3 b3 wb W t xt)))) (ccol 0x3727C5AC#32) := rfl

theorem pay1_eq (R L : FVec Ideal S128x1024 .f32) (m s : FVec Ideal S128x1 .f32) :
    k0_pay1 g3 b3 R (subf L (broadcastTo S128x1024 m broadcasts_S128x1_S128x1024))
        (addf (subf s (mulf m m)) (ccol 0x3727C5AC#32))
      = shapeCast S1x128x1024 (addf (normB L m s g3 b3) R) shapeCasts_S128x1024_S1x128x1024 := rfl

end Tiles

/-! ## The tiles at row `r`, when query row `r` is staged row `n` -/

section Rows

variable (g2 b2 : FVec Ideal S1x2048 .f32) (g1 b1 g3 b3 wb : FVec Ideal S1x1024 .f32)
variable (Hs : FVec Ideal S2048x1024 .bf16) (W : FVec Ideal S1024x1024 .bf16)
variable (q : FVec Ideal S128x1024 .bf16) (xt : FVec Ideal S1x128x1024 .f32)
variable (r : Fin 128) (n : Fin 2048) (hq : ∀ d, q (ix2 r d) = Hs (ix2 n d))
include hq

/-- The score tile's row `r` is the scores of staged row `n`. -/
theorem scoreT_row (m : Fin 2048) :
    scoreT Hs q (ix2 r m) = scoreH (fun n' d => Hs (ix2 n' d)) n m := by
  refine (score_apply q Hs r m).trans ?_
  exact Finset.sum_congr rfl fun d _ => congrArg (· * Hs (ix2 m d)) (hq d)

/-- Its normalisation over the tokens. -/
theorem interT_row (m : Fin 2048) :
    interT g2 b2 Hs q (ix2 r m)
      = interH LK' (fun n' d => Hs (ix2 n' d)) (fun k => g2 (ix2 0 k)) (fun k => b2 (ix2 0 k)) n m :=
  normA_row (scoreT Hs q) g2 b2 r (scoreH (fun n' d => Hs (ix2 n' d)) n) (scoreT_row Hs q r n hq) m

/-- The mixed row. -/
theorem mixT_row (d : Fin 1024) :
    mixT g2 b2 Hs q (ix2 r d)
      = mixH LK' (fun n' d => Hs (ix2 n' d)) (fun k => g2 (ix2 0 k)) (fun k => b2 (ix2 0 k)) n d := by
  refine (mix_apply (truncf .bf16 (interT g2 b2 Hs q) bitsLt_bf16_f32) Hs r d).trans ?_
  exact Finset.sum_congr rfl fun m _ => congrArg (· * Hs (ix2 m d)) (interT_row g2 b2 Hs q r n hq m)

/-- The first residual's row. -/
theorem res1T_row (d : Fin 1024) :
    res1T g2 b2 g1 b1 Hs q xt (ix2 r d)
      = res1H LK LK' (fun n' d => Hs (ix2 n' d)) (fun k => g1 (ix2 0 k)) (fun k => b1 (ix2 0 k))
          (fun k => g2 (ix2 0 k)) (fun k => b2 (ix2 0 k)) (fun d => xt (ix3 0 r d)) n d :=
  congrArg₂ (· + ·)
    (normB_row (mixT g2 b2 Hs q) g1 b1 r _ (mixT_row g2 b2 Hs q r n hq) d)
    (shapeCast_1ab_ab_apply xt shapeCasts_S1x128x1024_S128x1024 r d)

/-- The affine map's row. -/
theorem linT_row (e : Fin 1024) :
    linT g2 b2 g1 b1 g3 b3 wb Hs W q xt (ix2 r e)
      = linH LK LK' (fun n' d => Hs (ix2 n' d)) (fun k => g1 (ix2 0 k)) (fun k => b1 (ix2 0 k))
          (fun k => g2 (ix2 0 k)) (fun k => b2 (ix2 0 k)) (fun e' d => W (ix2 e' d)) (fun k => wb (ix2 0 k))
          (fun k => g3 (ix2 0 k)) (fun k => b3 (ix2 0 k)) (fun d => xt (ix3 0 r d)) n e := by
  refine congrArg₂ (· + ·) ((weight_apply (truncf .bf16 (normB (res1T g2 b2 g1 b1 Hs q xt)
      (meanB (res1T g2 b2 g1 b1 Hs q xt)) (msqB (res1T g2 b2 g1 b1 Hs q xt)) g3 b3) bitsLt_bf16_f32) W r e).trans ?_)
    (broadcastTo_1b_ab_apply wb broadcasts_S1x1024_S128x1024 r e)
  exact Finset.sum_congr rfl fun d _ => congrArg (· * W (ix2 e d))
    (normB_row (res1T g2 b2 g1 b1 Hs q xt) g3 b3 r _ (res1T_row g2 b2 g1 b1 Hs q xt r n hq) d)

end Rows

/-- The second sub-tile's stored value at row `r`, feature `e`, when query row `r` is token row `n` of the
    staged matrix: the block's row computation against the staged matrix, with the input row `r` of the
    loaded input tile. -/
theorem chain1_apply
    (g2 b2 : FVec Ideal S1x2048 .f32) (g1 b1 g3 b3 wb : FVec Ideal S1x1024 .f32)
    (Hs : Vec Ideal S2048x1024 .bf16) (W : FVec Ideal S1024x1024 .bf16)
    (q : Vec Ideal S128x1024 .bf16) (xt : Vec Ideal S1x128x1024 .f32)
    (r : Fin 128) (e : Fin 1024) (n : Fin 2048)
    (hq : ∀ d, q (ix2 r d) = Hs (ix2 n d)) :
    k0_pay1 g3 b3 (k0_pay39 b1 (k0_pay38 g2 b2 g1 Hs q) xt)
        (k0_pay42 b1 g3 b3 wb W (k0_pay38 g2 b2 g1 Hs q) xt)
        (k0_pay43 b1 g3 b3 wb W (k0_pay38 g2 b2 g1 Hs q) xt) (ix3 0 r e)
      = netH LK LK' (fun n' d => Hs (ix2 n' d))
          (fun k => g1 (ix2 0 k)) (fun k => b1 (ix2 0 k)) (fun k => g2 (ix2 0 k)) (fun k => b2 (ix2 0 k))
          (fun e' d => W (ix2 e' d)) (fun k => wb (ix2 0 k)) (fun k => g3 (ix2 0 k)) (fun k => b3 (ix2 0 k))
          (fun d => xt (ix3 0 r d)) n e := by
  rw [pay42_eq, pay43_eq, pay40_eq, pay39_eq, pay1_eq]
  refine (shapeCast_ab_1ab_apply _ shapeCasts_S128x1024_S1x128x1024 0 r e).trans ?_
  exact congrArg₂ (· + ·)
    (normB_row (linT g2 b2 g1 b1 g3 b3 wb Hs W q xt) g3 b3 r _ (linT_row g2 b2 g1 b1 g3 b3 wb Hs W q xt r n hq) e)
    (res1T_row g2 b2 g1 b1 Hs q xt r n hq e)

end Cert.KernelIdeal.Pieces

end
-- ==== Proof.KOutA.lean ====
/-
  At a batch's first point each row of the output tile is the block's row computation against the token rows
  the same point has just written to the scratch.

  The tile is stored as two slabs of 128 rows, the upper one last. A row of the tile lies in exactly one slab, so
  it reads that slab's payload at the row inside the slab. Each payload is the row computation applied to three
  loads: the whole token scratch, the slab's 128 query rows of the scratch, and the slab's 128 rows of the input
  block. The scratch was filled by the eight chunk stores earlier in the same point, so each of its loads reads,
  at every index, what those stores left there: the normalised token row. Rows `256·j + 128·s + p` of the scratch
  and of the input block are what slab `s` loads at its row `p`, which is the row the tile's row names.
-/
import proofs.«402831_j2413771620561_3_alg».proof.Proof.KDefs
import proofs.«402831_j2413771620561_3_alg».proof.Proof.KScratch
import proofs.«402831_j2413771620561_3_alg».proof.Proof.KChainLib
import proofs.«402831_j2413771620561_3_alg».proof.Proof.KChain
import proofs.«402831_j2413771620561_3_alg».proof.Proof.KChain1
import Idealize.ShloMosaic.Lib.Pipeline.Value
import Idealize.ShloMosaic.Lib.ValueIdx
import Idealize.ShloMosaic.Lib.Tactic

noncomputable section

namespace Cert.KernelIdeal.Pieces

open Cert.KernelIdeal Cert.KernelIdeal.Gen Idealize.ShloMosaic Idealize.ShloMosaic.TcCoe Idealize.ShloMosaic.ValueIdx
open Cert.Spec Cert.KernelIdeal.Chain

namespace OutA

/-! ## A row of the tile lies in one of the two slabs -/

/-- Row `r < 128` of the tile is row `r` of the lower slab. -/
theorem row_lo (inb0 : ∀ a, (![0, 0, 0] : Fin 3 → Nat) a + S1x128x1024.size a ≤ S1x256x1024.size a) (r : Fin 256) (e : Fin 1024) (hr : r.val < 128) :
    (ix3 (0 : Fin 1) r e : S1x256x1024.Idx) = (Rect.unit (s := S1x256x1024) ![0, 0, 0] S1x128x1024.size inb0).emb (ix3 0 ⟨r.val, hr⟩ e) := by
  funext a
  apply Fin.ext
  match a with
  | ⟨0, _⟩ => simp only [Rect.emb_apply, Rect.off_unit, Rect.stride_unit, Nat.one_mul]; rfl
  | ⟨1, _⟩ => simp only [Rect.emb_apply, Rect.off_unit, Rect.stride_unit, Nat.one_mul]; exact (Nat.zero_add _).symm
  | ⟨2, _⟩ => simp only [Rect.emb_apply, Rect.off_unit, Rect.stride_unit, Nat.one_mul]; exact (Nat.zero_add _).symm

/-- Row `r ≥ 128` of the tile is row `r - 128` of the upper slab. -/
theorem row_hi (inb1 : ∀ a, (![0, 128, 0] : Fin 3 → Nat) a + S1x128x1024.size a ≤ S1x256x1024.size a) (r : Fin 256) (e : Fin 1024) (hr : 128 ≤ r.val)
    (hr' : r.val - 128 < 128) :
    (ix3 (0 : Fin 1) r e : S1x256x1024.Idx) = (Rect.unit (s := S1x256x1024) ![0, 128, 0] S1x128x1024.size inb1).emb (ix3 0 ⟨r.val - 128, hr'⟩ e) := by
  funext a
  apply Fin.ext
  match a with
  | ⟨0, _⟩ => simp only [Rect.emb_apply, Rect.off_unit, Rect.stride_unit, Nat.one_mul]; rfl
  | ⟨1, _⟩ =>
    simp only [Rect.emb_apply, Rect.off_unit, Rect.stride_unit, Nat.one_mul]
    have h : r.val = 128 + (r.val - 128) := by omega
    exact h
  | ⟨2, _⟩ => simp only [Rect.emb_apply, Rect.off_unit, Rect.stride_unit, Nat.one_mul]; exact (Nat.zero_add _).symm

/-- Row `r < 128` of the tile is not in the upper slab. -/
theorem row_lo_not_hi (inb1 : ∀ a, (![0, 128, 0] : Fin 3 → Nat) a + S1x128x1024.size a ≤ S1x256x1024.size a) (r : Fin 256) (e : Fin 1024) (hr : r.val < 128) :
    (ix3 (0 : Fin 1) r e : S1x256x1024.Idx) ∉ (Rect.unit (s := S1x256x1024) ![0, 128, 0] S1x128x1024.size inb1).set := by
  intro hm
  rw [Rect.mem_set_unit] at hm
  have h := (hm ⟨1, by decide⟩).1
  have h2 : (128 : Nat) ≤ r.val := h
  omega

section Slabs

variable {Val : EltTy → Type} [∀ e, Nonempty (Val e)] {φ : EltTy}

/-- Under the two slab stores (upper stored last) a row of the lower half reads the lower slab's payload. -/
theorem canon_slab_lo (inb1 : ∀ a, (![0, 128, 0] : Fin 3 → Nat) a + S1x128x1024.size a ≤ S1x256x1024.size a)
    (inb0 : ∀ a, (![0, 0, 0] : Fin 3 → Nat) a + S1x128x1024.size a ≤ S1x256x1024.size a)
    (w1 w0 : S1x128x1024.Idx → Val φ) (L : List (View.Piece Val S1x256x1024 φ)) (r : Fin 256) (e : Fin 1024) (hr : r.val < 128) :
    View.canon ((⟨Rect.unit (s := S1x256x1024) ![0, 128, 0] S1x128x1024.size inb1, w1⟩ : View.Piece Val S1x256x1024 φ)
        :: ⟨Rect.unit (s := S1x256x1024) ![0, 0, 0] S1x128x1024.size inb0, w0⟩ :: L) (ix3 0 r e)
      = w0 (ix3 0 ⟨r.val, hr⟩ e) := by
  refine (View.canon_cons_of_not_mem (⟨Rect.unit (s := S1x256x1024) ![0, 128, 0] S1x128x1024.size inb1, w1⟩ : View.Piece Val S1x256x1024 φ)
    (⟨Rect.unit (s := S1x256x1024) ![0, 0, 0] S1x128x1024.size inb0, w0⟩ :: L) (row_lo_not_hi inb1 r e hr)).trans ?_
  rw [row_lo inb0 r e hr]
  exact View.canon_cons_emb (Rect.unit (s := S1x256x1024) ![0, 0, 0] S1x128x1024.size inb0) w0 L (ix3 0 ⟨r.val, hr⟩ e)

/-- A row of the upper half reads the upper slab's payload, stored last. -/
theorem canon_slab_hi (inb1 : ∀ a, (![0, 128, 0] : Fin 3 → Nat) a + S1x128x1024.size a ≤ S1x256x1024.size a)
    (w1 : S1x128x1024.Idx → Val φ) (L : List (View.Piece Val S1x256x1024 φ)) (r : Fin 256) (e : Fin 1024) (hr : 128 ≤ r.val) (hr' : r.val - 128 < 128) :
    View.canon ((⟨Rect.unit (s := S1x256x1024) ![0, 128, 0] S1x128x1024.size inb1, w1⟩ : View.Piece Val S1x256x1024 φ) :: L) (ix3 0 r e)
      = w1 (ix3 0 ⟨r.val - 128, hr'⟩ e) := by
  rw [row_hi inb1 r e hr hr']
  exact View.canon_cons_emb (Rect.unit (s := S1x256x1024) ![0, 128, 0] S1x128x1024.size inb1) w1 L (ix3 0 ⟨r.val - 128, hr'⟩ e)

end Slabs

/-! ## What the loads read -/

theorem hz1 : (![0] : Fin 1 → Nat) = fun _ => 0 := funext fun a => by fin_cases a; rfl
theorem hz2 : (![0, 0] : Fin 2 → Nat) = fun _ => 0 := funext fun a => by fin_cases a <;> rfl

/-- A whole load of a parameter vector of width 1024 reads it. -/
theorem load1024 (a : Memref sig .tc .vmem S1024 .f32) (ha : a.IsWhole) (x : Vec Ideal S1024 .f32) :
    View.readAt (Elt Ideal) a.view (Rect.unit (s := S1024) ![0] S1024.size inb_S1024_S1024_0).toLoadRect (ha.unread x) = x := by
  rw [View.readAt_eq_ld, ha.read_unread, View.ld_unit_zero (S := S1024) hz1]

/-- A whole load of a parameter vector of width 2048 reads it. -/
theorem load2048 (a : Memref sig .tc .vmem S2048 .f32) (ha : a.IsWhole) (x : Vec Ideal S2048 .f32) :
    View.readAt (Elt Ideal) a.view (Rect.unit (s := S2048) ![0] S2048.size inb_S2048_S2048_0).toLoadRect (ha.unread x) = x := by
  rw [View.readAt_eq_ld, ha.read_unread, View.ld_unit_zero (S := S2048) hz1]

/-- A whole load of the weight reads it. -/
theorem loadW (a : Memref sig .tc .vmem S1024x1024 .bf16) (ha : a.IsWhole) (x : Vec Ideal S1024x1024 .bf16) :
    View.readAt (Elt Ideal) a.view (Rect.unit (s := S1024x1024) ![0, 0] S1024x1024.size inb_S1024x1024_S1024x1024_0_0).toLoadRect (ha.unread x) = x := by
  rw [View.readAt_eq_ld, ha.read_unread, View.ld_unit_zero (S := S1024x1024) hz2]

/-- Row `p` of a 128-row load of the input block at row offset `m` is the block's row `m + p`. -/
theorem xrows_idx {off : Fin 3 → Nat} (m : Nat) (ho : off = ![0, m, 0])
    (inb : ∀ a, off a + S1x128x1024.size a ≤ S1x2048x1024.size a) (p : Fin 128) (d : Fin 1024) (n : Fin 2048)
    (hn : n.val = m + p.val) :
    (Rect.unit (s := S1x2048x1024) off S1x128x1024.size inb).toLoadRect.idx (ix3 0 p d) = ix3 0 n d := by
  subst ho
  funext a
  apply Fin.ext
  match a with
  | ⟨0, _⟩ => simp only [LoadRect.idx_apply, Rect.off_unit, Rect.stride_unit, Nat.one_mul]; rfl
  | ⟨1, _⟩ => simp only [LoadRect.idx_apply, Rect.off_unit, Rect.stride_unit, Nat.one_mul]; exact hn.symm
  | ⟨2, _⟩ => simp only [LoadRect.idx_apply, Rect.off_unit, Rect.stride_unit, Nat.one_mul]; exact Nat.zero_add _

/-- The 128-row load of the input block reads its rows `m + p`. -/
theorem xrows_apply (a : Memref sig .tc .vmem S1x2048x1024 .f32) (ha : a.IsWhole) (x0 : Vec Ideal S1x2048x1024 .f32)
    {off : Fin 3 → Nat} (m : Nat) (ho : off = ![0, m, 0])
    (inb : ∀ a, off a + S1x128x1024.size a ≤ S1x2048x1024.size a) (p : Fin 128) (d : Fin 1024) (n : Fin 2048)
    (hn : n.val = m + p.val) :
    View.readAt (Elt Ideal) a.view (Rect.unit (s := S1x2048x1024) off S1x128x1024.size inb).toLoadRect (ha.unread x0) (ix3 0 p d)
      = x0 (ix3 0 n d) := by
  rw [View.readAt_eq_ld, ha.read_unread]
  exact congrArg x0 (xrows_idx m ho inb p d n hn)

/-- Row `p` of a 128-row load of the scratch at row offset `m` is the scratch's row `m + p`. -/
theorem qrows_idx {off : Fin 2 → Nat} (m : Nat) (ho : off = ![m, 0])
    (inb : ∀ a, off a + S128x1024.size a ≤ S2048x1024.size a) (p : Fin 128) (d : Fin 1024) (n : Fin 2048)
    (hn : n.val = m + p.val) :
    (Rect.unit (s := S2048x1024) off S128x1024.size inb).toLoadRect.idx (ix2 p d) = ix2 n d := by
  subst ho
  funext a
  apply Fin.ext
  match a with
  | ⟨0, _⟩ => simp only [LoadRect.idx_apply, Rect.off_unit, Rect.stride_unit, Nat.one_mul]; exact hn.symm
  | ⟨1, _⟩ => simp only [LoadRect.idx_apply, Rect.off_unit, Rect.stride_unit, Nat.one_mul]; exact Nat.zero_add _

/-- The whole-scratch rectangle places an index at itself. -/
theorem whole_idx (inb : ∀ a, (![0, 0] : Fin 2 → Nat) a + S2048x1024.size a ≤ S2048x1024.size a) (n : Fin 2048) (d : Fin 1024) :
    (Rect.unit (s := S2048x1024) ![0, 0] S2048x1024.size inb).toLoadRect.idx (ix2 n d) = ix2 n d := by
  funext a
  apply Fin.ext
  match a with
  | ⟨0, _⟩ => simp only [LoadRect.idx_apply, Rect.off_unit, Rect.stride_unit, Nat.one_mul]; exact Nat.zero_add _
  | ⟨1, _⟩ => simp only [LoadRect.idx_apply, Rect.off_unit, Rect.stride_unit, Nat.one_mul]; exact Nat.zero_add _

/-- A whole load of the scratch after the stores `L` reads, at every index, what the stores left there. -/
theorem scratch_whole_apply (v : View sig .tc .vmem S2048x1024 .bf16) (L : List (View.Piece (Elt Ideal) S2048x1024 .bf16))
    (inb : ∀ a, (![0, 0] : Fin 2 → Nat) a + S2048x1024.size a ≤ S2048x1024.size a) (n : Fin 2048) (d : Fin 1024) :
    v.readCov L (Rect.unit (s := S2048x1024) ![0, 0] S2048x1024.size inb).toLoadRect (ix2 n d) = View.canon L (ix2 n d) :=
  (congrFun (View.readCov_eq_canon' v L (Rect.unit (s := S2048x1024) ![0, 0] S2048x1024.size inb).toLoadRect) (ix2 n d)).trans
    (congrArg (View.canon L) (whole_idx inb n d))

/-- A 128-row load of the scratch at row offset `m` after the stores `L` reads what they left at rows `m + p`. -/
theorem scratch_rows_apply (v : View sig .tc .vmem S2048x1024 .bf16) (L : List (View.Piece (Elt Ideal) S2048x1024 .bf16))
    {off : Fin 2 → Nat} (m : Nat) (ho : off = ![m, 0])
    (inb : ∀ a, off a + S128x1024.size a ≤ S2048x1024.size a) (p : Fin 128) (d : Fin 1024) (n : Fin 2048)
    (hn : n.val = m + p.val) :
    View.readAt (Elt Ideal) v (Rect.unit (s := S2048x1024) off S128x1024.size inb).toLoadRect (v.writes (Elt Ideal) v.junk L) (ix2 p d)
      = View.canon L (ix2 n d) :=
  (congrFun (View.readAt_writes_junk_eq_canon v L (Rect.unit (s := S2048x1024) off S128x1024.size inb).toLoadRect) (ix2 p d)).trans
    (congrArg (View.canon L) (qrows_idx m ho inb p d n hn))

/-! ## The slab payloads are the row computation -/

/-- The right side of the chain statements, with the parameter rows read off the staged vectors, the token
    matrix the normalised rows and the input row the block's row `n`, is the row computation. -/
theorem netH_rows (x0 : Vec Ideal S1x2048x1024 .f32) (x1 x2 : Vec Ideal S1024 .f32) (x3 x4 : Vec Ideal S2048 .f32)
    (x5 x6 : Vec Ideal S1024 .f32) (x7 : Vec Ideal S1024x1024 .bf16) (x8 : Vec Ideal S1024 .f32)
    (Hs : Vec Ideal S2048x1024 .bf16) (xt : Vec Ideal S1x128x1024 .f32) (p : Fin 128) (e : Fin 1024) (n : Fin 2048)
    (hH : ∀ n' d, Hs (ix2 n' d) = tokOf x0 x1 x2 n' d) (hx : ∀ d, xt (ix3 0 p d) = x0 (ix3 0 n d)) :
    netH LK LK' (fun n' d => Hs (ix2 n' d))
        (fun k => k0_pay25 x1 (ix2 0 k)) (fun k => k0_pay26 x2 (ix2 0 k)) (fun k => k0_pay23 x3 (ix2 0 k)) (fun k => k0_pay24 x4 (ix2 0 k))
        (fun e' d => k0_pay30 x7 (ix2 e' d)) (fun k => k0_pay29 x8 (ix2 0 k)) (fun k => k0_pay27 x5 (ix2 0 k)) (fun k => k0_pay28 x6 (ix2 0 k))
        (fun d => xt (ix3 0 p d)) n e
      = rowOut (tokOf x0 x1 x2) x0 x1 x2 x3 x4 x5 x6 x7 x8 n e := by
  have eH : (fun n' d => Hs (ix2 n' d)) = tokOf x0 x1 x2 := funext fun n' => funext fun d => hH n' d
  have ex : (fun d => xt (ix3 0 p d)) = fun d => x0 (ix3 0 n d) := funext hx
  rw [eH, ex, pay25_row, pay26_row, pay23_row, pay24_row, pay29_row, pay27_row, pay28_row, pay30_eq]
  rfl

/-- The lower slab's payload at its row `p`, from the loads: the row computation at the row `n` its loads name. -/
theorem lo_apply (x0 : Vec Ideal S1x2048x1024 .f32) (x1 x2 : Vec Ideal S1024 .f32) (x3 x4 : Vec Ideal S2048 .f32)
    (x5 x6 : Vec Ideal S1024 .f32) (x7 : Vec Ideal S1024x1024 .bf16) (x8 : Vec Ideal S1024 .f32)
    (v5 v7 : Vec Ideal S2048 .f32) (v9 v11 v13 v15 v17 : Vec Ideal S1024 .f32) (v20 : Vec Ideal S1024x1024 .bf16)
    (h5 : v5 = x3) (h7 : v7 = x4) (h9 : v9 = x1) (h11 : v11 = x2) (h13 : v13 = x5) (h15 : v15 = x6) (h17 : v17 = x8) (h20 : v20 = x7)
    (Hs : Vec Ideal S2048x1024 .bf16) (q : Vec Ideal S128x1024 .bf16) (xt : Vec Ideal S1x128x1024 .f32)
    (p : Fin 128) (e : Fin 1024) (n : Fin 2048)
    (hH : ∀ n' d, Hs (ix2 n' d) = tokOf x0 x1 x2 n' d) (hq : ∀ d, q (ix2 p d) = Hs (ix2 n d))
    (hx : ∀ d, xt (ix3 0 p d) = x0 (ix3 0 n d)) :
    k0_pay37 (k0_pay27 v13) (k0_pay28 v15) (k0_pay29 v17) (k0_pay30 v20)
        (k0_pay34 (k0_pay23 v5) (k0_pay24 v7) (k0_pay25 v9) (k0_pay26 v11) Hs (k0_pay31 Hs q) (k0_pay32 Hs q) (k0_pay33 Hs q) xt)
        (k0_pay35 (k0_pay23 v5) (k0_pay24 v7) (k0_pay25 v9) (k0_pay26 v11) Hs (k0_pay31 Hs q) (k0_pay32 Hs q) (k0_pay33 Hs q) xt)
        (k0_pay36 (k0_pay23 v5) (k0_pay24 v7) (k0_pay25 v9) (k0_pay26 v11) Hs (k0_pay31 Hs q) (k0_pay32 Hs q) (k0_pay33 Hs q) xt) (ix3 0 p e)
      = rowOut (tokOf x0 x1 x2) x0 x1 x2 x3 x4 x5 x6 x7 x8 n e := by
  subst h5 h7 h9 h11 h13 h15 h17 h20
  exact (chain0_apply (k0_pay23 v5) (k0_pay24 v7) (k0_pay25 v9) (k0_pay26 v11) (k0_pay27 v13) (k0_pay28 v15) (k0_pay29 v17) Hs (k0_pay30 v20) q xt p e n hq).trans
    (netH_rows x0 v9 v11 v5 v7 v13 v15 v20 v17 Hs xt p e n hH hx)

/-- The upper slab's payload at its row `p`, from the loads: the row computation at the row `n` its loads name. -/
theorem hi_apply (x0 : Vec Ideal S1x2048x1024 .f32) (x1 x2 : Vec Ideal S1024 .f32) (x3 x4 : Vec Ideal S2048 .f32)
    (x5 x6 : Vec Ideal S1024 .f32) (x7 : Vec Ideal S1024x1024 .bf16) (x8 : Vec Ideal S1024 .f32)
    (v5 v7 : Vec Ideal S2048 .f32) (v9 v11 v13 v15 v17 : Vec Ideal S1024 .f32) (v20 : Vec Ideal S1024x1024 .bf16)
    (h5 : v5 = x3) (h7 : v7 = x4) (h9 : v9 = x1) (h11 : v11 = x2) (h13 : v13 = x5) (h15 : v15 = x6) (h17 : v17 = x8) (h20 : v20 = x7)
    (Hs : Vec Ideal S2048x1024 .bf16) (q : Vec Ideal S128x1024 .bf16) (xt : Vec Ideal S1x128x1024 .f32)
    (p : Fin 128) (e : Fin 1024) (n : Fin 2048)
    (hH : ∀ n' d, Hs (ix2 n' d) = tokOf x0 x1 x2 n' d) (hq : ∀ d, q (ix2 p d) = Hs (ix2 n d))
    (hx : ∀ d, xt (ix3 0 p d) = x0 (ix3 0 n d)) :
    k0_pay1 (k0_pay27 v13) (k0_pay28 v15)
        (k0_pay39 (k0_pay26 v11) (k0_pay38 (k0_pay23 v5) (k0_pay24 v7) (k0_pay25 v9) Hs q) xt)
        (k0_pay42 (k0_pay26 v11) (k0_pay27 v13) (k0_pay28 v15) (k0_pay29 v17) (k0_pay30 v20) (k0_pay38 (k0_pay23 v5) (k0_pay24 v7) (k0_pay25 v9) Hs q) xt)
        (k0_pay43 (k0_pay26 v11) (k0_pay27 v13) (k0_pay28 v15) (k0_pay29 v17) (k0_pay30 v20) (k0_pay38 (k0_pay23 v5) (k0_pay24 v7) (k0_pay25 v9) Hs q) xt) (ix3 0 p e)
      = rowOut (tokOf x0 x1 x2) x0 x1 x2 x3 x4 x5 x6 x7 x8 n e := by
  subst h5 h7 h9 h11 h13 h15 h17 h20
  exact (chain1_apply (k0_pay23 v5) (k0_pay24 v7) (k0_pay25 v9) (k0_pay26 v11) (k0_pay27 v13) (k0_pay28 v15) (k0_pay29 v17) Hs (k0_pay30 v20) q xt p e n hq).trans
    (netH_rows x0 v9 v11 v5 v7 v13 v15 v20 v17 Hs xt p e n hH hx)

/-! ## The tile's row -/

/-- What the eight chunk stores of the point leave in the scratch, read at a row and a feature: the normalised token row. -/
theorem scratch_canon (c : Dev nD) (i : grid0.Coords) (arg2 : Memref sig .tc .vmem S1x2048x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S2048 .f32) (harg5 : arg5.IsWhole) (arg6 : Memref sig .tc .vmem S2048 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1024x1024 .bf16) (harg9 : arg9.IsWhole) (arg10 : Memref sig .tc .vmem S1024 .f32) (harg10 : arg10.IsWhole) (arg11 : Memref sig .tc .vmem S1x256x1024 .f32) (harg11 : arg11.IsWhole) (arg12 : Memref sig .tc .vmem S2048x1024 .bf16) (harg12 : arg12.IsWhole) (hc0 : cond0_0 i)
    (x0 : Vec Ideal S1x2048x1024 .f32) (x1 : Vec Ideal S1024 .f32) (x2 : Vec Ideal S1024 .f32) (x3 : Vec Ideal S2048 .f32) (x4 : Vec Ideal S2048 .f32) (x5 : Vec Ideal S1024 .f32) (x6 : Vec Ideal S1024 .f32) (x7 : Vec Ideal S1024x1024 .bf16) (x8 : Vec Ideal S1024 .f32) (n : Fin 2048) (d : Fin 1024) :
    View.canon (kernelRun0_A (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 x8).2.1 (ix2 n d) = tokOf x0 x1 x2 n d :=
  (View.read_writes_junk_apply_eq_canon VS0_0 (ix2 n d) _).symm.trans
    (sout0_A_0_apply c i arg2 harg2 arg3 harg3 arg4 harg4 arg5 harg5 arg6 harg6 arg7 harg7 arg8 harg8 arg9 harg9 arg10 harg10 arg11 harg11 arg12 harg12 hc0 x0 x1 x2 x3 x4 x5 x6 x7 x8 n d)

/-- The rows the two slabs name: `256·j + r` is `(256·j + 128·s) + (r - 128·s)`. -/
theorem rowOf_lo (i : grid0.Coords) (r : Fin 256) : (rowOf i r).val = (256 * (i 1).val + 128 * 0) + r.val := by
  show (i 1).val * 256 + r.val = _; omega
theorem rowOf_hi (i : grid0.Coords) (r : Fin 256) (hr : 128 ≤ r.val) : (rowOf i r).val = (256 * (i 1).val + 128 * 1) + (r.val - 128) := by
  show (i 1).val * 256 + r.val = _; omega

end OutA

open OutA

/-- At a batch's first point the output tile's row `r` is the row computation against the token rows just written. -/
theorem out0_A_9_apply (c : Dev nD) (i : grid0.Coords) (arg2 : Memref sig .tc .vmem S1x2048x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S2048 .f32) (harg5 : arg5.IsWhole) (arg6 : Memref sig .tc .vmem S2048 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1024x1024 .bf16) (harg9 : arg9.IsWhole) (arg10 : Memref sig .tc .vmem S1024 .f32) (harg10 : arg10.IsWhole) (arg11 : Memref sig .tc .vmem S1x256x1024 .f32) (harg11 : arg11.IsWhole) (arg12 : Memref sig .tc .vmem S2048x1024 .bf16) (harg12 : arg12.IsWhole) (hc0 : cond0_0 i)
    (x0 : Vec Ideal S1x2048x1024 .f32) (x1 : Vec Ideal S1024 .f32) (x2 : Vec Ideal S1024 .f32) (x3 : Vec Ideal S2048 .f32) (x4 : Vec Ideal S2048 .f32) (x5 : Vec Ideal S1024 .f32) (x6 : Vec Ideal S1024 .f32) (x7 : Vec Ideal S1024x1024 .bf16) (x8 : Vec Ideal S1024 .f32) (r : Fin 256) (e : Fin 1024) :
    out0_A_9 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 x8 (ix3 0 r e)
      = rowOut (tokOf x0 x1 x2) x0 x1 x2 x3 x4 x5 x6 x7 x8 (rowOf i r) e := by
  have hS := scratch_canon c i arg2 harg2 arg3 harg3 arg4 harg4 arg5 harg5 arg6 harg6 arg7 harg7 arg8 harg8 arg9 harg9 arg10 harg10 arg11 harg11 arg12 harg12 hc0 x0 x1 x2 x3 x4 x5 x6 x7 x8
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 hc0 x0 x1 x2 x3 x4 x5 x6 x7 x8)]
  revert hS
  unfold kernelRun0_A
  dsimp only
  sl_unfold_run_names
  intro hS
  by_cases hr : r.val < 128
  · refine (canon_slab_lo _ _ _ _ _ r e hr).trans ?_
    refine lo_apply x0 x1 x2 x3 x4 x5 x6 x7 x8 _ _ _ _ _ _ _ _
      (load2048 arg5 harg5 x3) (load2048 arg6 harg6 x4) (load1024 arg3 harg3 x1) (load1024 arg4 harg4 x2)
      (load1024 arg7 harg7 x5) (load1024 arg8 harg8 x6) (load1024 arg10 harg10 x8) (loadW arg9 harg9 x7)
      _ _ _ ⟨r.val, hr⟩ e (rowOf i r) ?_ ?_ ?_
    · exact fun n' d => (scratch_whole_apply _ _ _ n' d).trans (hS n' d)
    · exact fun d => (scratch_rows_apply _ _ _ (k0_off3_eq i ⟨0, by decide⟩) _ ⟨r.val, hr⟩ d (rowOf i r) (rowOf_lo i r)).trans
        (scratch_whole_apply _ _ _ (rowOf i r) d).symm
    · exact fun d => xrows_apply arg2 harg2 x0 _ (k0_off4_eq i ⟨0, by decide⟩) _ ⟨r.val, hr⟩ d (rowOf i r) (rowOf_lo i r)
  · have hr1 : 128 ≤ r.val := Nat.le_of_not_lt hr
    have hr2 : r.val - 128 < 128 := by have := r.isLt; omega
    refine (canon_slab_hi _ _ _ r e hr1 hr2).trans ?_
    refine hi_apply x0 x1 x2 x3 x4 x5 x6 x7 x8 _ _ _ _ _ _ _ _
      (load2048 arg5 harg5 x3) (load2048 arg6 harg6 x4) (load1024 arg3 harg3 x1) (load1024 arg4 harg4 x2)
      (load1024 arg7 harg7 x5) (load1024 arg8 harg8 x6) (load1024 arg10 harg10 x8) (loadW arg9 harg9 x7)
      _ _ _ ⟨r.val - 128, hr2⟩ e (rowOf i r) ?_ ?_ ?_
    · exact fun n' d => (scratch_whole_apply _ _ _ n' d).trans (hS n' d)
    · exact fun d => (scratch_rows_apply _ _ _ (k0_off3_eq i ⟨1, by decide⟩) _ ⟨r.val - 128, hr2⟩ d (rowOf i r) (rowOf_hi i r hr1)).trans
        (scratch_whole_apply _ _ _ (rowOf i r) d).symm
    · exact fun d => xrows_apply arg2 harg2 x0 _ (k0_off4_eq i ⟨1, by decide⟩) _ ⟨r.val - 128, hr2⟩ d (rowOf i r) (rowOf_hi i r hr1)

end Cert.KernelIdeal.Pieces

end
-- ==== Proof.KOutB.lean ====
/-
  At a later point of a batch each row of the output tile is the block's row computation against the token rows
  the scratch holds from the batch's first point.

  The tile is written as two slabs of 128 rows. Slab `s` takes its query rows from rows `256 · i₁ + 128 · s + …` of
  the scratch and its input rows from the same rows of the staged batch block; everything else it reads whole. So
  row `r` of the tile comes from the lower slab when `r < 128` and from the upper one otherwise, in both cases
  from row `256 · i₁ + r` of the scratch and of the batch block, and the slab's chain of operations at that row is
  the row computation.
-/
import proofs.«402831_j2413771620561_3_alg».proof.Proof.KDefs
import proofs.«402831_j2413771620561_3_alg».proof.Proof.KChainLib
import proofs.«402831_j2413771620561_3_alg».proof.Proof.KChain
import proofs.«402831_j2413771620561_3_alg».proof.Proof.KChain1
import proofs.«402831_j2413771620561_3_alg».proof.Proof.KOutA
import Idealize.ShloMosaic.Lib.Pipeline.Value

noncomputable section

namespace Cert.KernelIdeal.Pieces

open Cert.KernelIdeal Cert.KernelIdeal.Gen Idealize.ShloMosaic Idealize.ShloMosaic.TcCoe Idealize.ShloMosaic.ValueIdx
open Cert.Spec

namespace OutB

/-- A load of 128 rows of a matrix of 2048 from row `o` on reads, at its row `r`, row `o + r` of the matrix. -/
theorem ld_rows2 (X : Vec Ideal S2048x1024 .bf16) (off : Fin 2 → Nat)
    (inb : ∀ a, off a + S128x1024.size a ≤ S2048x1024.size a) (o : Nat) (hoff : off = ![o, 0])
    (r : Fin 128) (d : Fin 1024) (n : Fin 2048) (hn : n.val = o + r.val) :
    View.ld (Val := Elt Ideal) X (Rect.unit off S128x1024.size inb) (ix2 r d) = X (ix2 n d) := by
  subst hoff
  refine congrArg X (funext fun a => Fin.ext ?_)
  match a with
  | ⟨0, _⟩ => show o + 1 * r.val = n.val; omega
  | ⟨1, _⟩ => show 0 + 1 * d.val = d.val; omega

/-- The same for 128 rows of a block with a leading unit axis. -/
theorem ld_rows3 (X : Vec Ideal S1x2048x1024 .f32) (off : Fin 3 → Nat)
    (inb : ∀ a, off a + S1x128x1024.size a ≤ S1x2048x1024.size a) (o : Nat) (hoff : off = ![0, o, 0])
    (r : Fin 128) (d : Fin 1024) (n : Fin 2048) (hn : n.val = o + r.val) :
    View.ld (Val := Elt Ideal) X (Rect.unit off S1x128x1024.size inb) (ix3 0 r d) = X (ix3 0 n d) := by
  subst hoff
  refine congrArg X (funext fun a => Fin.ext ?_)
  match a with
  | ⟨0, _⟩ => show 0 + 1 * 0 = 0; rfl
  | ⟨1, _⟩ => show o + 1 * r.val = n.val; omega
  | ⟨2, _⟩ => show 0 + 1 * d.val = d.val; omega

/-- The row computation over the kernel's row layouts of the staged parameter blocks, against the matrix `Hs` and
    the input row `xr`, is the row computation from the staged blocks when `xr` is row `n` of the batch block. -/
theorem netH_rows (Hs : Vec Ideal S2048x1024 .bf16) (x0 : Vec Ideal S1x2048x1024 .f32) (x1 x2 : Vec Ideal S1024 .f32)
    (x3 x4 : Vec Ideal S2048 .f32) (x5 x6 : Vec Ideal S1024 .f32) (x7 : Vec Ideal S1024x1024 .bf16) (x8 : Vec Ideal S1024 .f32)
    (xr : Fin 1024 → EReal) (n : Fin 2048) (e : Fin 1024) (hx : xr = fun d => x0 (ix3 0 n d)) :
    netH LK LK' (fun n' d => Hs (ix2 n' d)) (fun k => k0_pay25 x1 (ix2 0 k)) (fun k => k0_pay26 x2 (ix2 0 k))
        (fun k => k0_pay23 x3 (ix2 0 k)) (fun k => k0_pay24 x4 (ix2 0 k)) (fun e' d => k0_pay30 x7 (ix2 e' d))
        (fun k => k0_pay29 x8 (ix2 0 k)) (fun k => k0_pay27 x5 (ix2 0 k)) (fun k => k0_pay28 x6 (ix2 0 k)) xr n e
      = rowOut (fun n d => Hs (ix2 n d)) x0 x1 x2 x3 x4 x5 x6 x7 x8 n e := by
  subst hx
  unfold rowOut
  rw [Chain.pay25_row, Chain.pay26_row, Chain.pay23_row, Chain.pay24_row, Chain.pay30_eq, Chain.pay29_row,
    Chain.pay27_row, Chain.pay28_row]

end OutB

open OutB

/-- At a later point of a batch the output tile's row `r` is the row computation against the scratch as the point
    before left it. -/
theorem out0_B_9_apply (c : Dev nD) (i : grid0.Coords) (arg2 : Memref sig .tc .vmem S1x2048x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S2048 .f32) (harg5 : arg5.IsWhole) (arg6 : Memref sig .tc .vmem S2048 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1024x1024 .bf16) (harg9 : arg9.IsWhole) (arg10 : Memref sig .tc .vmem S1024 .f32) (harg10 : arg10.IsWhole) (arg11 : Memref sig .tc .vmem S1x256x1024 .f32) (harg11 : arg11.IsWhole) (arg12 : Memref sig .tc .vmem S2048x1024 .bf16) (harg12 : arg12.IsWhole) (hc0 : ¬cond0_0 i)
    (x0 : Vec Ideal S1x2048x1024 .f32) (x1 : Vec Ideal S1024 .f32) (x2 : Vec Ideal S1024 .f32) (x3 : Vec Ideal S2048 .f32) (x4 : Vec Ideal S2048 .f32) (x5 : Vec Ideal S1024 .f32) (x6 : Vec Ideal S1024 .f32) (x7 : Vec Ideal S1024x1024 .bf16) (x8 : Vec Ideal S1024 .f32) (xs0 : Vec Ideal S2048x1024 .bf16) (r : Fin 256) (e : Fin 1024) :
    out0_B_9 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 x8 xs0 (ix3 0 r e)
      = rowOut (fun n d => xs0 (ix2 n d)) x0 x1 x2 x3 x4 x5 x6 x7 x8 (rowOf i r) e := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 hc0 x0 x1 x2 x3 x4 x5 x6 x7 x8 xs0)]
  unfold kernelRun0_B
  dsimp only
  sl_unfold_run_names
  simp only [View.readAt_eq_ld, harg2.read_unread, harg3.read_unread, harg4.read_unread, harg5.read_unread, harg6.read_unread, harg7.read_unread, harg8.read_unread, harg9.read_unread, harg10.read_unread, harg12.read_unread, View.ld_unit_zero (S := S1024) OutA.hz1, View.ld_unit_zero (S := S2048) OutA.hz1,
    View.ld_unit_zero (S := S2048x1024) OutA.hz2, View.ld_unit_zero (S := S1024x1024) OutA.hz2]
  by_cases hr : r.val < 128
  · refine (OutA.canon_slab_lo _ _ _ _ _ r e hr).trans ?_
    have hn : (rowOf i r).val = 256 * (i 1).val + 128 * (0 : Fin 2).val + (⟨r.val, hr⟩ : Fin 128).val := by
      show (i 1).val * 256 + r.val = 256 * (i 1).val + 128 * 0 + r.val; omega
    refine (chain0_apply (k0_pay23 x3) (k0_pay24 x4) (k0_pay25 x1) (k0_pay26 x2) (k0_pay27 x5) (k0_pay28 x6) (k0_pay29 x8)
      xs0 (k0_pay30 x7) _ _ (⟨r.val, hr⟩ : Fin 128) e (rowOf i r)
      (fun d => ld_rows2 xs0 _ _ _ (k0_off3_eq i 0) _ d (rowOf i r) hn)).trans ?_
    exact netH_rows xs0 x0 x1 x2 x3 x4 x5 x6 x7 x8 _ (rowOf i r) e
      (funext fun d => ld_rows3 x0 _ _ _ (k0_off4_eq i 0) (⟨r.val, hr⟩ : Fin 128) d (rowOf i r) hn)
  · have hr1 : 128 ≤ r.val := Nat.le_of_not_lt hr
    have hr' : r.val - 128 < 128 := by have := r.isLt; omega
    refine (OutA.canon_slab_hi _ _ _ r e hr1 hr').trans ?_
    have hn : (rowOf i r).val = 256 * (i 1).val + 128 * (1 : Fin 2).val + (⟨r.val - 128, hr'⟩ : Fin 128).val := by
      show (i 1).val * 256 + r.val = 256 * (i 1).val + 128 * 1 + (r.val - 128); omega
    refine (chain1_apply (k0_pay23 x3) (k0_pay24 x4) (k0_pay25 x1) (k0_pay26 x2) (k0_pay27 x5) (k0_pay28 x6) (k0_pay29 x8)
      xs0 (k0_pay30 x7) _ _ (⟨r.val - 128, hr'⟩ : Fin 128) e (rowOf i r)
      (fun d => ld_rows2 xs0 _ _ _ (k0_off3_eq i 1) _ d (rowOf i r) hn)).trans ?_
    exact netH_rows xs0 x0 x1 x2 x3 x4 x5 x6 x7 x8 _ (rowOf i r) e
      (funext fun d => ld_rows3 x0 _ _ _ (k0_off4_eq i 1) (⟨r.val - 128, hr'⟩ : Fin 128) d (rowOf i r) hn)

end Cert.KernelIdeal.Pieces

end
-- ==== Proof.KernelRun.Blocks.lean ====
/-
  What the staged blocks hold, read off the argument arrays, and which grid point's output block holds a given
  entry of the result.

  The grid has 8 × 8 points; point `t` works on batch `t / 8` and on the tile of 256 token rows `t % 8` of it.
  The input's block at `t` is the whole batch `t / 8` of `x`; the scales, shifts and the bias are staged whole, so
  their blocks are the arrays themselves; the weight's block is the array the host converted to the narrower
  float format, which over the extended reals is the weight itself. The output's block at `t` is rows
  `256 · (t % 8) … 256 · (t % 8) + 255` of batch `t / 8`, so entry `(p, n, ·)` lies in the block of point
  `8 · p + n / 256`.
-/
import proofs.«402831_j2413771620561_3_alg».proof.Proof.Gen.KernelIdeal.Value
import Idealize.ShloMosaic.Lib.Pipeline.Value
import Idealize.ShloMosaic.Lib.StableHlo.Run
import Idealize.ShloMosaic.Lib.ValueIdx

noncomputable section

namespace Cert.KernelIdeal.Run

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The index maps over the grid: the input's block index is the batch, every whole-array window's is zero, the
    output's is (batch, row tile, 0); and the second grid coordinate is the row tile. -/
theorem idx_facts : ∀ t : Fin cfg0.N,
    win0_0.index t (0 : Fin 3) = t.val / 8 ∧ win0_0.index t (1 : Fin 3) = 0 ∧ win0_0.index t (2 : Fin 3) = 0
    ∧ win0_1.index t (0 : Fin 1) = 0 ∧ win0_2.index t (0 : Fin 1) = 0 ∧ win0_3.index t (0 : Fin 1) = 0
    ∧ win0_4.index t (0 : Fin 1) = 0 ∧ win0_5.index t (0 : Fin 1) = 0 ∧ win0_6.index t (0 : Fin 1) = 0
    ∧ win0_7.index t (0 : Fin 2) = 0 ∧ win0_7.index t (1 : Fin 2) = 0 ∧ win0_8.index t (0 : Fin 1) = 0
    ∧ win0_9.index t (0 : Fin 3) = t.val / 8 ∧ win0_9.index t (1 : Fin 3) = t.val % 8 ∧ win0_9.index t (2 : Fin 3) = 0
    ∧ (grid0.coords t (1 : Fin 2)).val = t.val % 8 :=
  (by decide +kernel : ∀ t : Fin grid0.N, _)

theorem point_lt (t : Fin cfg0.N) : t.val < 64 := lt_of_lt_of_eq t.isLt (show cfg0.N = 64 from N_0)

/-- The batch of a point. -/
def batchOf (t : Fin cfg0.N) : Fin 8 := ⟨t.val / 8, by have h := point_lt t; omega⟩

/-- The row tile of a point. -/
def tileOf (t : Fin cfg0.N) : Fin 8 := ⟨t.val % 8, by omega⟩

/-- The input's block at `t` is batch `t / 8` of `x`. -/
theorem xblk_apply (c : Dev nD) (t : Fin cfg0.N) (n : Fin 2048) (d : Fin 1024) :
    (iblk m c 0 t : Vec Ideal S1x2048x1024 .f32) (ix3 0 n d)
      = m ((c : Thread nD τ).loc main_arg0) (ix3 (batchOf t) n d) := by
  obtain ⟨e0, e1, e2, -⟩ := idx_facts t
  show V m c main_arg0 (((cfg0.win 0).blk t).view.emb (ix3 0 n d)) = _
  rw [V_main_arg0]
  congr 1
  funext a; apply Fin.ext
  match a with
  | ⟨0, _⟩ => show win0_0.index t (0 : Fin 3) * 1 + 1 * 0 = t.val / 8; omega
  | ⟨1, _⟩ => show win0_0.index t (1 : Fin 3) * 2048 + 1 * n.val = n.val; omega
  | ⟨2, _⟩ => show win0_0.index t (2 : Fin 3) * 1024 + 1 * d.val = d.val; omega

/-- The token scale's block is the array. -/
theorem blk1_eq (c : Dev nD) (t : Fin cfg0.N) :
    (iblk m c 1 t : Vec Ideal S1024 .f32) = m ((c : Thread nD τ).loc main_arg1) := by
  obtain ⟨-, -, -, e, -⟩ := idx_facts t
  funext j
  show V m c main_arg1 (((cfg0.win 1).blk t).view.emb j) = _
  rw [V_main_arg1]
  congr 1
  funext a; apply Fin.ext
  match a with
  | ⟨0, _⟩ => show win0_1.index t (0 : Fin 1) * 1024 + 1 * (j 0).val = (j 0).val; omega

/-- The token shift's block is the array. -/
theorem blk2_eq (c : Dev nD) (t : Fin cfg0.N) :
    (iblk m c 2 t : Vec Ideal S1024 .f32) = m ((c : Thread nD τ).loc main_arg2) := by
  obtain ⟨-, -, -, -, e, -⟩ := idx_facts t
  funext j
  show V m c main_arg2 (((cfg0.win 2).blk t).view.emb j) = _
  rw [V_main_arg2]
  congr 1
  funext a; apply Fin.ext
  match a with
  | ⟨0, _⟩ => show win0_2.index t (0 : Fin 1) * 1024 + 1 * (j 0).val = (j 0).val; omega

/-- The score scale's block is the array. -/
theorem blk3_eq (c : Dev nD) (t : Fin cfg0.N) :
    (iblk m c 3 t : Vec Ideal S2048 .f32) = m ((c : Thread nD τ).loc main_arg3) := by
  obtain ⟨-, -, -, -, -, e, -⟩ := idx_facts t
  funext j
  show V m c main_arg3 (((cfg0.win 3).blk t).view.emb j) = _
  rw [V_main_arg3]
  congr 1
  funext a; apply Fin.ext
  match a with
  | ⟨0, _⟩ => show win0_3.index t (0 : Fin 1) * 2048 + 1 * (j 0).val = (j 0).val; omega

/-- The score shift's block is the array. -/
theorem blk4_eq (c : Dev nD) (t : Fin cfg0.N) :
    (iblk m c 4 t : Vec Ideal S2048 .f32) = m ((c : Thread nD τ).loc main_arg4) := by
  obtain ⟨-, -, -, -, -, -, e, -⟩ := idx_facts t
  funext j
  show V m c main_arg4 (((cfg0.win 4).blk t).view.emb j) = _
  rw [V_main_arg4]
  congr 1
  funext a; apply Fin.ext
  match a with
  | ⟨0, _⟩ => show win0_4.index t (0 : Fin 1) * 2048 + 1 * (j 0).val = (j 0).val; omega

/-- The second scale's block is the array. -/
theorem blk5_eq (c : Dev nD) (t : Fin cfg0.N) :
    (iblk m c 5 t : Vec Ideal S1024 .f32) = m ((c : Thread nD τ).loc main_arg7) := by
  obtain ⟨-, -, -, -, -, -, -, e, -⟩ := idx_facts t
  funext j
  show V m c main_arg7 (((cfg0.win 5).blk t).view.emb j) = _
  rw [V_main_arg7]
  congr 1
  funext a; apply Fin.ext
  match a with
  | ⟨0, _⟩ => show win0_5.index t (0 : Fin 1) * 1024 + 1 * (j 0).val = (j 0).val; omega

/-- The second shift's block is the array. -/
theorem blk6_eq (c : Dev nD) (t : Fin cfg0.N) :
    (iblk m c 6 t : Vec Ideal S1024 .f32) = m ((c : Thread nD τ).loc main_arg8) := by
  obtain ⟨-, -, -, -, -, -, -, -, e, -⟩ := idx_facts t
  funext j
  show V m c main_arg8 (((cfg0.win 6).blk t).view.emb j) = _
  rw [V_main_arg8]
  congr 1
  funext a; apply Fin.ext
  match a with
  | ⟨0, _⟩ => show win0_6.index t (0 : Fin 1) * 1024 + 1 * (j 0).val = (j 0).val; omega

/-- The array the host converted to the narrower format holds, over the extended reals, the weight itself. -/
theorem weight_conv (c : Dev nD) :
    (V m c main_v0 : S1024x1024.Idx → EReal) = m ((c : Thread nD τ).loc main_arg5) := by
  dsimp only [Gen.V, Gen.hostOps0]; after_results; rfl

/-- The weight's block is the weight. -/
theorem blk7_eq (c : Dev nD) (t : Fin cfg0.N) :
    (iblk m c 7 t : Vec Ideal S1024x1024 .bf16) = m ((c : Thread nD τ).loc main_arg5) := by
  obtain ⟨-, -, -, -, -, -, -, -, -, e0, e1, -⟩ := idx_facts t
  funext j
  show V m c main_v0 (((cfg0.win 7).blk t).view.emb j) = _
  refine (congrFun (weight_conv m c) _).trans ?_
  congr 1
  funext a; apply Fin.ext
  match a with
  | ⟨0, _⟩ => show win0_7.index t (0 : Fin 2) * 1024 + 1 * (j 0).val = (j 0).val; omega
  | ⟨1, _⟩ => show win0_7.index t (1 : Fin 2) * 1024 + 1 * (j 1).val = (j 1).val; omega

/-- The bias's block is the array. -/
theorem blk8_eq (c : Dev nD) (t : Fin cfg0.N) :
    (iblk m c 8 t : Vec Ideal S1024 .f32) = m ((c : Thread nD τ).loc main_arg6) := by
  obtain ⟨-, -, -, -, -, -, -, -, -, -, -, e, -⟩ := idx_facts t
  funext j
  show V m c main_arg6 (((cfg0.win 8).blk t).view.emb j) = _
  rw [V_main_arg6]
  congr 1
  funext a; apply Fin.ext
  match a with
  | ⟨0, _⟩ => show win0_8.index t (0 : Fin 1) * 1024 + 1 * (j 0).val = (j 0).val; omega

/-- The row of its batch that offset `r` of point `t`'s tile names: `256 · (t % 8) + r`. -/
def rowAt (t : Fin cfg0.N) (r : Fin 256) : Fin 2048 :=
  ⟨t.val % 8 * 256 + r.val, by have h' := r.isLt; omega⟩

/-- Where entry `(0, r, e)` of the output's block at `t` sits in the result: batch `t / 8`, row `256 · (t % 8) + r`. -/
theorem oblk_emb (t : Fin cfg0.N) (r : Fin 256) (e : Fin 1024) :
    ((cfg0.win 9).blk t).view.emb (ix3 0 r e) = ix3 (batchOf t) (rowAt t r) e := by
  obtain ⟨-, -, -, -, -, -, -, -, -, -, -, -, e0, e1, e2, -⟩ := idx_facts t
  funext a; apply Fin.ext
  match a with
  | ⟨0, _⟩ => show win0_9.index t (0 : Fin 3) * 1 + 1 * 0 = t.val / 8; omega
  | ⟨1, _⟩ => show win0_9.index t (1 : Fin 3) * 256 + 1 * r.val = t.val % 8 * 256 + r.val; omega
  | ⟨2, _⟩ => show win0_9.index t (2 : Fin 3) * 1024 + 1 * e.val = e.val; omega

/-- A tile `f` is the output's block at `t` of an array `g` as soon as its entry `(0, r, e)` is `g`'s entry at batch
    `t / 8`, row `256 · (t % 8) + r`, feature `e`. -/
theorem blk_ext (t : Fin cfg0.N) (f : S1x256x1024.Idx → EReal) (g : S8x2048x1024.Idx → EReal)
    (h : ∀ (r : Fin 256) (e : Fin 1024), f (ix3 0 r e) = g (ix3 (batchOf t) (rowAt t r) e)) :
    (cfg0.win 9).cut (grid0.coords t) f = ((cfg0.win 9).blk t).view.read (Elt Ideal) g := by
  funext j
  obtain ⟨a, r, e, rfl⟩ : ∃ (a : Fin 1) (r : Fin 256) (e : Fin 1024), j = ix3 a r e := ⟨j 0, j 1, j 2, eq_ix3 j⟩
  obtain rfl : a = 0 := Subsingleton.elim _ _
  show f (ix3 0 r e) = g (((cfg0.win 9).blk t).view.emb (ix3 0 r e))
  rw [oblk_emb t r e]
  exact h r e

/-- An entry of the result is in point `t`'s output block iff each coordinate is in the block's range. -/
theorem mem_oblk (t : Fin cfg0.N) (i : S8x2048x1024.Idx) :
    i ∈ ((cfg0.win 9).blk t).view.set ↔ ∀ a : Fin 3, win0_9.index t a * S1x256x1024.size a ≤ (i a).val
      ∧ (i a).val < win0_9.index t a * S1x256x1024.size a + S1x256x1024.size a := by
  show i ∈ ((View.whole main_v1).slice (win0_9.rect t)).set ↔ _
  rw [View.set_slice_whole, Rect.mem_set_unit]
  exact Iff.rfl

/-- Every entry `(p, n, ·)` of the result lies in the output block of point `8 · p + n / 256`, which is written back. -/
theorem covered (i : S8x2048x1024.Idx) :
    ∃ t : Fin cfg0.N, (cfg0.win 9).flush t = true ∧ i ∈ ((cfg0.win 9).blk t).view.set := by
  have h0 : (i 0).val < 8 := (i 0).isLt
  have h1 : (i 1).val < 2048 := (i 1).isLt
  have h2 : (i 2).val < 1024 := (i 2).isLt
  obtain ⟨t, ht⟩ : ∃ t : Fin cfg0.N, t.val = 8 * (i 0).val + (i 1).val / 256 :=
    ⟨⟨8 * (i 0).val + (i 1).val / 256, lt_of_lt_of_eq (by omega : _ < 64) (show cfg0.N = 64 from N_0).symm⟩, rfl⟩
  refine ⟨t, flush0_9 t, ?_⟩
  rw [mem_oblk]
  obtain ⟨-, -, -, -, -, -, -, -, -, -, -, -, e0, e1, e2, -⟩ := idx_facts t
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 256 ≤ (i 1).val ∧ (i 1).val < win0_9.index t (1 : Fin 3) * 256 + 256; omega
  | ⟨2, _⟩ => show win0_9.index t (2 : Fin 3) * 1024 ≤ (i 2).val ∧ (i 2).val < win0_9.index t (2 : Fin 3) * 1024 + 1024; omega

end Cert.KernelIdeal.Run

end
-- ==== Proof.KernelRun.lean ====
/-
  From what each grid point leaves to the run of the whole kernel.

  The grid's 64 points run in order; point `t` belongs to batch `t / 8` and writes rows
  `256 · (t % 8) … 256 · (t % 8) + 255` of that batch. A batch's first point (`t % 8 = 0`) fills the token scratch
  with the normalised token rows of its batch, and the seven points after it leave the scratch alone; so after
  every point the scratch holds the normalised token rows of the point's own batch (induction on the point: the
  batch does not change between a point that is not a first one and the point before it). Each point's output
  tile is then the block's row computation against exactly those rows, which is the block's result at the tile's
  rows; the 64 tiles cover the result array, so the array the run leaves is the block's result, entry by entry.
-/
import proofs.«402831_j2413771620561_3_alg».proof.Proof.KScratch
import proofs.«402831_j2413771620561_3_alg».proof.Proof.KOutA
import proofs.«402831_j2413771620561_3_alg».proof.Proof.KOutB
import proofs.«402831_j2413771620561_3_alg».proof.Proof.Gen.KernelIdeal.Value
import proofs.«402831_j2413771620561_3_alg».proof.Proof.KernelRun.Blocks
import Idealize.ShloMosaic.Lib.Pipeline.Value

noncomputable section

namespace Cert.KernelIdeal.Run

open Cert.KernelIdeal Cert.KernelIdeal.Gen Cert.KernelIdeal.Pieces Idealize.ShloMosaic Idealize.ShloMosaic.TcCoe Idealize.SL.Sem
open Idealize.ShloMosaic.ValueIdx Cert.Spec
open Idealize.ShloMosaic.Pipeline (Dat)

variable (m : (ℓ : Loc nD τ sig) → Buf (Elt Ideal) ℓ) (ρ : Dev nD → PrngReg)

/-! ## One point's vocabulary, read off the arrays -/

/-- The normalised token rows of a staged batch block are those of batch `p` of `X`, when the block is that batch
    and the staged scale and shift are the arrays. -/
theorem tokOf_of (x0 : Vec Ideal S1x2048x1024 .f32) (x1 x2 : Vec Ideal S1024 .f32)
    (X : S8x2048x1024.Idx → EReal) (G1 B1 : S1024.Idx → EReal) (p : Fin 8)
    (h0 : ∀ n d, x0 (ix3 0 n d) = X (ix3 p n d)) (h1 : x1 = G1) (h2 : x2 = B1) :
    tokOf x0 x1 x2 = tok LK (arr3 X) (arr1 G1) (arr1 B1) p := by
  subst h1 h2
  funext n d
  show LK (fun d' => x0 (ix3 0 n d')) (arr1 x1) (arr1 x2) d = LK (fun d' => X (ix3 p n d')) (arr1 x1) (arr1 x2) d
  rw [show (fun d' => x0 (ix3 0 n d')) = fun d' => X (ix3 p n d') from funext (h0 n)]

/-- The row computation from the staged blocks, against the normalised token rows of batch `p`, is the block's
    result at batch `p`, when the input block is that batch and every other staged block is its array. -/
theorem rowOut_of (H : Fin 2048 → Fin 1024 → EReal) (x0 : Vec Ideal S1x2048x1024 .f32) (x1 x2 : Vec Ideal S1024 .f32)
    (x3 x4 : Vec Ideal S2048 .f32) (x5 x6 : Vec Ideal S1024 .f32) (x7 : Vec Ideal S1024x1024 .bf16) (x8 : Vec Ideal S1024 .f32)
    (X : S8x2048x1024.Idx → EReal) (G1 B1 : S1024.Idx → EReal) (G2 B2 : S2048.Idx → EReal)
    (W : S1024x1024.Idx → EReal) (WB G3 B3 : S1024.Idx → EReal) (p : Fin 8) (n : Fin 2048) (e : Fin 1024)
    (hH : H = tok LK (arr3 X) (arr1 G1) (arr1 B1) p)
    (h0 : ∀ n d, x0 (ix3 0 n d) = X (ix3 p n d)) (h1 : x1 = G1) (h2 : x2 = B1) (h3 : x3 = G2) (h4 : x4 = B2)
    (h5 : x5 = G3) (h6 : x6 = B3) (h7 : x7 = W) (h8 : x8 = WB) :
    rowOut H x0 x1 x2 x3 x4 x5 x6 x7 x8 n e = Cert.Spec.out LK LK' X G1 B1 G2 B2 W WB G3 B3 (ix3 p n e) := by
  subst hH h1 h2 h3 h4 h5 h6 h7 h8
  show netH LK LK' (tok LK (arr3 X) (arr1 x1) (arr1 x2) p) (arr1 x1) (arr1 x2) (arr1 x3) (arr1 x4) (arr2 x7) (arr1 x8)
      (arr1 x5) (arr1 x6) (fun d => x0 (ix3 0 n d)) n e
    = net LK LK' (arr3 X) (arr1 x1) (arr1 x2) (arr1 x3) (arr1 x4) (arr2 x7) (arr1 x8) (arr1 x5) (arr1 x6) p n e
  rw [show (fun d => x0 (ix3 0 n d)) = arr3 X p n from funext (h0 n)]
  exact (net_eq_netH LK LK' (arr3 X) (arr1 x1) (arr1 x2) (arr1 x3) (arr1 x4) (arr2 x7) (arr1 x8) (arr1 x5) (arr1 x6) p n e).symm

/-- The row a tile offset names, by the grid coordinates, is the row by the point's number. -/
theorem rowOf_eq (t : Fin cfg0.N) (r : Fin 256) : rowOf (grid0.coords t) r = rowAt t r := by
  obtain ⟨-, -, -, -, -, -, -, -, -, -, -, -, -, -, -, e⟩ := idx_facts t
  apply Fin.ext
  show (grid0.coords t (1 : Fin 2)).val * 256 + r.val = t.val % 8 * 256 + r.val
  rw [e]

/-! ## The token scratch after each point -/

/-- The normalised token rows of batch `p`. -/
abbrev tokens (c : Dev nD) (p : Fin 8) : Fin 2048 → Fin 1024 → EReal :=
  tok LK (arr3 (m ((c : Thread nD τ).loc main_arg0))) (arr1 (m ((c : Thread nD τ).loc main_arg1)))
    (arr1 (m ((c : Thread nD τ).loc main_arg2))) p

/-- The normalised token rows of point `t`'s staged batch block are those of batch `t / 8`. -/
theorem tokOf_blk (c : Dev nD) (t : Fin cfg0.N) :
    tokOf (iblk m c 0 t) (iblk m c 1 t) (iblk m c 2 t) = tokens m c (batchOf t) :=
  tokOf_of (iblk m c 0 t) (iblk m c 1 t) (iblk m c 2 t) (m ((c : Thread nD τ).loc main_arg0))
    (m ((c : Thread nD τ).loc main_arg1)) (m ((c : Thread nD τ).loc main_arg2)) (batchOf t)
    (xblk_apply m c t) (blk1_eq m c t) (blk2_eq m c t)

/-- A batch's first point leaves the scratch at the normalised token rows of its batch. -/
theorem scratch_first (c : Dev nD) (t : Fin cfg0.N) (h0 : t.val % 8 = 0) (r : Fin 2048) (d : Fin 1024) :
    (outsAt0 m c t.val t.isLt).2 (ix2 r d) = tokens m c (batchOf t) r d := by
  rw [outsAt0_A m c t h0]; dsimp only
  refine (sout0_A_0_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) r d).trans ?_
  exact congrFun (congrFun (tokOf_blk m c t) r) d

/-- After every point the scratch holds the normalised token rows of the point's batch: a first point writes them,
    a later point keeps what the point before left, and that point is of the same batch. -/
theorem scratch_eq (c : Dev nD) (n : ℕ) : ∀ (h : n < cfg0.N) (r : Fin 2048) (d : Fin 1024),
    (outsAt0 m c n h).2 (ix2 r d) = tokens m c (batchOf ⟨n, h⟩) r d := by
  induction n with
  | zero => intro h r d; exact scratch_first m c ⟨0, h⟩ rfl r d
  | succ n ih =>
    intro h r d
    by_cases h0 : (n + 1) % 8 = 0
    · exact scratch_first m c ⟨n + 1, h⟩ h0 r d
    · rw [outsAt0_B m c ⟨n + 1, h⟩ h0]; dsimp only
      show (outsAt0 m c n (Nat.lt_of_succ_lt h)).2 (ix2 r d) = _
      rw [ih (Nat.lt_of_succ_lt h) r d]
      have hb : batchOf ⟨n, Nat.lt_of_succ_lt h⟩ = batchOf ⟨n + 1, h⟩ := by
        apply Fin.ext; show n / 8 = (n + 1) / 8; omega
      rw [hb]

/-! ## What each point writes back, and the array the run leaves -/

/-- The block's result on the argument arrays. -/
abbrev result (c : Dev nD) : S8x2048x1024.Idx → EReal :=
  Cert.Spec.out LK LK' (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- Point `t`'s row computation against the token rows of its batch is the block's result at the tile's rows. -/
theorem rowOut_blk (c : Dev nD) (t : Fin cfg0.N) (H : Fin 2048 → Fin 1024 → EReal) (hH : H = tokens m c (batchOf t))
    (r : Fin 256) (e : Fin 1024) :
    rowOut H (iblk m c 0 t) (iblk m c 1 t) (iblk m c 2 t) (iblk m c 3 t) (iblk m c 4 t) (iblk m c 5 t) (iblk m c 6 t)
        (iblk m c 7 t) (iblk m c 8 t) (rowOf (grid0.coords t) r) e
      = result m c (ix3 (batchOf t) (rowAt t r) e) := by
  rw [rowOf_eq t r]
  exact rowOut_of H (iblk m c 0 t) (iblk m c 1 t) (iblk m c 2 t) (iblk m c 3 t) (iblk m c 4 t) (iblk m c 5 t) (iblk m c 6 t)
    (iblk m c 7 t) (iblk m c 8 t) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (batchOf t) (rowAt t r) e hH
    (xblk_apply m c t) (blk1_eq m c t) (blk2_eq m c t) (blk3_eq m c t) (blk4_eq m c t) (blk5_eq m c t) (blk6_eq m c t)
    (blk7_eq m c t) (blk8_eq m c t)

/-- What point `t` writes back is its block of the block's result. -/
theorem flushed_eq (c : Dev nD) (t : Fin cfg0.N) :
    (dats m 0 c).flushed 9 t = ((cfg0.win 9).blk t).view.read (Elt Ideal) (result m c) := by
  by_cases h0 : t.val % 8 = 0
  · rw [Value.flushed9_A m c t h0]
    refine blk_ext t _ (result m c) (fun r e => ?_)
    refine (out0_A_9_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) r e).trans ?_
    exact rowOut_blk m c t _ (tokOf_blk m c t) r e
  · rw [Value.flushed9_B m c t h0]
    refine blk_ext t _ (result m c) (fun r e => ?_)
    refine (out0_B_9_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2 r e).trans ?_
    refine rowOut_blk m c t _ ?_ r e
    funext n d
    refine (scratch_eq m c (t.val - 1) (Nat.lt_of_le_of_lt (Nat.sub_le _ _) t.isLt) n d).trans ?_
    have hb : batchOf ⟨t.val - 1, Nat.lt_of_le_of_lt (Nat.sub_le _ _) t.isLt⟩ = batchOf t := by
      apply Fin.ext; show (t.val - 1) / 8 = t.val / 8; omega
    rw [hb]

/-- The array the run leaves is the block's result: every entry is in some point's block. -/
theorem final (c : Dev nD) : (dats m 0 c).arrAt 9 cfg0.N = result m c :=
  (dats m 0 c).arrAt_eq_of_cover 9 (result m c) (fun t _ => flushed_eq m c t) covered

/-- The run of the kernel: it ends with the result array at the block's result on the argument arrays, and the
    argument arrays as they were. -/
theorem run : θ_run defs (onTc (τ := τ) (main (F := Ideal))) ⟨m, fun _ => 0, ρ⟩ fun r => ∀ c : Dev nD,
      r.2.mem ((c : Thread nD τ).loc main_v1)
          = Cert.Spec.out Pieces.LK Pieces.LK' (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Run

end
-- ==== Proof.RefRun.lean ====
/-
  The reference's run. The reference has no kernel: @main is a straight line of host operations, and each
  variance it takes is an outlined function whose body runs on the call's own buffers, itself calling the
  outlined select. Laid out at the call sites, @main is 228 operations: 113 of its own and five calls of
  twenty operations and the select's three. Every weakly fair execution terminates with each buffer at the
  fold of the operations over the launch contents; the fold at the result buffer is the term `Term.refOut`
  of the nine arguments, and the arguments are left as they were.

  The line is cut where the mathematics cuts it: a row normalisation is the seven operations of the mean,
  the variance call, and the fourteen operations that centre, scale and shift; between the normalisations
  stand the two batched products, the two residual sums and the affine map. The value of each piece is
  read in terms of the stage functions of RefTerm, never unfolded past one stage.
-/
import proofs.«402831_j2413771620561_3_alg».proof.Proof.RefTerm
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- One call of @_var on the rows `x` and the correction `n`, over the call's buffers `φ`: the row mean (sum, its
    broadcast, the width 1024, the quotient), the squared deviations, the count `1024 − n`, the sum of squares over the
    count, the test that the count is positive, and the select's three (the fill value converted, broadcast, the choice). -/
def varOps (x : TRef sig ⟨S8x2048x1024, .f32⟩) (n : TRef sig ⟨S_, .i32⟩) (φ : fn_var.Bufs) : List (HloOp τ sig (Elt F)) :=
  [ TRef.nullary φ.cst (constant S_ .f32 0x00000000#32),
    TRef.binary x φ.cst φ.v0 (fun u v => Host.reduceAdd u v reducesTo_S8x2048x1024_S8x2048_d2 h_S_),
    TRef.unary φ.v0 φ.v1 (broadcastInDim S8x2048x1 ![0, 1] bcast_S8x2048_S8x2048x1_0_1),
    TRef.nullary φ.cst_0 (constant S_ .f32 0x44800000#32),
    TRef.unary φ.cst_0 φ.v2 (broadcastInDim S8x2048x1 ![] bcast_S_S8x2048x1),
    TRef.binary φ.v1 φ.v2 φ.v3 Host.divf,
    TRef.unary φ.v3 φ.v4 (broadcastInDim S8x2048x1024 ![0, 1, 2] bcast_S8x2048x1_S8x2048x1024_0_1_2),
    TRef.binary x φ.v4 φ.v5 subf,
    TRef.binary φ.v5 φ.v5 φ.v6 mulf,
    TRef.unary n φ.v7 (sitofp .f32),
    TRef.nullary φ.cst_1 (constant S_ .f32 0x44800000#32),
    TRef.binary φ.cst_1 φ.v7 φ.v8 subf,
    TRef.nullary φ.cst_2 (constant S_ .f32 0x00000000#32),
    TRef.binary φ.v6 φ.cst_2 φ.v9 (fun u v => Host.reduceAdd u v reducesTo_S8x2048x1024_S8x2048_d2 h_S_),
    TRef.unary φ.v9 φ.v10 (broadcastInDim S8x2048x1 ![0, 1] bcast_S8x2048_S8x2048x1_0_1),
    TRef.unary φ.v8 φ.v11 (broadcastInDim S8x2048x1 ![] bcast_S_S8x2048x1),
    TRef.binary φ.v10 φ.v11 φ.v12 Host.divf,
    TRef.nullary φ.cst_3 (constant S_ .f32 0x00000000#32),
    TRef.binary φ.v8 φ.cst_3 φ.v13 (cmpf .ogt),
    TRef.nullary φ.cst_4 (constant S_ .f32 0x7FC00000#32),
    TRef.unary φ.cst_4 φ.call0.v0 id,
    TRef.unary φ.call0.v0 φ.call0.v1 (broadcastInDim S8x2048x1 ![] bcast_S_S8x2048x1),
    TRef.ternary φ.v13 φ.v12 φ.call0.v1 φ.call0.v2 (fun p a b => select (broadcastInDim S8x2048x1 ![] bcast_S_S8x2048x1 p) a b) ]

/-- One call of @_var_0 on the rows `x` and the correction `n`, over the call's buffers `φ`: the row mean (sum, its
    broadcast, the width 2048, the quotient), the squared deviations, the count `2048 − n`, the sum of squares over the
    count, the test that the count is positive, and the select's three (the fill value converted, broadcast, the choice). -/
def var0Ops (x : TRef sig ⟨S8x2048x2048, .f32⟩) (n : TRef sig ⟨S_, .i32⟩) (φ : fn_var_0.Bufs) : List (HloOp τ sig (Elt F)) :=
  [ TRef.nullary φ.cst (constant S_ .f32 0x00000000#32),
    TRef.binary x φ.cst φ.v0 (fun u v => Host.reduceAdd u v reducesTo_S8x2048x2048_S8x2048_d2 h_S_),
    TRef.unary φ.v0 φ.v1 (broadcastInDim S8x2048x1 ![0, 1] bcast_S8x2048_S8x2048x1_0_1),
    TRef.nullary φ.cst_0 (constant S_ .f32 0x45000000#32),
    TRef.unary φ.cst_0 φ.v2 (broadcastInDim S8x2048x1 ![] bcast_S_S8x2048x1),
    TRef.binary φ.v1 φ.v2 φ.v3 Host.divf,
    TRef.unary φ.v3 φ.v4 (broadcastInDim S8x2048x2048 ![0, 1, 2] bcast_S8x2048x1_S8x2048x2048_0_1_2),
    TRef.binary x φ.v4 φ.v5 subf,
    TRef.binary φ.v5 φ.v5 φ.v6 mulf,
    TRef.unary n φ.v7 (sitofp .f32),
    TRef.nullary φ.cst_1 (constant S_ .f32 0x45000000#32),
    TRef.binary φ.cst_1 φ.v7 φ.v8 subf,
    TRef.nullary φ.cst_2 (constant S_ .f32 0x00000000#32),
    TRef.binary φ.v6 φ.cst_2 φ.v9 (fun u v => Host.reduceAdd u v reducesTo_S8x2048x2048_S8x2048_d2 h_S_),
    TRef.unary φ.v9 φ.v10 (broadcastInDim S8x2048x1 ![0, 1] bcast_S8x2048_S8x2048x1_0_1),
    TRef.unary φ.v8 φ.v11 (broadcastInDim S8x2048x1 ![] bcast_S_S8x2048x1),
    TRef.binary φ.v10 φ.v11 φ.v12 Host.divf,
    TRef.nullary φ.cst_3 (constant S_ .f32 0x00000000#32),
    TRef.binary φ.v8 φ.cst_3 φ.v13 (cmpf .ogt),
    TRef.nullary φ.cst_4 (constant S_ .f32 0x7FC00000#32),
    TRef.unary φ.cst_4 φ.call0.v0 id,
    TRef.unary φ.call0.v0 φ.call0.v1 (broadcastInDim S8x2048x1 ![] bcast_S_S8x2048x1),
    TRef.ternary φ.v13 φ.v12 φ.call0.v1 φ.call0.v2 (fun p a b => select (broadcastInDim S8x2048x1 ![] bcast_S_S8x2048x1 p) a b) ]

/-- One call of @_var_1 on the rows `x` and the correction `n`, over the call's buffers `φ`: the row mean (sum, its
    broadcast, the width 1024, the quotient), the squared deviations, the count `1024 − n`, the sum of squares over the
    count, the test that the count is positive, and the select's three (the fill value converted, broadcast, the choice). -/
def var1Ops (x : TRef sig ⟨S8x2048x1024, .f32⟩) (n : TRef sig ⟨S_, .i32⟩) (φ : fn_var_1.Bufs) : List (HloOp τ sig (Elt F)) :=
  [ TRef.nullary φ.cst (constant S_ .f32 0x00000000#32),
    TRef.binary x φ.cst φ.v0 (fun u v => Host.reduceAdd u v reducesTo_S8x2048x1024_S8x2048_d2 h_S_),
    TRef.unary φ.v0 φ.v1 (broadcastInDim S8x2048x1 ![0, 1] bcast_S8x2048_S8x2048x1_0_1),
    TRef.nullary φ.cst_0 (constant S_ .f32 0x44800000#32),
    TRef.unary φ.cst_0 φ.v2 (broadcastInDim S8x2048x1 ![] bcast_S_S8x2048x1),
    TRef.binary φ.v1 φ.v2 φ.v3 Host.divf,
    TRef.unary φ.v3 φ.v4 (broadcastInDim S8x2048x1024 ![0, 1, 2] bcast_S8x2048x1_S8x2048x1024_0_1_2),
    TRef.binary x φ.v4 φ.v5 subf,
    TRef.binary φ.v5 φ.v5 φ.v6 mulf,
    TRef.unary n φ.v7 (sitofp .f32),
    TRef.nullary φ.cst_1 (constant S_ .f32 0x44800000#32),
    TRef.binary φ.cst_1 φ.v7 φ.v8 subf,
    TRef.nullary φ.cst_2 (constant S_ .f32 0x00000000#32),
    TRef.binary φ.v6 φ.cst_2 φ.v9 (fun u v => Host.reduceAdd u v reducesTo_S8x2048x1024_S8x2048_d2 h_S_),
    TRef.unary φ.v9 φ.v10 (broadcastInDim S8x2048x1 ![0, 1] bcast_S8x2048_S8x2048x1_0_1),
    TRef.unary φ.v8 φ.v11 (broadcastInDim S8x2048x1 ![] bcast_S_S8x2048x1),
    TRef.binary φ.v10 φ.v11 φ.v12 Host.divf,
    TRef.nullary φ.cst_3 (constant S_ .f32 0x00000000#32),
    TRef.binary φ.v8 φ.cst_3 φ.v13 (cmpf .ogt),
    TRef.nullary φ.cst_4 (constant S_ .f32 0x7FC00000#32),
    TRef.unary φ.cst_4 φ.call0.v0 id,
    TRef.unary φ.call0.v0 φ.call0.v1 (broadcastInDim S8x2048x1 ![] bcast_S_S8x2048x1),
    TRef.ternary φ.v13 φ.v12 φ.call0.v1 φ.call0.v2 (fun p a b => select (broadcastInDim S8x2048x1 ![] bcast_S_S8x2048x1 p) a b) ]

/-- The mean of the input rows, and the correction 0. -/
def pre1 : List (HloOp τ sig (Elt F)) :=
  [ nullary main_cst (constant S_ .f32 0x00000000#32),
    binary main_arg0 main_cst main_v0 ((fun x v => Host.reduceAdd x v reducesTo_S8x2048x1024_S8x2048_d2 h_S_) : (⟨S8x2048x1024, .f32⟩ : BufTy).Contents (Elt F) → (⟨S_, .f32⟩ : BufTy).Contents (Elt F) → (⟨S8x2048, .f32⟩ : BufTy).Contents (Elt F)),
    unary main_v0 main_v1 (broadcastInDim S8x2048x1 ![0, 1] bcast_S8x2048_S8x2048x1_0_1 : (⟨S8x2048, .f32⟩ : BufTy).Contents (Elt F) → (⟨S8x2048x1, .f32⟩ : BufTy).Contents (Elt F)),
    nullary main_cst_0 (constant S_ .f32 0x44800000#32),
    unary main_cst_0 main_v2 (broadcastInDim S8x2048x1 ![] bcast_S_S8x2048x1 : (⟨S_, .f32⟩ : BufTy).Contents (Elt F) → (⟨S8x2048x1, .f32⟩ : BufTy).Contents (Elt F)),
    binary main_v1 main_v2 main_v3 (Host.divf : (⟨S8x2048x1, .f32⟩ : BufTy).Contents (Elt F) → (⟨S8x2048x1, .f32⟩ : BufTy).Contents (Elt F) → (⟨S8x2048x1, .f32⟩ : BufTy).Contents (Elt F)),
    nullary main_c (constantI S_ 32 0#32) ]

/-- The input rows centred, scaled by the inverse root of variance plus ε, by the token scale, shifted: the normalised token rows. -/
def post1 : List (HloOp τ sig (Elt F)) :=
  [ unary main_v3 main_v5 (broadcastInDim S8x2048x1024 ![0, 1, 2] bcast_S8x2048x1_S8x2048x1024_0_1_2 : (⟨S8x2048x1, .f32⟩ : BufTy).Contents (Elt F) → (⟨S8x2048x1024, .f32⟩ : BufTy).Contents (Elt F)),
    binary main_arg0 main_v5 main_v6 (subf : (⟨S8x2048x1024, .f32⟩ : BufTy).Contents (Elt F) → (⟨S8x2048x1024, .f32⟩ : BufTy).Contents (Elt F) → (⟨S8x2048x1024, .f32⟩ : BufTy).Contents (Elt F)),
    nullary main_cst_1 (constant S_ .f32 0x3727C5AC#32),
    unary main_cst_1 main_v7 (broadcastInDim S8x2048x1 ![] bcast_S_S8x2048x1 : (⟨S_, .f32⟩ : BufTy).Contents (Elt F) → (⟨S8x2048x1, .f32⟩ : BufTy).Contents (Elt F)),
    binary main_v4 main_v7 main_v8 (addf : (⟨S8x2048x1, .f32⟩ : BufTy).Contents (Elt F) → (⟨S8x2048x1, .f32⟩ : BufTy).Contents (Elt F) → (⟨S8x2048x1, .f32⟩ : BufTy).Contents (Elt F)),
    unary main_v8 main_v9 (Host.rsqrt : (⟨S8x2048x1, .f32⟩ : BufTy).Contents (Elt F) → (⟨S8x2048x1, .f32⟩ : BufTy).Contents (Elt F)),
    unary main_v9 main_v10 (broadcastInDim S8x2048x1024 ![0, 1, 2] bcast_S8x2048x1_S8x2048x1024_0_1_2 : (⟨S8x2048x1, .f32⟩ : BufTy).Contents (Elt F) → (⟨S8x2048x1024, .f32⟩ : BufTy).Contents (Elt F)),
    binary main_v6 main_v10 main_v11 (mulf : (⟨S8x2048x1024, .f32⟩ : BufTy).Contents (Elt F) → (⟨S8x2048x1024, .f32⟩ : BufTy).Contents (Elt F) → (⟨S8x2048x1024, .f32⟩ : BufTy).Contents (Elt F)),
    unary main_arg1 main_v12 (broadcastInDim S1x1x1024 ![2] bcast_S1024_S1x1x1024_2 : (⟨S1024, .f32⟩ : BufTy).Contents (Elt F) → (⟨S1x1x1024, .f32⟩ : BufTy).Contents (Elt F)),
    unary main_v12 main_v13 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    binary main_v11 main_v13 main_v14 (mulf : (⟨S8x2048x1024, .f32⟩ : BufTy).Contents (Elt F) → (⟨S8x2048x1024, .f32⟩ : BufTy).Contents (Elt F) → (⟨S8x2048x1024, .f32⟩ : BufTy).Contents (Elt F)),
    unary main_arg2 main_v15 (broadcastInDim S1x1x1024 ![2] bcast_S1024_S1x1x1024_2 : (⟨S1024, .f32⟩ : BufTy).Contents (Elt F) → (⟨S1x1x1024, .f32⟩ : BufTy).Contents (Elt F)),
    unary main_v15 main_v16 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    binary main_v14 main_v16 main_v17 (addf : (⟨S8x2048x1024, .f32⟩ : BufTy).Contents (Elt F) → (⟨S8x2048x1024, .f32⟩ : BufTy).Contents (Elt F) → (⟨S8x2048x1024, .f32⟩ : BufTy).Contents (Elt F)) ]

/-- The scores: each token row against every token row of its batch. -/
def dot1 : List (HloOp τ sig (Elt F)) :=
  [ binary main_v17 main_v17 main_v18 ((fun l r => Host.dotGeneral dot_S8x2048x1024_S8x2048x1024_S8x2048x2048_2_2_1_1_0_0 none l r) : (⟨S8x2048x1024, .f32⟩ : BufTy).Contents (Elt F) → (⟨S8x2048x1024, .f32⟩ : BufTy).Contents (Elt F) → (⟨S8x2048x2048, .f32⟩ : BufTy).Contents (Elt F)) ]

/-- The mean of the score rows, and the correction 0. -/
def pre2 : List (HloOp τ sig (Elt F)) :=
  [ nullary main_cst_2 (constant S_ .f32 0x00000000#32),
    binary main_v18 main_cst_2 main_v19 ((fun x v => Host.reduceAdd x v reducesTo_S8x2048x2048_S8x2048_d2 h_S_) : (⟨S8x2048x2048, .f32⟩ : BufTy).Contents (Elt F) → (⟨S_, .f32⟩ : BufTy).Contents (Elt F) → (⟨S8x2048, .f32⟩ : BufTy).Contents (Elt F)),
    unary main_v19 main_v20 (broadcastInDim S8x2048x1 ![0, 1] bcast_S8x2048_S8x2048x1_0_1 : (⟨S8x2048, .f32⟩ : BufTy).Contents (Elt F) → (⟨S8x2048x1, .f32⟩ : BufTy).Contents (Elt F)),
    nullary main_cst_3 (constant S_ .f32 0x45000000#32),
    unary main_cst_3 main_v21 (broadcastInDim S8x2048x1 ![] bcast_S_S8x2048x1 : (⟨S_, .f32⟩ : BufTy).Contents (Elt F) → (⟨S8x2048x1, .f32⟩ : BufTy).Contents (Elt F)),
    binary main_v20 main_v21 main_v22 (Host.divf : (⟨S8x2048x1, .f32⟩ : BufTy).Contents (Elt F) → (⟨S8x2048x1, .f32⟩ : BufTy).Contents (Elt F) → (⟨S8x2048x1, .f32⟩ : BufTy).Contents (Elt F)),
    nullary main_c_4 (constantI S_ 32 0#32) ]

/-- The score rows normalised, with the score scale and shift. -/
def post2 : List (HloOp τ sig (Elt F)) :=
  [ unary main_v22 main_v24 (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)),
    binary main_v18 main_v24 main_v25 (subf : (⟨S8x2048x2048, .f32⟩ : BufTy).Contents (Elt F) → (⟨S8x2048x2048, .f32⟩ : BufTy).Contents (Elt F) → (⟨S8x2048x2048, .f32⟩ : BufTy).Contents (Elt F)),
    nullary main_cst_5 (constant S_ .f32 0x3727C5AC#32),
    unary main_cst_5 main_v26 (broadcastInDim S8x2048x1 ![] bcast_S_S8x2048x1 : (⟨S_, .f32⟩ : BufTy).Contents (Elt F) → (⟨S8x2048x1, .f32⟩ : BufTy).Contents (Elt F)),
    binary main_v23 main_v26 main_v27 (addf : (⟨S8x2048x1, .f32⟩ : BufTy).Contents (Elt F) → (⟨S8x2048x1, .f32⟩ : BufTy).Contents (Elt F) → (⟨S8x2048x1, .f32⟩ : BufTy).Contents (Elt F)),
    unary main_v27 main_v28 (Host.rsqrt : (⟨S8x2048x1, .f32⟩ : BufTy).Contents (Elt F) → (⟨S8x2048x1, .f32⟩ : BufTy).Contents (Elt F)),
    unary main_v28 main_v29 (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)),
    binary main_v25 main_v29 main_v30 (mulf : (⟨S8x2048x2048, .f32⟩ : BufTy).Contents (Elt F) → (⟨S8x2048x2048, .f32⟩ : BufTy).Contents (Elt F) → (⟨S8x2048x2048, .f32⟩ : BufTy).Contents (Elt F)),
    unary main_arg3 main_v31 (broadcastInDim S1x1x2048 ![2] bcast_S2048_S1x1x2048_2 : (⟨S2048, .f32⟩ : BufTy).Contents (Elt F) → (⟨S1x1x2048, .f32⟩ : BufTy).Contents (Elt F)),
    unary main_v31 main_v32 (broadcastInDim S8x2048x2048 ![0, 1, 2] bcast_S1x1x2048_S8x2048x2048_0_1_2 : (⟨S1x1x2048, .f32⟩ : BufTy).Contents (Elt F) → (⟨S8x2048x2048, .f32⟩ : BufTy).Contents (Elt F)),
    binary main_v30 main_v32 main_v33 (mulf : (⟨S8x2048x2048, .f32⟩ : BufTy).Contents (Elt F) → (⟨S8x2048x2048, .f32⟩ : BufTy).Contents (Elt F) → (⟨S8x2048x2048, .f32⟩ : BufTy).Contents (Elt F)),
    unary main_arg4 main_v34 (broadcastInDim S1x1x2048 ![2] bcast_S2048_S1x1x2048_2 : (⟨S2048, .f32⟩ : BufTy).Contents (Elt F) → (⟨S1x1x2048, .f32⟩ : BufTy).Contents (Elt F)),
    unary main_v34 main_v35 (broadcastInDim S8x2048x2048 ![0, 1, 2] bcast_S1x1x2048_S8x2048x2048_0_1_2 : (⟨S1x1x2048, .f32⟩ : BufTy).Contents (Elt F) → (⟨S8x2048x2048, .f32⟩ : BufTy).Contents (Elt F)),
    binary main_v33 main_v35 main_v36 (addf : (⟨S8x2048x2048, .f32⟩ : BufTy).Contents (Elt F) → (⟨S8x2048x2048, .f32⟩ : BufTy).Contents (Elt F) → (⟨S8x2048x2048, .f32⟩ : BufTy).Contents (Elt F)) ]

/-- The token rows mixed by the normalised scores. -/
def dot2 : List (HloOp τ sig (Elt F)) :=
  [ binary main_v36 main_v17 main_v37 ((fun l r => Host.dotGeneral dot_S8x2048x2048_S8x2048x1024_S8x2048x1024_2_1_1_2_0_0 none l r) : (⟨S8x2048x2048, .f32⟩ : BufTy).Contents (Elt F) → (⟨S8x2048x1024, .f32⟩ : BufTy).Contents (Elt F) → (⟨S8x2048x1024, .f32⟩ : BufTy).Contents (Elt F)) ]

/-- The mean of the mixed rows, and the correction 0. -/
def pre3 : List (HloOp τ sig (Elt F)) :=
  [ nullary main_cst_6 (constant S_ .f32 0x00000000#32),
    binary main_v37 main_cst_6 main_v38 ((fun x v => Host.reduceAdd x v reducesTo_S8x2048x1024_S8x2048_d2 h_S_) : (⟨S8x2048x1024, .f32⟩ : BufTy).Contents (Elt F) → (⟨S_, .f32⟩ : BufTy).Contents (Elt F) → (⟨S8x2048, .f32⟩ : BufTy).Contents (Elt F)),
    unary main_v38 main_v39 (broadcastInDim S8x2048x1 ![0, 1] bcast_S8x2048_S8x2048x1_0_1 : (⟨S8x2048, .f32⟩ : BufTy).Contents (Elt F) → (⟨S8x2048x1, .f32⟩ : BufTy).Contents (Elt F)),
    nullary main_cst_7 (constant S_ .f32 0x44800000#32),
    unary main_cst_7 main_v40 (broadcastInDim S8x2048x1 ![] bcast_S_S8x2048x1 : (⟨S_, .f32⟩ : BufTy).Contents (Elt F) → (⟨S8x2048x1, .f32⟩ : BufTy).Contents (Elt F)),
    binary main_v39 main_v40 main_v41 (Host.divf : (⟨S8x2048x1, .f32⟩ : BufTy).Contents (Elt F) → (⟨S8x2048x1, .f32⟩ : BufTy).Contents (Elt F) → (⟨S8x2048x1, .f32⟩ : BufTy).Contents (Elt F)),
    nullary main_c_8 (constantI S_ 32 0#32) ]

/-- The mixed rows centred, and the inverse root of their variance plus ε. -/
def post3a : List (HloOp τ sig (Elt F)) :=
  [ unary main_v41 main_v43 (broadcastInDim S8x2048x1024 ![0, 1, 2] bcast_S8x2048x1_S8x2048x1024_0_1_2 : (⟨S8x2048x1, .f32⟩ : BufTy).Contents (Elt F) → (⟨S8x2048x1024, .f32⟩ : BufTy).Contents (Elt F)),
    binary main_v37 main_v43 main_v44 (subf : (⟨S8x2048x1024, .f32⟩ : BufTy).Contents (Elt F) → (⟨S8x2048x1024, .f32⟩ : BufTy).Contents (Elt F) → (⟨S8x2048x1024, .f32⟩ : BufTy).Contents (Elt F)),
    nullary main_cst_9 (constant S_ .f32 0x3727C5AC#32),
    unary main_cst_9 main_v45 (broadcastInDim S8x2048x1 ![] bcast_S_S8x2048x1 : (⟨S_, .f32⟩ : BufTy).Contents (Elt F) → (⟨S8x2048x1, .f32⟩ : BufTy).Contents (Elt F)),
    binary main_v42 main_v45 main_v46 (addf : (⟨S8x2048x1, .f32⟩ : BufTy).Contents (Elt F) → (⟨S8x2048x1, .f32⟩ : BufTy).Contents (Elt F) → (⟨S8x2048x1, .f32⟩ : BufTy).Contents (Elt F)),
    unary main_v46 main_v47 (Host.rsqrt : (⟨S8x2048x1, .f32⟩ : BufTy).Contents (Elt F) → (⟨S8x2048x1, .f32⟩ : BufTy).Contents (Elt F)) ]

/-- The mixed rows scaled by it and by the token scale, shifted. -/
def post3b : List (HloOp τ sig (Elt F)) :=
  [ unary main_v47 main_v48 (broadcastInDim S8x2048x1024 ![0, 1, 2] bcast_S8x2048x1_S8x2048x1024_0_1_2 : (⟨S8x2048x1, .f32⟩ : BufTy).Contents (Elt F) → (⟨S8x2048x1024, .f32⟩ : BufTy).Contents (Elt F)),
    binary main_v44 main_v48 main_v49 (mulf : (⟨S8x2048x1024, .f32⟩ : BufTy).Contents (Elt F) → (⟨S8x2048x1024, .f32⟩ : BufTy).Contents (Elt F) → (⟨S8x2048x1024, .f32⟩ : BufTy).Contents (Elt F)),
    unary main_arg1 main_v50 (broadcastInDim S1x1x1024 ![2] bcast_S1024_S1x1x1024_2 : (⟨S1024, .f32⟩ : BufTy).Contents (Elt F) → (⟨S1x1x1024, .f32⟩ : BufTy).Contents (Elt F)),
    unary main_v50 main_v51 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    binary main_v49 main_v51 main_v52 (mulf : (⟨S8x2048x1024, .f32⟩ : BufTy).Contents (Elt F) → (⟨S8x2048x1024, .f32⟩ : BufTy).Contents (Elt F) → (⟨S8x2048x1024, .f32⟩ : BufTy).Contents (Elt F)),
    unary main_arg2 main_v53 (broadcastInDim S1x1x1024 ![2] bcast_S1024_S1x1x1024_2 : (⟨S1024, .f32⟩ : BufTy).Contents (Elt F) → (⟨S1x1x1024, .f32⟩ : BufTy).Contents (Elt F)),
    unary main_v53 main_v54 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    binary main_v52 main_v54 main_v55 (addf : (⟨S8x2048x1024, .f32⟩ : BufTy).Contents (Elt F) → (⟨S8x2048x1024, .f32⟩ : BufTy).Contents (Elt F) → (⟨S8x2048x1024, .f32⟩ : BufTy).Contents (Elt F)) ]

/-- The first residual sum. -/
def res1 : List (HloOp τ sig (Elt F)) :=
  [ binary main_v55 main_arg0 main_v56 (addf : (⟨S8x2048x1024, .f32⟩ : BufTy).Contents (Elt F) → (⟨S8x2048x1024, .f32⟩ : BufTy).Contents (Elt F) → (⟨S8x2048x1024, .f32⟩ : BufTy).Contents (Elt F)) ]

/-- The mean of the first residual's rows, and the correction 0. -/
def pre4 : List (HloOp τ sig (Elt F)) :=
  [ nullary main_cst_10 (constant S_ .f32 0x00000000#32),
    binary main_v56 main_cst_10 main_v57 ((fun x v => Host.reduceAdd x v reducesTo_S8x2048x1024_S8x2048_d2 h_S_) : (⟨S8x2048x1024, .f32⟩ : BufTy).Contents (Elt F) → (⟨S_, .f32⟩ : BufTy).Contents (Elt F) → (⟨S8x2048, .f32⟩ : BufTy).Contents (Elt F)),
    unary main_v57 main_v58 (broadcastInDim S8x2048x1 ![0, 1] bcast_S8x2048_S8x2048x1_0_1 : (⟨S8x2048, .f32⟩ : BufTy).Contents (Elt F) → (⟨S8x2048x1, .f32⟩ : BufTy).Contents (Elt F)),
    nullary main_cst_11 (constant S_ .f32 0x44800000#32),
    unary main_cst_11 main_v59 (broadcastInDim S8x2048x1 ![] bcast_S_S8x2048x1 : (⟨S_, .f32⟩ : BufTy).Contents (Elt F) → (⟨S8x2048x1, .f32⟩ : BufTy).Contents (Elt F)),
    binary main_v58 main_v59 main_v60 (Host.divf : (⟨S8x2048x1, .f32⟩ : BufTy).Contents (Elt F) → (⟨S8x2048x1, .f32⟩ : BufTy).Contents (Elt F) → (⟨S8x2048x1, .f32⟩ : BufTy).Contents (Elt F)),
    nullary main_c_12 (constantI S_ 32 0#32) ]

/-- The first residual normalised, with the second scale and shift. -/
def post4 : List (HloOp τ sig (Elt F)) :=
  [ unary main_v60 main_v62 (broadcastInDim S8x2048x1024 ![0, 1, 2] bcast_S8x2048x1_S8x2048x1024_0_1_2 : (⟨S8x2048x1, .f32⟩ : BufTy).Contents (Elt F) → (⟨S8x2048x1024, .f32⟩ : BufTy).Contents (Elt F)),
    binary main_v56 main_v62 main_v63 (subf : (⟨S8x2048x1024, .f32⟩ : BufTy).Contents (Elt F) → (⟨S8x2048x1024, .f32⟩ : BufTy).Contents (Elt F) → (⟨S8x2048x1024, .f32⟩ : BufTy).Contents (Elt F)),
    nullary main_cst_13 (constant S_ .f32 0x3727C5AC#32),
    unary main_cst_13 main_v64 (broadcastInDim S8x2048x1 ![] bcast_S_S8x2048x1 : (⟨S_, .f32⟩ : BufTy).Contents (Elt F) → (⟨S8x2048x1, .f32⟩ : BufTy).Contents (Elt F)),
    binary main_v61 main_v64 main_v65 (addf : (⟨S8x2048x1, .f32⟩ : BufTy).Contents (Elt F) → (⟨S8x2048x1, .f32⟩ : BufTy).Contents (Elt F) → (⟨S8x2048x1, .f32⟩ : BufTy).Contents (Elt F)),
    unary main_v65 main_v66 (Host.rsqrt : (⟨S8x2048x1, .f32⟩ : BufTy).Contents (Elt F) → (⟨S8x2048x1, .f32⟩ : BufTy).Contents (Elt F)),
    unary main_v66 main_v67 (broadcastInDim S8x2048x1024 ![0, 1, 2] bcast_S8x2048x1_S8x2048x1024_0_1_2 : (⟨S8x2048x1, .f32⟩ : BufTy).Contents (Elt F) → (⟨S8x2048x1024, .f32⟩ : BufTy).Contents (Elt F)),
    binary main_v63 main_v67 main_v68 (mulf : (⟨S8x2048x1024, .f32⟩ : BufTy).Contents (Elt F) → (⟨S8x2048x1024, .f32⟩ : BufTy).Contents (Elt F) → (⟨S8x2048x1024, .f32⟩ : BufTy).Contents (Elt F)),
    unary main_arg7 main_v69 (broadcastInDim S1x1x1024 ![2] bcast_S1024_S1x1x1024_2 : (⟨S1024, .f32⟩ : BufTy).Contents (Elt F) → (⟨S1x1x1024, .f32⟩ : BufTy).Contents (Elt F)),
    unary main_v69 main_v70 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    binary main_v68 main_v70 main_v71 (mulf : (⟨S8x2048x1024, .f32⟩ : BufTy).Contents (Elt F) → (⟨S8x2048x1024, .f32⟩ : BufTy).Contents (Elt F) → (⟨S8x2048x1024, .f32⟩ : BufTy).Contents (Elt F)),
    unary main_arg8 main_v72 (broadcastInDim S1x1x1024 ![2] bcast_S1024_S1x1x1024_2 : (⟨S1024, .f32⟩ : BufTy).Contents (Elt F) → (⟨S1x1x1024, .f32⟩ : BufTy).Contents (Elt F)),
    unary main_v72 main_v73 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    binary main_v71 main_v73 main_v74 (addf : (⟨S8x2048x1024, .f32⟩ : BufTy).Contents (Elt F) → (⟨S8x2048x1024, .f32⟩ : BufTy).Contents (Elt F) → (⟨S8x2048x1024, .f32⟩ : BufTy).Contents (Elt F)) ]

/-- The affine map: the product with the weight, plus the bias. -/
def lin : List (HloOp τ sig (Elt F)) :=
  [ binary main_v74 main_arg5 main_v75 ((fun l r => Host.dotGeneral dot_S8x2048x1024_S1024x1024_S8x2048x1024_2_1_01_0_n_n none l r) : (⟨S8x2048x1024, .f32⟩ : BufTy).Contents (Elt F) → (⟨S1024x1024, .f32⟩ : BufTy).Contents (Elt F) → (⟨S8x2048x1024, .f32⟩ : BufTy).Contents (Elt F)),
    unary main_arg6 main_v76 (broadcastInDim S1x1x1024 ![2] bcast_S1024_S1x1x1024_2 : (⟨S1024, .f32⟩ : BufTy).Contents (Elt F) → (⟨S1x1x1024, .f32⟩ : BufTy).Contents (Elt F)),
    unary main_v76 main_v77 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    binary main_v75 main_v77 main_v78 (addf : (⟨S8x2048x1024, .f32⟩ : BufTy).Contents (Elt F) → (⟨S8x2048x1024, .f32⟩ : BufTy).Contents (Elt F) → (⟨S8x2048x1024, .f32⟩ : BufTy).Contents (Elt F)) ]

/-- The mean of the affine map's rows, and the correction 0. -/
def pre5 : List (HloOp τ sig (Elt F)) :=
  [ nullary main_cst_14 (constant S_ .f32 0x00000000#32),
    binary main_v78 main_cst_14 main_v79 ((fun x v => Host.reduceAdd x v reducesTo_S8x2048x1024_S8x2048_d2 h_S_) : (⟨S8x2048x1024, .f32⟩ : BufTy).Contents (Elt F) → (⟨S_, .f32⟩ : BufTy).Contents (Elt F) → (⟨S8x2048, .f32⟩ : BufTy).Contents (Elt F)),
    unary main_v79 main_v80 (broadcastInDim S8x2048x1 ![0, 1] bcast_S8x2048_S8x2048x1_0_1 : (⟨S8x2048, .f32⟩ : BufTy).Contents (Elt F) → (⟨S8x2048x1, .f32⟩ : BufTy).Contents (Elt F)),
    nullary main_cst_15 (constant S_ .f32 0x44800000#32),
    unary main_cst_15 main_v81 (broadcastInDim S8x2048x1 ![] bcast_S_S8x2048x1 : (⟨S_, .f32⟩ : BufTy).Contents (Elt F) → (⟨S8x2048x1, .f32⟩ : BufTy).Contents (Elt F)),
    binary main_v80 main_v81 main_v82 (Host.divf : (⟨S8x2048x1, .f32⟩ : BufTy).Contents (Elt F) → (⟨S8x2048x1, .f32⟩ : BufTy).Contents (Elt F) → (⟨S8x2048x1, .f32⟩ : BufTy).Contents (Elt F)),
    nullary main_c_16 (constantI S_ 32 0#32) ]

/-- The affine map's rows normalised, with the second scale and shift. -/
def post5 : List (HloOp τ sig (Elt F)) :=
  [ unary main_v82 main_v84 (broadcastInDim S8x2048x1024 ![0, 1, 2] bcast_S8x2048x1_S8x2048x1024_0_1_2 : (⟨S8x2048x1, .f32⟩ : BufTy).Contents (Elt F) → (⟨S8x2048x1024, .f32⟩ : BufTy).Contents (Elt F)),
    binary main_v78 main_v84 main_v85 (subf : (⟨S8x2048x1024, .f32⟩ : BufTy).Contents (Elt F) → (⟨S8x2048x1024, .f32⟩ : BufTy).Contents (Elt F) → (⟨S8x2048x1024, .f32⟩ : BufTy).Contents (Elt F)),
    nullary main_cst_17 (constant S_ .f32 0x3727C5AC#32),
    unary main_cst_17 main_v86 (broadcastInDim S8x2048x1 ![] bcast_S_S8x2048x1 : (⟨S_, .f32⟩ : BufTy).Contents (Elt F) → (⟨S8x2048x1, .f32⟩ : BufTy).Contents (Elt F)),
    binary main_v83 main_v86 main_v87 (addf : (⟨S8x2048x1, .f32⟩ : BufTy).Contents (Elt F) → (⟨S8x2048x1, .f32⟩ : BufTy).Contents (Elt F) → (⟨S8x2048x1, .f32⟩ : BufTy).Contents (Elt F)),
    unary main_v87 main_v88 (Host.rsqrt : (⟨S8x2048x1, .f32⟩ : BufTy).Contents (Elt F) → (⟨S8x2048x1, .f32⟩ : BufTy).Contents (Elt F)),
    unary main_v88 main_v89 (broadcastInDim S8x2048x1024 ![0, 1, 2] bcast_S8x2048x1_S8x2048x1024_0_1_2 : (⟨S8x2048x1, .f32⟩ : BufTy).Contents (Elt F) → (⟨S8x2048x1024, .f32⟩ : BufTy).Contents (Elt F)),
    binary main_v85 main_v89 main_v90 (mulf : (⟨S8x2048x1024, .f32⟩ : BufTy).Contents (Elt F) → (⟨S8x2048x1024, .f32⟩ : BufTy).Contents (Elt F) → (⟨S8x2048x1024, .f32⟩ : BufTy).Contents (Elt F)),
    unary main_arg7 main_v91 (broadcastInDim S1x1x1024 ![2] bcast_S1024_S1x1x1024_2 : (⟨S1024, .f32⟩ : BufTy).Contents (Elt F) → (⟨S1x1x1024, .f32⟩ : BufTy).Contents (Elt F)),
    unary main_v91 main_v92 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    binary main_v90 main_v92 main_v93 (mulf : (⟨S8x2048x1024, .f32⟩ : BufTy).Contents (Elt F) → (⟨S8x2048x1024, .f32⟩ : BufTy).Contents (Elt F) → (⟨S8x2048x1024, .f32⟩ : BufTy).Contents (Elt F)),
    unary main_arg8 main_v94 (broadcastInDim S1x1x1024 ![2] bcast_S1024_S1x1x1024_2 : (⟨S1024, .f32⟩ : BufTy).Contents (Elt F) → (⟨S1x1x1024, .f32⟩ : BufTy).Contents (Elt F)),
    unary main_v94 main_v95 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    binary main_v93 main_v95 main_v96 (addf : (⟨S8x2048x1024, .f32⟩ : BufTy).Contents (Elt F) → (⟨S8x2048x1024, .f32⟩ : BufTy).Contents (Elt F) → (⟨S8x2048x1024, .f32⟩ : BufTy).Contents (Elt F)) ]

/-- The second residual sum: the result. -/
def res2 : List (HloOp τ sig (Elt F)) :=
  [ binary main_v96 main_v56 main_v97 (addf : (⟨S8x2048x1024, .f32⟩ : BufTy).Contents (Elt F) → (⟨S8x2048x1024, .f32⟩ : BufTy).Contents (Elt F) → (⟨S8x2048x1024, .f32⟩ : BufTy).Contents (Elt F)) ]

/-- The five variance calls, at their call sites. -/
def call1 : List (HloOp τ sig (Elt F)) := varOps (.of main_arg0) (.of main_c) main_call0
def call2 : List (HloOp τ sig (Elt F)) := var0Ops (.of main_v18) (.of main_c_4) main_call1
def call3 : List (HloOp τ sig (Elt F)) := var1Ops (.of main_v37) (.of main_c_8) main_call2
def call4 : List (HloOp τ sig (Elt F)) := var1Ops (.of main_v56) (.of main_c_12) main_call3
def call5 : List (HloOp τ sig (Elt F)) := var1Ops (.of main_v78) (.of main_c_16) main_call4

/-- @main's first window, the calls laid out. -/
def opsA : List (HloOp τ sig (Elt F)) :=
  pre1 ++ call1 ++ post1 ++ dot1 ++ pre2 ++ call2 ++ post2 ++ dot2 ++ pre3 ++ call3 ++ post3a

/-- @main's second window, the calls laid out. -/
def opsB : List (HloOp τ sig (Elt F)) :=
  post3b ++ res1 ++ pre4 ++ call4 ++ post4 ++ lin ++ pre5 ++ call5 ++ post5 ++ res2

/-- @main's 228 operations, in order. -/
def ops : List (HloOp τ sig (Elt F)) := opsA ++ opsB

/-! ## @main is that line -/

theorem var_body (x : TRef sig ⟨S8x2048x1024, .f32⟩) (n : TRef sig ⟨S_, .i32⟩) (φ : fn_var.Bufs) :
    fn_var.body (F := F) x n φ = seq (varOps x n φ) := by
  simp only [fn_var.body, fn_where.body, varOps, seq, bind_assoc, pure_bind]

theorem var0_body (x : TRef sig ⟨S8x2048x2048, .f32⟩) (n : TRef sig ⟨S_, .i32⟩) (φ : fn_var_0.Bufs) :
    fn_var_0.body (F := F) x n φ = seq (var0Ops x n φ) := by
  simp only [fn_var_0.body, fn_where.body, var0Ops, seq, bind_assoc, pure_bind]

theorem var1_body (x : TRef sig ⟨S8x2048x1024, .f32⟩) (n : TRef sig ⟨S_, .i32⟩) (φ : fn_var_1.Bufs) :
    fn_var_1.body (F := F) x n φ = seq (var1Ops x n φ) := by
  simp only [fn_var_1.body, fn_where.body, var1Ops, seq, bind_assoc, pure_bind]

-- the binds are re-associated under the whole chain, one level per statement
set_option maxRecDepth 8192 in
/-- The first window is its line: the callees' bodies are their lines (above), and sequencing re-associates. -/
theorem partA (c : Dev nD) : main_part0 (F := F) c = seq opsA := by
  simp only [main_part0, var_body, var0_body, var1_body, opsA, call1, call2, call3, seq_append,
    pre1, post1, dot1, pre2, post2, dot2, pre3, post3a, seq, bind_assoc, pure_bind, bind_pure_unit]

set_option maxRecDepth 8192 in
/-- The second window is its line. -/
theorem partB (c : Dev nD) : main_part1 (F := F) c = seq opsB := by
  simp only [main_part1, var1_body, opsB, call4, call5, seq_append,
    post3b, res1, pre4, post4, lin, pre5, post5, res2, seq, bind_assoc, pure_bind, bind_pure_unit]

/-- @main runs its two windows in order: the line of both. -/
theorem main_eq (c : Dev nD) : main (F := F) c = seq ops := by
  rw [ops, seq_append, ← partA c, ← partB c]; rfl

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

/-- What an operation list must satisfy to run: it touches TensorCore references only, and every operation
    determines its results. -/
def Runs (l : List (HloOp τ sig (Elt F))) : Prop :=
  l.Forall fun op => op.bufs ⊆ tcRefs τ sig ∧ op.fresh = ∅

theorem Runs.append {l₁ l₂ : List (HloOp τ sig (Elt F))} (h₁ : Runs l₁) (h₂ : Runs l₂) : Runs (l₁ ++ l₂) :=
  List.forall_append.mpr ⟨h₁, h₂⟩

theorem varOps_runs (x : TRef sig ⟨S8x2048x1024, .f32⟩) (n : TRef sig ⟨S_, .i32⟩) (φ : fn_var.Bufs) : Runs (varOps (F := F) x n φ) :=
  ⟨⟨nullary_bufs_sub .., rfl⟩, ⟨binary_bufs_sub .., rfl⟩, ⟨unary_bufs_sub .., rfl⟩, ⟨nullary_bufs_sub .., rfl⟩, ⟨unary_bufs_sub .., rfl⟩, ⟨binary_bufs_sub .., rfl⟩, ⟨unary_bufs_sub .., rfl⟩, ⟨binary_bufs_sub .., rfl⟩, ⟨binary_bufs_sub .., rfl⟩, ⟨unary_bufs_sub .., rfl⟩, ⟨nullary_bufs_sub .., rfl⟩, ⟨binary_bufs_sub .., rfl⟩, ⟨nullary_bufs_sub .., rfl⟩, ⟨binary_bufs_sub .., rfl⟩, ⟨unary_bufs_sub .., rfl⟩, ⟨unary_bufs_sub .., rfl⟩, ⟨binary_bufs_sub .., rfl⟩, ⟨nullary_bufs_sub .., rfl⟩, ⟨binary_bufs_sub .., rfl⟩, ⟨nullary_bufs_sub .., rfl⟩, ⟨unary_bufs_sub .., rfl⟩, ⟨unary_bufs_sub .., rfl⟩, ⟨ternary_bufs_sub .., rfl⟩⟩
theorem var0Ops_runs (x : TRef sig ⟨S8x2048x2048, .f32⟩) (n : TRef sig ⟨S_, .i32⟩) (φ : fn_var_0.Bufs) : Runs (var0Ops (F := F) x n φ) :=
  ⟨⟨nullary_bufs_sub .., rfl⟩, ⟨binary_bufs_sub .., rfl⟩, ⟨unary_bufs_sub .., rfl⟩, ⟨nullary_bufs_sub .., rfl⟩, ⟨unary_bufs_sub .., rfl⟩, ⟨binary_bufs_sub .., rfl⟩, ⟨unary_bufs_sub .., rfl⟩, ⟨binary_bufs_sub .., rfl⟩, ⟨binary_bufs_sub .., rfl⟩, ⟨unary_bufs_sub .., rfl⟩, ⟨nullary_bufs_sub .., rfl⟩, ⟨binary_bufs_sub .., rfl⟩, ⟨nullary_bufs_sub .., rfl⟩, ⟨binary_bufs_sub .., rfl⟩, ⟨unary_bufs_sub .., rfl⟩, ⟨unary_bufs_sub .., rfl⟩, ⟨binary_bufs_sub .., rfl⟩, ⟨nullary_bufs_sub .., rfl⟩, ⟨binary_bufs_sub .., rfl⟩, ⟨nullary_bufs_sub .., rfl⟩, ⟨unary_bufs_sub .., rfl⟩, ⟨unary_bufs_sub .., rfl⟩, ⟨ternary_bufs_sub .., rfl⟩⟩
theorem var1Ops_runs (x : TRef sig ⟨S8x2048x1024, .f32⟩) (n : TRef sig ⟨S_, .i32⟩) (φ : fn_var_1.Bufs) : Runs (var1Ops (F := F) x n φ) :=
  ⟨⟨nullary_bufs_sub .., rfl⟩, ⟨binary_bufs_sub .., rfl⟩, ⟨unary_bufs_sub .., rfl⟩, ⟨nullary_bufs_sub .., rfl⟩, ⟨unary_bufs_sub .., rfl⟩, ⟨binary_bufs_sub .., rfl⟩, ⟨unary_bufs_sub .., rfl⟩, ⟨binary_bufs_sub .., rfl⟩, ⟨binary_bufs_sub .., rfl⟩, ⟨unary_bufs_sub .., rfl⟩, ⟨nullary_bufs_sub .., rfl⟩, ⟨binary_bufs_sub .., rfl⟩, ⟨nullary_bufs_sub .., rfl⟩, ⟨binary_bufs_sub .., rfl⟩, ⟨unary_bufs_sub .., rfl⟩, ⟨unary_bufs_sub .., rfl⟩, ⟨binary_bufs_sub .., rfl⟩, ⟨nullary_bufs_sub .., rfl⟩, ⟨binary_bufs_sub .., rfl⟩, ⟨nullary_bufs_sub .., rfl⟩, ⟨unary_bufs_sub .., rfl⟩, ⟨unary_bufs_sub .., rfl⟩, ⟨ternary_bufs_sub .., rfl⟩⟩
theorem pre1_runs : Runs (pre1 (F := F)) :=
  ⟨⟨nullary_bufs_sub .., rfl⟩, ⟨binary_bufs_sub .., rfl⟩, ⟨unary_bufs_sub .., rfl⟩, ⟨nullary_bufs_sub .., rfl⟩, ⟨unary_bufs_sub .., rfl⟩, ⟨binary_bufs_sub .., rfl⟩, ⟨nullary_bufs_sub .., rfl⟩⟩
theorem post1_runs : Runs (post1 (F := F)) :=
  ⟨⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩⟩
theorem dot1_runs : Runs (dot1 (F := F)) :=
  ⟨binary_bufs_sub .., rfl⟩
theorem pre2_runs : Runs (pre2 (F := F)) :=
  ⟨⟨nullary_bufs_sub .., rfl⟩, ⟨binary_bufs_sub .., rfl⟩, ⟨unary_bufs_sub .., rfl⟩, ⟨nullary_bufs_sub .., rfl⟩, ⟨unary_bufs_sub .., rfl⟩, ⟨binary_bufs_sub .., rfl⟩, ⟨nullary_bufs_sub .., rfl⟩⟩
theorem post2_runs : Runs (post2 (F := F)) :=
  ⟨⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩⟩
theorem dot2_runs : Runs (dot2 (F := F)) :=
  ⟨binary_bufs_sub .., rfl⟩
theorem pre3_runs : Runs (pre3 (F := F)) :=
  ⟨⟨nullary_bufs_sub .., rfl⟩, ⟨binary_bufs_sub .., rfl⟩, ⟨unary_bufs_sub .., rfl⟩, ⟨nullary_bufs_sub .., rfl⟩, ⟨unary_bufs_sub .., rfl⟩, ⟨binary_bufs_sub .., rfl⟩, ⟨nullary_bufs_sub .., rfl⟩⟩
theorem post3a_runs : Runs (post3a (F := F)) :=
  ⟨⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩⟩
theorem post3b_runs : Runs (post3b (F := F)) :=
  ⟨⟨unary_bufs_sub .., rfl⟩, ⟨binary_bufs_sub .., rfl⟩, ⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩⟩
theorem res1_runs : Runs (res1 (F := F)) :=
  ⟨binary_bufs_sub .., rfl⟩
theorem pre4_runs : Runs (pre4 (F := F)) :=
  ⟨⟨nullary_bufs_sub .., rfl⟩, ⟨binary_bufs_sub .., rfl⟩, ⟨unary_bufs_sub .., rfl⟩, ⟨nullary_bufs_sub .., rfl⟩, ⟨unary_bufs_sub .., rfl⟩, ⟨binary_bufs_sub .., rfl⟩, ⟨nullary_bufs_sub .., rfl⟩⟩
theorem post4_runs : Runs (post4 (F := F)) :=
  ⟨⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩⟩
theorem lin_runs : Runs (lin (F := F)) :=
  ⟨⟨binary_bufs_sub .., rfl⟩, ⟨unary_bufs_sub .., rfl⟩, ⟨unary_bufs_sub .., rfl⟩, ⟨binary_bufs_sub .., rfl⟩⟩
theorem pre5_runs : Runs (pre5 (F := F)) :=
  ⟨⟨nullary_bufs_sub .., rfl⟩, ⟨binary_bufs_sub .., rfl⟩, ⟨unary_bufs_sub .., rfl⟩, ⟨nullary_bufs_sub .., rfl⟩, ⟨unary_bufs_sub .., rfl⟩, ⟨binary_bufs_sub .., rfl⟩, ⟨nullary_bufs_sub .., rfl⟩⟩
theorem post5_runs : Runs (post5 (F := F)) :=
  ⟨⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩⟩
theorem res2_runs : Runs (res2 (F := F)) :=
  ⟨binary_bufs_sub .., rfl⟩

theorem ops_runs : Runs (ops (F := F)) :=
  ((((((((((pre1_runs.append (varOps_runs ..)).append post1_runs).append dot1_runs).append pre2_runs).append (var0Ops_runs ..)).append
    post2_runs).append dot2_runs).append pre3_runs).append (var1Ops_runs ..)).append post3a_runs).append
  (((((((((post3b_runs.append res1_runs).append pre4_runs).append (var1Ops_runs ..)).append post4_runs).append lin_runs).append
    pre5_runs).append (var1Ops_runs ..)).append post5_runs).append res2_runs)

theorem ops_sub : (ops : List (HloOp τ sig (Elt F))).Forall fun op => op.bufs ⊆ tcRefs τ sig :=
  List.forall_iff_forall_mem.mpr fun op h => (List.forall_iff_forall_mem.mp ops_runs op h).1

theorem ops_fresh : ∀ op ∈ (ops : List (HloOp τ sig (Elt F))), op.fresh = ∅ :=
  fun op h => (List.forall_iff_forall_mem.mp ops_runs op h).2

/-- On every device, for any float values, from any memory with zero counters: every weakly fair execution of @main
    terminates, and every final state has each buffer at the fold of the line over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## What the line leaves in each buffer -/

/-- Two lines in a row: the second folds over what the first leaves. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- `ys` names, in order, the one buffer each operation of `l` writes. -/
def Writes (l : List (HloOp τ sig (Elt F))) (ys : List (Ref sig .tc)) : Prop :=
  List.Forall₂ (fun (op : HloOp τ sig (Elt F)) (y : Ref sig .tc) => op.writes = {(y : DevRef τ sig)}) l ys

/-- A buffer that none of the operations writes is left as it was. -/
theorem after_frame {l : List (HloOp τ sig (Elt F))} {ys : List (Ref sig .tc)} (h : Writes l ys)
    (W : Valuation τ sig (Elt F)) {r : Ref sig .tc} (hr : r ∉ ys) :
    after l W (r : DevRef τ sig) = W (r : DevRef τ sig) := by
  induction h generalizing W with
  | nil => rfl
  | @cons op y l ys hw _ ih =>
    rw [after_cons, ih _ (fun h' => hr (List.mem_cons_of_mem _ h'))]
    refine op.result_of_not_mem W ?_
    rw [hw, Finset.mem_singleton]
    exact devRef_ne_of_ne fun e => hr (e ▸ List.mem_cons_self)

/-- The buffers one call writes, in order. -/
def varW (φ : fn_var.Bufs) : List (Ref sig .tc) :=
  [φ.cst.ref, φ.v0.ref, φ.v1.ref, φ.cst_0.ref, φ.v2.ref, φ.v3.ref, φ.v4.ref, φ.v5.ref, φ.v6.ref, φ.v7.ref, φ.cst_1.ref, φ.v8.ref, φ.cst_2.ref, φ.v9.ref, φ.v10.ref, φ.v11.ref, φ.v12.ref, φ.cst_3.ref, φ.v13.ref, φ.cst_4.ref, φ.call0.v0.ref, φ.call0.v1.ref, φ.call0.v2.ref]

theorem varOps_writes (x : TRef sig ⟨S8x2048x1024, .f32⟩) (n : TRef sig ⟨S_, .i32⟩) (φ : fn_var.Bufs) : Writes (varOps (F := F) x n φ) (varW φ) := by
  unfold Writes varOps varW
  repeat (first | exact List.Forall₂.nil | refine List.Forall₂.cons rfl ?_)

/-- The buffers one call writes, in order. -/
def var0W (φ : fn_var_0.Bufs) : List (Ref sig .tc) :=
  [φ.cst.ref, φ.v0.ref, φ.v1.ref, φ.cst_0.ref, φ.v2.ref, φ.v3.ref, φ.v4.ref, φ.v5.ref, φ.v6.ref, φ.v7.ref, φ.cst_1.ref, φ.v8.ref, φ.cst_2.ref, φ.v9.ref, φ.v10.ref, φ.v11.ref, φ.v12.ref, φ.cst_3.ref, φ.v13.ref, φ.cst_4.ref, φ.call0.v0.ref, φ.call0.v1.ref, φ.call0.v2.ref]

theorem var0Ops_writes (x : TRef sig ⟨S8x2048x2048, .f32⟩) (n : TRef sig ⟨S_, .i32⟩) (φ : fn_var_0.Bufs) : Writes (var0Ops (F := F) x n φ) (var0W φ) := by
  unfold Writes var0Ops var0W
  repeat (first | exact List.Forall₂.nil | refine List.Forall₂.cons rfl ?_)

/-- The buffers one call writes, in order. -/
def var1W (φ : fn_var_1.Bufs) : List (Ref sig .tc) :=
  [φ.cst.ref, φ.v0.ref, φ.v1.ref, φ.cst_0.ref, φ.v2.ref, φ.v3.ref, φ.v4.ref, φ.v5.ref, φ.v6.ref, φ.v7.ref, φ.cst_1.ref, φ.v8.ref, φ.cst_2.ref, φ.v9.ref, φ.v10.ref, φ.v11.ref, φ.v12.ref, φ.cst_3.ref, φ.v13.ref, φ.cst_4.ref, φ.call0.v0.ref, φ.call0.v1.ref, φ.call0.v2.ref]

theorem var1Ops_writes (x : TRef sig ⟨S8x2048x1024, .f32⟩) (n : TRef sig ⟨S_, .i32⟩) (φ : fn_var_1.Bufs) : Writes (var1Ops (F := F) x n φ) (var1W φ) := by
  unfold Writes var1Ops var1W
  repeat (first | exact List.Forall₂.nil | refine List.Forall₂.cons rfl ?_)

def pre1W : List (Ref sig .tc) := [main_cst, main_v0, main_v1, main_cst_0, main_v2, main_v3, main_c]
theorem pre1_writes : Writes (pre1 (F := F)) pre1W := by
  unfold Writes pre1 pre1W
  repeat (first | exact List.Forall₂.nil | refine List.Forall₂.cons rfl ?_)
theorem pre1_frame (W : Valuation τ sig (Elt F)) {r : Ref sig .tc} (hr : r ∉ pre1W) :
    after pre1 W (no_index (r : DevRef τ sig)) = W (r : DevRef τ sig) := after_frame pre1_writes W hr

def post1W : List (Ref sig .tc) := [main_v5, main_v6, main_cst_1, main_v7, main_v8, main_v9, main_v10, main_v11, main_v12, main_v13, main_v14, main_v15, main_v16, main_v17]
theorem post1_writes : Writes (post1 (F := F)) post1W := by
  unfold Writes post1 post1W
  repeat (first | exact List.Forall₂.nil | refine List.Forall₂.cons rfl ?_)
theorem post1_frame (W : Valuation τ sig (Elt F)) {r : Ref sig .tc} (hr : r ∉ post1W) :
    after post1 W (no_index (r : DevRef τ sig)) = W (r : DevRef τ sig) := after_frame post1_writes W hr

def dot1W : List (Ref sig .tc) := [main_v18]
theorem dot1_writes : Writes (dot1 (F := F)) dot1W := by
  unfold Writes dot1 dot1W
  repeat (first | exact List.Forall₂.nil | refine List.Forall₂.cons rfl ?_)
theorem dot1_frame (W : Valuation τ sig (Elt F)) {r : Ref sig .tc} (hr : r ∉ dot1W) :
    after dot1 W (no_index (r : DevRef τ sig)) = W (r : DevRef τ sig) := after_frame dot1_writes W hr

def pre2W : List (Ref sig .tc) := [main_cst_2, main_v19, main_v20, main_cst_3, main_v21, main_v22, main_c_4]
theorem pre2_writes : Writes (pre2 (F := F)) pre2W := by
  unfold Writes pre2 pre2W
  repeat (first | exact List.Forall₂.nil | refine List.Forall₂.cons rfl ?_)
theorem pre2_frame (W : Valuation τ sig (Elt F)) {r : Ref sig .tc} (hr : r ∉ pre2W) :
    after pre2 W (no_index (r : DevRef τ sig)) = W (r : DevRef τ sig) := after_frame pre2_writes W hr

def post2W : List (Ref sig .tc) := [main_v24, main_v25, main_cst_5, main_v26, main_v27, main_v28, main_v29, main_v30, main_v31, main_v32, main_v33, main_v34, main_v35, main_v36]
theorem post2_writes : Writes (post2 (F := F)) post2W := by
  unfold Writes post2 post2W
  repeat (first | exact List.Forall₂.nil | refine List.Forall₂.cons rfl ?_)
theorem post2_frame (W : Valuation τ sig (Elt F)) {r : Ref sig .tc} (hr : r ∉ post2W) :
    after post2 W (no_index (r : DevRef τ sig)) = W (r : DevRef τ sig) := after_frame post2_writes W hr

def dot2W : List (Ref sig .tc) := [main_v37]
theorem dot2_writes : Writes (dot2 (F := F)) dot2W := by
  unfold Writes dot2 dot2W
  repeat (first | exact List.Forall₂.nil | refine List.Forall₂.cons rfl ?_)
theorem dot2_frame (W : Valuation τ sig (Elt F)) {r : Ref sig .tc} (hr : r ∉ dot2W) :
    after dot2 W (no_index (r : DevRef τ sig)) = W (r : DevRef τ sig) := after_frame dot2_writes W hr

def pre3W : List (Ref sig .tc) := [main_cst_6, main_v38, main_v39, main_cst_7, main_v40, main_v41, main_c_8]
theorem pre3_writes : Writes (pre3 (F := F)) pre3W := by
  unfold Writes pre3 pre3W
  repeat (first | exact List.Forall₂.nil | refine List.Forall₂.cons rfl ?_)
theorem pre3_frame (W : Valuation τ sig (Elt F)) {r : Ref sig .tc} (hr : r ∉ pre3W) :
    after pre3 W (no_index (r : DevRef τ sig)) = W (r : DevRef τ sig) := after_frame pre3_writes W hr

def post3aW : List (Ref sig .tc) := [main_v43, main_v44, main_cst_9, main_v45, main_v46, main_v47]
theorem post3a_writes : Writes (post3a (F := F)) post3aW := by
  unfold Writes post3a post3aW
  repeat (first | exact List.Forall₂.nil | refine List.Forall₂.cons rfl ?_)
theorem post3a_frame (W : Valuation τ sig (Elt F)) {r : Ref sig .tc} (hr : r ∉ post3aW) :
    after post3a W (no_index (r : DevRef τ sig)) = W (r : DevRef τ sig) := after_frame post3a_writes W hr

def post3bW : List (Ref sig .tc) := [main_v48, main_v49, main_v50, main_v51, main_v52, main_v53, main_v54, main_v55]
theorem post3b_writes : Writes (post3b (F := F)) post3bW := by
  unfold Writes post3b post3bW
  repeat (first | exact List.Forall₂.nil | refine List.Forall₂.cons rfl ?_)
theorem post3b_frame (W : Valuation τ sig (Elt F)) {r : Ref sig .tc} (hr : r ∉ post3bW) :
    after post3b W (no_index (r : DevRef τ sig)) = W (r : DevRef τ sig) := after_frame post3b_writes W hr

def res1W : List (Ref sig .tc) := [main_v56]
theorem res1_writes : Writes (res1 (F := F)) res1W := by
  unfold Writes res1 res1W
  repeat (first | exact List.Forall₂.nil | refine List.Forall₂.cons rfl ?_)
theorem res1_frame (W : Valuation τ sig (Elt F)) {r : Ref sig .tc} (hr : r ∉ res1W) :
    after res1 W (no_index (r : DevRef τ sig)) = W (r : DevRef τ sig) := after_frame res1_writes W hr

def pre4W : List (Ref sig .tc) := [main_cst_10, main_v57, main_v58, main_cst_11, main_v59, main_v60, main_c_12]
theorem pre4_writes : Writes (pre4 (F := F)) pre4W := by
  unfold Writes pre4 pre4W
  repeat (first | exact List.Forall₂.nil | refine List.Forall₂.cons rfl ?_)
theorem pre4_frame (W : Valuation τ sig (Elt F)) {r : Ref sig .tc} (hr : r ∉ pre4W) :
    after pre4 W (no_index (r : DevRef τ sig)) = W (r : DevRef τ sig) := after_frame pre4_writes W hr

def post4W : List (Ref sig .tc) := [main_v62, main_v63, main_cst_13, main_v64, main_v65, main_v66, main_v67, main_v68, main_v69, main_v70, main_v71, main_v72, main_v73, main_v74]
theorem post4_writes : Writes (post4 (F := F)) post4W := by
  unfold Writes post4 post4W
  repeat (first | exact List.Forall₂.nil | refine List.Forall₂.cons rfl ?_)
theorem post4_frame (W : Valuation τ sig (Elt F)) {r : Ref sig .tc} (hr : r ∉ post4W) :
    after post4 W (no_index (r : DevRef τ sig)) = W (r : DevRef τ sig) := after_frame post4_writes W hr

def linW : List (Ref sig .tc) := [main_v75, main_v76, main_v77, main_v78]
theorem lin_writes : Writes (lin (F := F)) linW := by
  unfold Writes lin linW
  repeat (first | exact List.Forall₂.nil | refine List.Forall₂.cons rfl ?_)
theorem lin_frame (W : Valuation τ sig (Elt F)) {r : Ref sig .tc} (hr : r ∉ linW) :
    after lin W (no_index (r : DevRef τ sig)) = W (r : DevRef τ sig) := after_frame lin_writes W hr

def pre5W : List (Ref sig .tc) := [main_cst_14, main_v79, main_v80, main_cst_15, main_v81, main_v82, main_c_16]
theorem pre5_writes : Writes (pre5 (F := F)) pre5W := by
  unfold Writes pre5 pre5W
  repeat (first | exact List.Forall₂.nil | refine List.Forall₂.cons rfl ?_)
theorem pre5_frame (W : Valuation τ sig (Elt F)) {r : Ref sig .tc} (hr : r ∉ pre5W) :
    after pre5 W (no_index (r : DevRef τ sig)) = W (r : DevRef τ sig) := after_frame pre5_writes W hr

def post5W : List (Ref sig .tc) := [main_v84, main_v85, main_cst_17, main_v86, main_v87, main_v88, main_v89, main_v90, main_v91, main_v92, main_v93, main_v94, main_v95, main_v96]
theorem post5_writes : Writes (post5 (F := F)) post5W := by
  unfold Writes post5 post5W
  repeat (first | exact List.Forall₂.nil | refine List.Forall₂.cons rfl ?_)
theorem post5_frame (W : Valuation τ sig (Elt F)) {r : Ref sig .tc} (hr : r ∉ post5W) :
    after post5 W (no_index (r : DevRef τ sig)) = W (r : DevRef τ sig) := after_frame post5_writes W hr

def res2W : List (Ref sig .tc) := [main_v97]
theorem res2_writes : Writes (res2 (F := F)) res2W := by
  unfold Writes res2 res2W
  repeat (first | exact List.Forall₂.nil | refine List.Forall₂.cons rfl ?_)
theorem res2_frame (W : Valuation τ sig (Elt F)) {r : Ref sig .tc} (hr : r ∉ res2W) :
    after res2 W (no_index (r : DevRef τ sig)) = W (r : DevRef τ sig) := after_frame res2_writes W hr

theorem call1_frame (W : Valuation τ sig (Elt F)) {r : Ref sig .tc} (hr : r ∉ varW main_call0) :
    after call1 W (no_index (r : DevRef τ sig)) = W (r : DevRef τ sig) := after_frame (varOps_writes ..) W hr

theorem call2_frame (W : Valuation τ sig (Elt F)) {r : Ref sig .tc} (hr : r ∉ var0W main_call1) :
    after call2 W (no_index (r : DevRef τ sig)) = W (r : DevRef τ sig) := after_frame (var0Ops_writes ..) W hr

theorem call3_frame (W : Valuation τ sig (Elt F)) {r : Ref sig .tc} (hr : r ∉ var1W main_call2) :
    after call3 W (no_index (r : DevRef τ sig)) = W (r : DevRef τ sig) := after_frame (var1Ops_writes ..) W hr

theorem call4_frame (W : Valuation τ sig (Elt F)) {r : Ref sig .tc} (hr : r ∉ var1W main_call3) :
    after call4 W (no_index (r : DevRef τ sig)) = W (r : DevRef τ sig) := after_frame (var1Ops_writes ..) W hr

theorem call5_frame (W : Valuation τ sig (Elt F)) {r : Ref sig .tc} (hr : r ∉ var1W main_call4) :
    after call5 W (no_index (r : DevRef τ sig)) = W (r : DevRef τ sig) := after_frame (var1Ops_writes ..) W hr

/-! ## The stages -/

/-- The first normalisation leaves the normalised token rows. -/
theorem ln1_out (W : Valuation τ sig (Elt F)) :
    after post1 (after call1 (after pre1 W)) (no_index (main_v17 : DevRef τ sig))
      = Term.ln1024 (W (main_arg0 : DevRef τ sig)) (W (main_arg1 : DevRef τ sig)) (W (main_arg2 : DevRef τ sig)) := by
  simp only [post1, call1, varOps, pre1]
  after_results_simp
  rfl

/-- The scores are the token rows against themselves. -/
theorem dot1_out (W : Valuation τ sig (Elt F)) :
    after dot1 W (no_index (main_v18 : DevRef τ sig))
      = Host.dotGeneral dot_S8x2048x1024_S8x2048x1024_S8x2048x2048_2_2_1_1_0_0 none (W (main_v17 : DevRef τ sig)) (W (main_v17 : DevRef τ sig)) := by
  simp only [dot1]
  after_results_simp

/-- The second normalisation, of the score rows. -/
theorem ln2_out (W : Valuation τ sig (Elt F)) :
    after post2 (after call2 (after pre2 W)) (no_index (main_v36 : DevRef τ sig))
      = Term.ln2048 (W (main_v18 : DevRef τ sig)) (W (main_arg3 : DevRef τ sig)) (W (main_arg4 : DevRef τ sig)) := by
  simp only [post2, call2, var0Ops, pre2]
  after_results_simp
  rfl

/-- The mix: the normalised scores against the token rows. -/
theorem dot2_out (W : Valuation τ sig (Elt F)) :
    after dot2 W (no_index (main_v37 : DevRef τ sig))
      = Host.dotGeneral dot_S8x2048x2048_S8x2048x1024_S8x2048x1024_2_1_1_2_0_0 none (W (main_v36 : DevRef τ sig)) (W (main_v17 : DevRef τ sig)) := by
  simp only [dot2]
  after_results_simp

/-- The third normalisation, of the mixed rows, across the two windows. -/
theorem ln3_out (W : Valuation τ sig (Elt F)) :
    after post3b (after post3a (after call3 (after pre3 W))) (no_index (main_v55 : DevRef τ sig))
      = Term.ln1024 (W (main_v37 : DevRef τ sig)) (W (main_arg1 : DevRef τ sig)) (W (main_arg2 : DevRef τ sig)) := by
  simp only [post3b, post3a, call3, var1Ops, pre3]
  after_results_simp
  rfl

/-- The first residual adds the input. -/
theorem res1_out (W : Valuation τ sig (Elt F)) :
    after res1 W (no_index (main_v56 : DevRef τ sig)) = addf (W (main_v55 : DevRef τ sig)) (W (main_arg0 : DevRef τ sig)) := by
  simp only [res1]
  after_results_simp

/-- The fourth normalisation, of the first residual. -/
theorem ln4_out (W : Valuation τ sig (Elt F)) :
    after post4 (after call4 (after pre4 W)) (no_index (main_v74 : DevRef τ sig))
      = Term.ln1024 (W (main_v56 : DevRef τ sig)) (W (main_arg7 : DevRef τ sig)) (W (main_arg8 : DevRef τ sig)) := by
  simp only [post4, call4, var1Ops, pre4]
  after_results_simp
  rfl

/-- The affine map of what the fourth normalisation left. -/
theorem lin_out (W : Valuation τ sig (Elt F)) :
    after lin W (no_index (main_v78 : DevRef τ sig))
      = addf (Host.dotGeneral dot_S8x2048x1024_S1024x1024_S8x2048x1024_2_1_01_0_n_n none (W (main_v74 : DevRef τ sig)) (W (main_arg5 : DevRef τ sig)))
          (broadcastInDim S8x2048x1024 ![0, 1, 2] bcast_S1x1x1024_S8x2048x1024_0_1_2
            (broadcastInDim S1x1x1024 ![2] bcast_S1024_S1x1x1024_2 (W (main_arg6 : DevRef τ sig)))) := by
  simp only [lin]
  after_results_simp

/-- The fifth normalisation, of the affine map. -/
theorem ln5_out (W : Valuation τ sig (Elt F)) :
    after post5 (after call5 (after pre5 W)) (no_index (main_v96 : DevRef τ sig))
      = Term.ln1024 (W (main_v78 : DevRef τ sig)) (W (main_arg7 : DevRef τ sig)) (W (main_arg8 : DevRef τ sig)) := by
  simp only [post5, call5, var1Ops, pre5]
  after_results_simp
  rfl

/-- The second residual adds the first. -/
theorem res2_out (W : Valuation τ sig (Elt F)) :
    after res2 W (no_index (main_v97 : DevRef τ sig)) = addf (W (main_v96 : DevRef τ sig)) (W (main_v56 : DevRef τ sig)) := by
  simp only [res2]
  after_results_simp

/-! ## The result and the arguments -/

/-- The fold at the result buffer: read stage by stage from the end, each stage's value in terms of what the line before
    it left, a buffer the stage does not write carried back unchanged; what remains is `Term.refOut` unfolded to its stages. -/
theorem out_eq (V : Valuation τ sig (Elt F)) :
    after ops V (main_v97 : DevRef τ sig)
      = Term.refOut (F := F) (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  simp (disch := decide) only [ops, opsA, opsB, after_app, res2_out, ln5_out, lin_out, ln4_out, res1_out, ln3_out, dot2_out, ln2_out,
    dot1_out, ln1_out, pre1_frame, post1_frame, dot1_frame, pre2_frame, post2_frame, dot2_frame, pre3_frame, post3a_frame, post3b_frame, res1_frame, pre4_frame, post4_frame, lin_frame, pre5_frame, post5_frame, res2_frame, call1_frame, call2_frame, call3_frame, call4_frame, call5_frame,
    Term.refOut, Term.linT, Term.res1T, Term.tokT]

theorem arg0_eq (V : Valuation τ sig (Elt F)) : after ops V (main_arg0 : DevRef τ sig) = (V (main_arg0 : DevRef τ sig)) := by
  simp (disch := decide) only [ops, opsA, opsB, after_app, pre1_frame, post1_frame, dot1_frame, pre2_frame, post2_frame, dot2_frame, pre3_frame, post3a_frame, post3b_frame, res1_frame, pre4_frame, post4_frame, lin_frame, pre5_frame, post5_frame, res2_frame, call1_frame, call2_frame, call3_frame, call4_frame, call5_frame]
theorem arg1_eq (V : Valuation τ sig (Elt F)) : after ops V (main_arg1 : DevRef τ sig) = (V (main_arg1 : DevRef τ sig)) := by
  simp (disch := decide) only [ops, opsA, opsB, after_app, pre1_frame, post1_frame, dot1_frame, pre2_frame, post2_frame, dot2_frame, pre3_frame, post3a_frame, post3b_frame, res1_frame, pre4_frame, post4_frame, lin_frame, pre5_frame, post5_frame, res2_frame, call1_frame, call2_frame, call3_frame, call4_frame, call5_frame]
theorem arg2_eq (V : Valuation τ sig (Elt F)) : after ops V (main_arg2 : DevRef τ sig) = (V (main_arg2 : DevRef τ sig)) := by
  simp (disch := decide) only [ops, opsA, opsB, after_app, pre1_frame, post1_frame, dot1_frame, pre2_frame, post2_frame, dot2_frame, pre3_frame, post3a_frame, post3b_frame, res1_frame, pre4_frame, post4_frame, lin_frame, pre5_frame, post5_frame, res2_frame, call1_frame, call2_frame, call3_frame, call4_frame, call5_frame]
theorem arg3_eq (V : Valuation τ sig (Elt F)) : after ops V (main_arg3 : DevRef τ sig) = (V (main_arg3 : DevRef τ sig)) := by
  simp (disch := decide) only [ops, opsA, opsB, after_app, pre1_frame, post1_frame, dot1_frame, pre2_frame, post2_frame, dot2_frame, pre3_frame, post3a_frame, post3b_frame, res1_frame, pre4_frame, post4_frame, lin_frame, pre5_frame, post5_frame, res2_frame, call1_frame, call2_frame, call3_frame, call4_frame, call5_frame]
theorem arg4_eq (V : Valuation τ sig (Elt F)) : after ops V (main_arg4 : DevRef τ sig) = (V (main_arg4 : DevRef τ sig)) := by
  simp (disch := decide) only [ops, opsA, opsB, after_app, pre1_frame, post1_frame, dot1_frame, pre2_frame, post2_frame, dot2_frame, pre3_frame, post3a_frame, post3b_frame, res1_frame, pre4_frame, post4_frame, lin_frame, pre5_frame, post5_frame, res2_frame, call1_frame, call2_frame, call3_frame, call4_frame, call5_frame]
theorem arg5_eq (V : Valuation τ sig (Elt F)) : after ops V (main_arg5 : DevRef τ sig) = (V (main_arg5 : DevRef τ sig)) := by
  simp (disch := decide) only [ops, opsA, opsB, after_app, pre1_frame, post1_frame, dot1_frame, pre2_frame, post2_frame, dot2_frame, pre3_frame, post3a_frame, post3b_frame, res1_frame, pre4_frame, post4_frame, lin_frame, pre5_frame, post5_frame, res2_frame, call1_frame, call2_frame, call3_frame, call4_frame, call5_frame]
theorem arg6_eq (V : Valuation τ sig (Elt F)) : after ops V (main_arg6 : DevRef τ sig) = (V (main_arg6 : DevRef τ sig)) := by
  simp (disch := decide) only [ops, opsA, opsB, after_app, pre1_frame, post1_frame, dot1_frame, pre2_frame, post2_frame, dot2_frame, pre3_frame, post3a_frame, post3b_frame, res1_frame, pre4_frame, post4_frame, lin_frame, pre5_frame, post5_frame, res2_frame, call1_frame, call2_frame, call3_frame, call4_frame, call5_frame]
theorem arg7_eq (V : Valuation τ sig (Elt F)) : after ops V (main_arg7 : DevRef τ sig) = (V (main_arg7 : DevRef τ sig)) := by
  simp (disch := decide) only [ops, opsA, opsB, after_app, pre1_frame, post1_frame, dot1_frame, pre2_frame, post2_frame, dot2_frame, pre3_frame, post3a_frame, post3b_frame, res1_frame, pre4_frame, post4_frame, lin_frame, pre5_frame, post5_frame, res2_frame, call1_frame, call2_frame, call3_frame, call4_frame, call5_frame]
theorem arg8_eq (V : Valuation τ sig (Elt F)) : after ops V (main_arg8 : DevRef τ sig) = (V (main_arg8 : DevRef τ sig)) := by
  simp (disch := decide) only [ops, opsA, opsB, after_app, pre1_frame, post1_frame, dot1_frame, pre2_frame, post2_frame, dot2_frame, pre3_frame, post3a_frame, post3b_frame, res1_frame, pre4_frame, post4_frame, lin_frame, pre5_frame, post5_frame, res2_frame, call1_frame, call2_frame, call3_frame, call4_frame, call5_frame]

/-- On every device, for any float values, from any memory with zero counters: every weakly fair execution of @main
    terminates with the result buffer at `Term.refOut` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v97)
          = Term.refOut (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v97).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (run_main m ρ)

end Cert.ReferenceIdeal.Run

end
-- ==== Proof.RefRead.lean ====
/-
  The reference's result read at an index, at the ideal values. Every stage of the reference's term is read at
  explicit coordinates: a broadcast reads its operand at the coordinates it keeps; the row sum is the sum over
  the last coordinate; the mean is that sum divided by the width; the count the variance divides by is the
  width itself, which is positive, so the select keeps the quotient; the normalisation of a row is the two-pass
  formula of the specification; a batched product is the sum over the contracted coordinate. Composed in the
  reference's order these give the specification's block over the two-pass normalisations.
-/
import proofs.«402831_j2413771620561_3_alg».proof.Proof.RefTerm
import proofs.«402831_j2413771620561_3_alg».proof.Proof.Spec
import proofs.«402831_j2413771620561_3_alg».proof.Proof.Consts
import Idealize.ShloMosaic.Lib.ValueIdx
import Idealize.ShloMosaic.Lib.Pipeline.Value
import Idealize.ShloMosaic.PureOps.Ideal.Laws
import Idealize.ShloMosaic.Lib.IdealHost

noncomputable section

namespace Cert.ReferenceIdeal.RefRead

open Cert.ReferenceIdeal Cert.ReferenceIdeal.Gen Cert.ReferenceIdeal.Term
open Idealize.ShloMosaic Idealize.ShloMosaic.ValueIdx
open scoped BigOperators

/-! ## Broadcasts read at an index -/

section Bcast
variable {α : Type}

/-- One entry per row, given a unit last axis: the entry of the row. -/
theorem bcastRow_apply (y : S8x2048.Idx → α) (p : Fin 8) (n : Fin 2048) :
    broadcastInDim S8x2048x1 ![0, 1] bcast_S8x2048_S8x2048x1_0_1 y (ix3 p n (0 : Fin 1)) = y (ix2 p n) :=
  broadcastInDim_apply ![0, 1] bcast_S8x2048_S8x2048x1_0_1 y (ix3 p n (0 : Fin 1)) (ix2 p n)
    (fun a => match a with | ⟨0, _⟩ => rfl | ⟨1, _⟩ => rfl)

/-- A row's one entry copied along the row, width 1024. -/
theorem bcastCol1024_apply (y : S8x2048x1.Idx → α) (p : Fin 8) (n : Fin 2048) (d : Fin 1024) :
    broadcastInDim S8x2048x1024 ![0, 1, 2] bcast_S8x2048x1_S8x2048x1024_0_1_2 y (ix3 p n d) = y (ix3 p n (0 : Fin 1)) :=
  broadcastInDim_apply ![0, 1, 2] bcast_S8x2048x1_S8x2048x1024_0_1_2 y (ix3 p n d) (ix3 p n (0 : Fin 1))
    (fun a => match a with | ⟨0, _⟩ => rfl | ⟨1, _⟩ => rfl | ⟨2, _⟩ => rfl)

/-- A vector of width 1024 copied to every row: its entry at the last coordinate. -/
theorem bcastVec1024_apply (g : S1024.Idx → α) (p : Fin 8) (n : Fin 2048) (d : Fin 1024) :
    broadcastInDim S8x2048x1024 ![0, 1, 2] bcast_S1x1x1024_S8x2048x1024_0_1_2
        (broadcastInDim S1x1x1024 ![2] bcast_S1024_S1x1x1024_2 g) (ix3 p n d) = g (ix1 d) :=
  (broadcastInDim_apply ![0, 1, 2] bcast_S1x1x1024_S8x2048x1024_0_1_2 _ (ix3 p n d) (ix3 (0 : Fin 1) (0 : Fin 1) d)
    (fun a => match a with | ⟨0, _⟩ => rfl | ⟨1, _⟩ => rfl | ⟨2, _⟩ => rfl)).trans
  (broadcastInDim_apply ![2] bcast_S1024_S1x1x1024_2 g (ix3 (0 : Fin 1) (0 : Fin 1) d) (ix1 d)
    (fun a => match a with | ⟨0, _⟩ => rfl))

/-- A row's one entry copied along the row, width 2048. -/
theorem bcastCol2048_apply (y : S8x2048x1.Idx → α) (p : Fin 8) (n : Fin 2048) (d : Fin 2048) :
    broadcastInDim S8x2048x2048 ![0, 1, 2] bcast_S8x2048x1_S8x2048x2048_0_1_2 y (ix3 p n d) = y (ix3 p n (0 : Fin 1)) :=
  broadcastInDim_apply ![0, 1, 2] bcast_S8x2048x1_S8x2048x2048_0_1_2 y (ix3 p n d) (ix3 p n (0 : Fin 1))
    (fun a => match a with | ⟨0, _⟩ => rfl | ⟨1, _⟩ => rfl | ⟨2, _⟩ => rfl)

/-- A vector of width 2048 copied to every row: its entry at the last coordinate. -/
theorem bcastVec2048_apply (g : S2048.Idx → α) (p : Fin 8) (n : Fin 2048) (d : Fin 2048) :
    broadcastInDim S8x2048x2048 ![0, 1, 2] bcast_S1x1x2048_S8x2048x2048_0_1_2
        (broadcastInDim S1x1x2048 ![2] bcast_S2048_S1x1x2048_2 g) (ix3 p n d) = g (ix1 d) :=
  (broadcastInDim_apply ![0, 1, 2] bcast_S1x1x2048_S8x2048x2048_0_1_2 _ (ix3 p n d) (ix3 (0 : Fin 1) (0 : Fin 1) d)
    (fun a => match a with | ⟨0, _⟩ => rfl | ⟨1, _⟩ => rfl | ⟨2, _⟩ => rfl)).trans
  (broadcastInDim_apply ![2] bcast_S2048_S1x1x2048_2 g (ix3 (0 : Fin 1) (0 : Fin 1) d) (ix1 d)
    (fun a => match a with | ⟨0, _⟩ => rfl))

end Bcast

/-- The host's inverse root at an index is the ideal inverse root of the entry. -/
theorem hostRsqrt_apply {s : Shape} {φ : FTy} (v : FVec Ideal s φ) (i : s.Idx) : Host.rsqrt v i = Ideal.rsqrt (v i) := rfl

/-! ## Width 1024: the row sum, the mean, the count, the variance, the normalisation -/

theorem red1024 : S8x2048x1024.Reduces [2] S8x2048 := by decide

/-- The host's sum over the last axis from a zero initial value is the sum over the last coordinate. -/
theorem rowSum1024 (x : FVec Ideal S8x2048x1024 .f32) (p : Fin 8) (n : Fin 2048) :
    Host.reduceAdd x (constant (F := Ideal) S_ .f32 0x00000000#32) reducesTo_S8x2048x1024_S8x2048_d2 h_S_ (ix2 p n)
      = ∑ j : Fin 1024, x (ix3 p n j) := by
  rw [hostReduceAdd_apply, Ideal.hostReduceAdd_single _ red1024, constant_apply, Consts.ofBits_zero, zero_add]
  exact Finset.sum_congr rfl fun j _ => congrArg x (funext fun a => Fin.ext
    (match a with | ⟨0, _⟩ => rfl | ⟨1, _⟩ => rfl | ⟨2, _⟩ => rfl))

/-- The row mean: the row's sum divided by 1024. -/
theorem mean1024_apply (x : FVec Ideal S8x2048x1024 .f32) (p : Fin 8) (n : Fin 2048) :
    mean1024 x (ix3 p n (0 : Fin 1)) = Ideal.div (∑ j : Fin 1024, x (ix3 p n j)) ((1024 : ℝ) : EReal) := by
  unfold mean1024
  rw [hostDivf_apply, bcastRow_apply, rowSum1024, broadcastInDim_scalar_apply, constant_apply, Consts.ofBits_1024]

/-- The count is 1024: the integer zero converts to zero. -/
theorem cnt1024_apply : cnt1024 (F := Ideal) ix0 = ((1024 : ℝ) : EReal) := by
  show Ideal.ofBits .f32 0x44800000#32 - (((0#32 : BitVec 32).toInt : ℝ) : EReal) = _
  rw [Consts.ofBits_1024]
  simp

/-- The count is positive, so the comparison's bit is set. -/
theorem mask1024_apply : cmpf .ogt (cnt1024 (F := Ideal)) (constant S_ .f32 0x00000000#32) ix0 = 1#1 := by
  show Ideal.cmp .ogt (cnt1024 (F := Ideal) ix0) (Ideal.ofBits .f32 0x00000000#32) = 1#1
  rw [cnt1024_apply, Consts.ofBits_zero]
  have h : (0 : EReal) < ((1024 : ℝ) : EReal) := EReal.coe_pos.mpr (by norm_num)
  simp [Ideal.cmp, h]

/-- The deviation from the row mean. -/
theorem dev1024_apply (x : FVec Ideal S8x2048x1024 .f32) (p : Fin 8) (n : Fin 2048) (d : Fin 1024) :
    dev1024 x (ix3 p n d) = x (ix3 p n d) - Ideal.div (∑ j : Fin 1024, x (ix3 p n j)) ((1024 : ℝ) : EReal) := by
  unfold dev1024
  rw [subf_apply, bcastCol1024_apply, mean1024_apply]

/-- The row variance: the sum of squared deviations divided by 1024. -/
theorem var1024_apply (x : FVec Ideal S8x2048x1024 .f32) (p : Fin 8) (n : Fin 2048) :
    var1024 x (ix3 p n (0 : Fin 1))
      = Ideal.div (∑ j : Fin 1024, (x (ix3 p n j) - Ideal.div (∑ i : Fin 1024, x (ix3 p n i)) ((1024 : ℝ) : EReal))
            * (x (ix3 p n j) - Ideal.div (∑ i : Fin 1024, x (ix3 p n i)) ((1024 : ℝ) : EReal))) ((1024 : ℝ) : EReal) := by
  unfold var1024
  rw [select_apply, broadcastInDim_scalar_apply, mask1024_apply, select_one, hostDivf_apply, bcastRow_apply, rowSum1024,
    broadcastInDim_scalar_apply, cnt1024_apply]
  exact congrArg (fun s => Ideal.div s _) (Finset.sum_congr rfl fun j _ => by rw [mulf_apply, dev1024_apply])

/-- The row normalisation of width 1024 is the two-pass formula on the row. -/
theorem ln1024_apply (x : FVec Ideal S8x2048x1024 .f32) (g b : FVec Ideal S1024 .f32) (p : Fin 8) (n : Fin 2048) (d : Fin 1024) :
    ln1024 x g b (ix3 p n d)
      = Cert.Spec.lnR ((1024 : ℝ) : EReal) ((Cert.Consts.epsR : ℝ) : EReal) (fun j => x (ix3 p n j))
          (Cert.Spec.arr1 g) (Cert.Spec.arr1 b) d := by
  unfold ln1024
  rw [addf_apply, mulf_apply, mulf_apply, dev1024_apply, bcastCol1024_apply, hostRsqrt_apply, addf_apply, var1024_apply,
    broadcastInDim_scalar_apply, constant_apply, Consts.ofBits_eps, bcastVec1024_apply, bcastVec1024_apply]
  rfl

/-! ## Width 2048: the same five readings -/

theorem red2048 : S8x2048x2048.Reduces [2] S8x2048 := by decide

/-- The host's sum over the last axis from a zero initial value is the sum over the last coordinate. -/
theorem rowSum2048 (x : FVec Ideal S8x2048x2048 .f32) (p : Fin 8) (n : Fin 2048) :
    Host.reduceAdd x (constant (F := Ideal) S_ .f32 0x00000000#32) reducesTo_S8x2048x2048_S8x2048_d2 h_S_ (ix2 p n)
      = ∑ j : Fin 2048, x (ix3 p n j) := by
  rw [hostReduceAdd_apply, Ideal.hostReduceAdd_single _ red2048, constant_apply, Consts.ofBits_zero, zero_add]
  exact Finset.sum_congr rfl fun j _ => congrArg x (funext fun a => Fin.ext
    (match a with | ⟨0, _⟩ => rfl | ⟨1, _⟩ => rfl | ⟨2, _⟩ => rfl))

/-- The row mean: the row's sum divided by 2048. -/
theorem mean2048_apply (x : FVec Ideal S8x2048x2048 .f32) (p : Fin 8) (n : Fin 2048) :
    mean2048 x (ix3 p n (0 : Fin 1)) = Ideal.div (∑ j : Fin 2048, x (ix3 p n j)) ((2048 : ℝ) : EReal) := by
  unfold mean2048
  rw [hostDivf_apply, bcastRow_apply, rowSum2048, broadcastInDim_scalar_apply, constant_apply, Consts.ofBits_2048]

/-- The count is 2048: the integer zero converts to zero. -/
theorem cnt2048_apply : cnt2048 (F := Ideal) ix0 = ((2048 : ℝ) : EReal) := by
  show Ideal.ofBits .f32 0x45000000#32 - (((0#32 : BitVec 32).toInt : ℝ) : EReal) = _
  rw [Consts.ofBits_2048]
  simp

/-- The count is positive, so the comparison's bit is set. -/
theorem mask2048_apply : cmpf .ogt (cnt2048 (F := Ideal)) (constant S_ .f32 0x00000000#32) ix0 = 1#1 := by
  show Ideal.cmp .ogt (cnt2048 (F := Ideal) ix0) (Ideal.ofBits .f32 0x00000000#32) = 1#1
  rw [cnt2048_apply, Consts.ofBits_zero]
  have h : (0 : EReal) < ((2048 : ℝ) : EReal) := EReal.coe_pos.mpr (by norm_num)
  simp [Ideal.cmp, h]

/-- The deviation from the row mean. -/
theorem dev2048_apply (x : FVec Ideal S8x2048x2048 .f32) (p : Fin 8) (n : Fin 2048) (d : Fin 2048) :
    dev2048 x (ix3 p n d) = x (ix3 p n d) - Ideal.div (∑ j : Fin 2048, x (ix3 p n j)) ((2048 : ℝ) : EReal) := by
  unfold dev2048
  rw [subf_apply, bcastCol2048_apply, mean2048_apply]

/-- The row variance: the sum of squared deviations divided by 2048. -/
theorem var2048_apply (x : FVec Ideal S8x2048x2048 .f32) (p : Fin 8) (n : Fin 2048) :
    var2048 x (ix3 p n (0 : Fin 1))
      = Ideal.div (∑ j : Fin 2048, (x (ix3 p n j) - Ideal.div (∑ i : Fin 2048, x (ix3 p n i)) ((2048 : ℝ) : EReal))
            * (x (ix3 p n j) - Ideal.div (∑ i : Fin 2048, x (ix3 p n i)) ((2048 : ℝ) : EReal))) ((2048 : ℝ) : EReal) := by
  unfold var2048
  rw [select_apply, broadcastInDim_scalar_apply, mask2048_apply, select_one, hostDivf_apply, bcastRow_apply, rowSum2048,
    broadcastInDim_scalar_apply, cnt2048_apply]
  exact congrArg (fun s => Ideal.div s _) (Finset.sum_congr rfl fun j _ => by rw [mulf_apply, dev2048_apply])

/-- The row normalisation of width 2048 is the two-pass formula on the row. -/
theorem ln2048_apply (x : FVec Ideal S8x2048x2048 .f32) (g b : FVec Ideal S2048 .f32) (p : Fin 8) (n : Fin 2048) (d : Fin 2048) :
    ln2048 x g b (ix3 p n d)
      = Cert.Spec.lnR ((2048 : ℝ) : EReal) ((Cert.Consts.epsR : ℝ) : EReal) (fun j => x (ix3 p n j))
          (Cert.Spec.arr1 g) (Cert.Spec.arr1 b) d := by
  unfold ln2048
  rw [addf_apply, mulf_apply, mulf_apply, dev2048_apply, bcastCol2048_apply, hostRsqrt_apply, addf_apply, var2048_apply,
    broadcastInDim_scalar_apply, constant_apply, Consts.ofBits_eps, bcastVec2048_apply, bcastVec2048_apply]
  rfl

/-! ## The three products read at an index

Each has one contracted axis, so the sum over the contraction index is the sum over that axis's coordinate; the
operands' indices at a result index and a contracted coordinate are read off coordinate by coordinate. -/

/-- The scores: batch axis 0 on both sides, each operand contracted on its feature axis. -/
theorem dotScore_apply (A B : FVec Ideal S8x2048x1024 .f32) (p : Fin 8) (n m : Fin 2048) :
    Host.dotGeneral dot_S8x2048x1024_S8x2048x1024_S8x2048x2048_2_2_1_1_0_0 none A B (ix3 p n m) = ∑ d : Fin 1024, A (ix3 p n d) * B (ix3 p m d) := by
  show FloatOps.dotGeneral _ none _ A B (ix3 p n m) = _
  rw [Ideal.dotGeneral_apply, ← Equiv.sum_comp (contrEquiv1 dot_S8x2048x1024_S8x2048x1024_S8x2048x2048_2_2_1_1_0_0 1024 rfl rfl).symm]
  refine Finset.sum_congr rfl fun c _ => ?_
  have c3 := contrEquiv1_symm_val dot_S8x2048x1024_S8x2048x1024_S8x2048x2048_2_2_1_1_0_0 1024 rfl rfl c
  have l3 : (dot_S8x2048x1024_S8x2048x1024_S8x2048x2048_2_2_1_1_0_0).lhsIdx (ix3 p n m) ((contrEquiv1 _ 1024 rfl rfl).symm c) = ix3 p n c :=
    funext fun ax => Fin.ext (match ax with | ⟨0, _⟩ => rfl | ⟨1, _⟩ => rfl | ⟨2, _⟩ => c3)
  have r3 : (dot_S8x2048x1024_S8x2048x1024_S8x2048x2048_2_2_1_1_0_0).rhsIdx (ix3 p n m) ((contrEquiv1 _ 1024 rfl rfl).symm c) = ix3 p m c :=
    funext fun ax => Fin.ext (match ax with | ⟨0, _⟩ => rfl | ⟨1, _⟩ => rfl | ⟨2, _⟩ => c3)
  rw [l3, r3]

/-- The mix: batch axis 0 on both sides, the scores contracted on their last axis, the token rows on their token axis. -/
theorem dotMix_apply (A : FVec Ideal S8x2048x2048 .f32) (B : FVec Ideal S8x2048x1024 .f32) (p : Fin 8) (n : Fin 2048) (d : Fin 1024) :
    Host.dotGeneral dot_S8x2048x2048_S8x2048x1024_S8x2048x1024_2_1_1_2_0_0 none A B (ix3 p n d) = ∑ m : Fin 2048, A (ix3 p n m) * B (ix3 p m d) := by
  show FloatOps.dotGeneral _ none _ A B (ix3 p n d) = _
  rw [Ideal.dotGeneral_apply, ← Equiv.sum_comp (contrEquiv1 dot_S8x2048x2048_S8x2048x1024_S8x2048x1024_2_1_1_2_0_0 2048 rfl rfl).symm]
  refine Finset.sum_congr rfl fun c _ => ?_
  have c3 := contrEquiv1_symm_val dot_S8x2048x2048_S8x2048x1024_S8x2048x1024_2_1_1_2_0_0 2048 rfl rfl c
  have l3 : (dot_S8x2048x2048_S8x2048x1024_S8x2048x1024_2_1_1_2_0_0).lhsIdx (ix3 p n d) ((contrEquiv1 _ 2048 rfl rfl).symm c) = ix3 p n c :=
    funext fun ax => Fin.ext (match ax with | ⟨0, _⟩ => rfl | ⟨1, _⟩ => rfl | ⟨2, _⟩ => c3)
  have r3 : (dot_S8x2048x2048_S8x2048x1024_S8x2048x1024_2_1_1_2_0_0).rhsIdx (ix3 p n d) ((contrEquiv1 _ 2048 rfl rfl).symm c) = ix3 p c d :=
    funext fun ax => Fin.ext (match ax with | ⟨0, _⟩ => rfl | ⟨1, _⟩ => c3 | ⟨2, _⟩ => rfl)
  rw [l3, r3]

/-- The affine map's product: no batch axis, the rows contracted on their feature axis with the weight's second axis. -/
theorem dotLin_apply (A : FVec Ideal S8x2048x1024 .f32) (W : FVec Ideal S1024x1024 .f32) (p : Fin 8) (n : Fin 2048) (e : Fin 1024) :
    Host.dotGeneral dot_S8x2048x1024_S1024x1024_S8x2048x1024_2_1_01_0_n_n none A W (ix3 p n e) = ∑ d : Fin 1024, A (ix3 p n d) * W (ix2 e d) := by
  show FloatOps.dotGeneral _ none _ A W (ix3 p n e) = _
  rw [Ideal.dotGeneral_apply, ← Equiv.sum_comp (contrEquiv1 dot_S8x2048x1024_S1024x1024_S8x2048x1024_2_1_01_0_n_n 1024 rfl rfl).symm]
  refine Finset.sum_congr rfl fun c _ => ?_
  have c3 := contrEquiv1_symm_val dot_S8x2048x1024_S1024x1024_S8x2048x1024_2_1_01_0_n_n 1024 rfl rfl c
  have l3 : (dot_S8x2048x1024_S1024x1024_S8x2048x1024_2_1_01_0_n_n).lhsIdx (ix3 p n e) ((contrEquiv1 _ 1024 rfl rfl).symm c) = ix3 p n c :=
    funext fun ax => Fin.ext (match ax with | ⟨0, _⟩ => rfl | ⟨1, _⟩ => rfl | ⟨2, _⟩ => c3)
  have r3 : (dot_S8x2048x1024_S1024x1024_S8x2048x1024_2_1_01_0_n_n).rhsIdx (ix3 p n e) ((contrEquiv1 _ 1024 rfl rfl).symm c) = ix2 e c :=
    funext fun ax => Fin.ext (match ax with | ⟨0, _⟩ => rfl | ⟨1, _⟩ => c3)
  rw [l3, r3]

/-! ## The stages composed: the specification's block over the two-pass normalisations -/

open Cert.Spec

/-- The two-pass normalisation of width 1024 the reference computes. -/
abbrev L1 : RowNorm 1024 := lnR ((1024 : ℝ) : EReal) ((Cert.Consts.epsR : ℝ) : EReal)
/-- The two-pass normalisation of width 2048 the reference computes. -/
abbrev L2 : RowNorm 2048 := lnR ((2048 : ℝ) : EReal) ((Cert.Consts.epsR : ℝ) : EReal)

/-- The normalisation of width 1024 on an array whose row is known. -/
theorem ln1024_row (y : FVec Ideal S8x2048x1024 .f32) (g b : FVec Ideal S1024 .f32) (p : Fin 8) (n : Fin 2048)
    (r : Fin 1024 → EReal) (hr : ∀ j, y (ix3 p n j) = r j) (d : Fin 1024) :
    ln1024 y g b (ix3 p n d) = L1 r (arr1 g) (arr1 b) d :=
  (ln1024_apply y g b p n d).trans (congrArg (fun v => L1 v (arr1 g) (arr1 b) d) (funext hr))

/-- The normalisation of width 2048 on an array whose row is known. -/
theorem ln2048_row (y : FVec Ideal S8x2048x2048 .f32) (g b : FVec Ideal S2048 .f32) (p : Fin 8) (n : Fin 2048)
    (r : Fin 2048 → EReal) (hr : ∀ j, y (ix3 p n j) = r j) (d : Fin 2048) :
    ln2048 y g b (ix3 p n d) = L2 r (arr1 g) (arr1 b) d :=
  (ln2048_apply y g b p n d).trans (congrArg (fun v => L2 v (arr1 g) (arr1 b) d) (funext hr))

/-- The normalised token rows. -/
theorem tokT_apply (x : FVec Ideal S8x2048x1024 .f32) (g1 b1 : FVec Ideal S1024 .f32) (p : Fin 8) (n : Fin 2048) (d : Fin 1024) :
    tokT x g1 b1 (ix3 p n d) = tok L1 (arr3 x) (arr1 g1) (arr1 b1) p n d :=
  ln1024_apply x g1 b1 p n d

/-- The scores of one token against all of its batch. -/
theorem scoreT_apply (x : FVec Ideal S8x2048x1024 .f32) (g1 b1 : FVec Ideal S1024 .f32) (p : Fin 8) (n m : Fin 2048) :
    (Host.dotGeneral dot_S8x2048x1024_S8x2048x1024_S8x2048x2048_2_2_1_1_0_0 none (tokT x g1 b1) (tokT x g1 b1)) (ix3 p n m) = score L1 (arr3 x) (arr1 g1) (arr1 b1) p n m := by
  rw [dotScore_apply]
  unfold Cert.Spec.score
  exact Finset.sum_congr rfl fun d _ => congrArg₂ (· * ·) (tokT_apply x g1 b1 p n d) (tokT_apply x g1 b1 p m d)

/-- The score row normalised over the tokens. -/
theorem interT_apply (x : FVec Ideal S8x2048x1024 .f32) (g1 b1 : FVec Ideal S1024 .f32) (g2 b2 : FVec Ideal S2048 .f32) (p : Fin 8) (n m : Fin 2048) :
    ln2048 (Host.dotGeneral dot_S8x2048x1024_S8x2048x1024_S8x2048x2048_2_2_1_1_0_0 none (tokT x g1 b1) (tokT x g1 b1)) g2 b2 (ix3 p n m) = inter L1 L2 (arr3 x) (arr1 g1) (arr1 b1) (arr1 g2) (arr1 b2) p n m :=
  ln2048_row _ g2 b2 p n _ (fun j => scoreT_apply x g1 b1 p n j) m

/-- The token rows mixed by the normalised scores. -/
theorem mixT_apply (x : FVec Ideal S8x2048x1024 .f32) (g1 b1 : FVec Ideal S1024 .f32) (g2 b2 : FVec Ideal S2048 .f32) (p : Fin 8) (n : Fin 2048) (d : Fin 1024) :
    Host.dotGeneral dot_S8x2048x2048_S8x2048x1024_S8x2048x1024_2_1_1_2_0_0 none (ln2048 (Host.dotGeneral dot_S8x2048x1024_S8x2048x1024_S8x2048x2048_2_2_1_1_0_0 none (tokT x g1 b1) (tokT x g1 b1)) g2 b2) (tokT x g1 b1) (ix3 p n d) = mix L1 L2 (arr3 x) (arr1 g1) (arr1 b1) (arr1 g2) (arr1 b2) p n d := by
  rw [dotMix_apply]
  unfold Cert.Spec.mix
  exact Finset.sum_congr rfl fun m _ => congrArg₂ (· * ·) (interT_apply x g1 b1 g2 b2 p n m) (tokT_apply x g1 b1 p m d)

/-- The first residual. -/
theorem res1T_apply (x : FVec Ideal S8x2048x1024 .f32) (g1 b1 : FVec Ideal S1024 .f32) (g2 b2 : FVec Ideal S2048 .f32) (p : Fin 8) (n : Fin 2048) (d : Fin 1024) :
    res1T x g1 b1 g2 b2 (ix3 p n d) = res1 L1 L2 (arr3 x) (arr1 g1) (arr1 b1) (arr1 g2) (arr1 b2) p n d := by
  unfold res1T Cert.Spec.res1
  rw [addf_apply]
  exact congrArg (· + x (ix3 p n d)) (ln1024_row _ g1 b1 p n _ (fun j => mixT_apply x g1 b1 g2 b2 p n j) d)

/-- The affine map of the normalised first residual. -/
theorem linT_apply (x : FVec Ideal S8x2048x1024 .f32) (g1 b1 : FVec Ideal S1024 .f32) (g2 b2 : FVec Ideal S2048 .f32)
    (w : FVec Ideal S1024x1024 .f32) (wb g3 b3 : FVec Ideal S1024 .f32) (p : Fin 8) (n : Fin 2048) (e : Fin 1024) :
    linT (res1T x g1 b1 g2 b2) w wb g3 b3 (ix3 p n e) = lin L1 L2 (arr3 x) (arr1 g1) (arr1 b1) (arr1 g2) (arr1 b2) (arr2 w) (arr1 wb) (arr1 g3) (arr1 b3) p n e := by
  unfold linT Cert.Spec.lin
  rw [addf_apply, dotLin_apply, bcastVec1024_apply]
  exact congrArg (· + wb (ix1 e)) (Finset.sum_congr rfl fun d _ =>
    congrArg (· * w (ix2 e d)) (ln1024_row _ g3 b3 p n _ (fun j => res1T_apply x g1 b1 g2 b2 p n j) d))

/-- The reference's result at an index is the block's. -/
theorem refOut_apply (x : FVec Ideal S8x2048x1024 .f32) (g1 b1 : FVec Ideal S1024 .f32) (g2 b2 : FVec Ideal S2048 .f32)
    (w : FVec Ideal S1024x1024 .f32) (wb g3 b3 : FVec Ideal S1024 .f32) (p : Fin 8) (n : Fin 2048) (e : Fin 1024) :
    refOut x g1 b1 g2 b2 w wb g3 b3 (ix3 p n e) = net L1 L2 (arr3 x) (arr1 g1) (arr1 b1) (arr1 g2) (arr1 b2) (arr2 w) (arr1 wb) (arr1 g3) (arr1 b3) p n e := by
  unfold refOut Cert.Spec.net
  rw [addf_apply]
  exact congrArg₂ (· + ·) (ln1024_row _ g3 b3 p n _ (fun j => linT_apply x g1 b1 g2 b2 w wb g3 b3 p n j) e)
    (res1T_apply x g1 b1 g2 b2 p n e)

/-- The reference's result is the specification's result array over the two-pass normalisations. -/
theorem refOut_eq (x : FVec Ideal S8x2048x1024 .f32) (g1 b1 : FVec Ideal S1024 .f32) (g2 b2 : FVec Ideal S2048 .f32)
    (w : FVec Ideal S1024x1024 .f32) (wb g3 b3 : FVec Ideal S1024 .f32) :
    Term.refOut (F := Ideal) x g1 b1 g2 b2 w wb g3 b3
      = Cert.Spec.out (Cert.Spec.lnR ((1024 : ℝ) : EReal) ((Cert.Consts.epsR : ℝ) : EReal))
          (Cert.Spec.lnR ((2048 : ℝ) : EReal) ((Cert.Consts.epsR : ℝ) : EReal)) x g1 b1 g2 b2 w wb g3 b3 := by
  funext i
  obtain ⟨p, n, e, rfl⟩ : ∃ p n e, i = ix3 p n e := ⟨i 0, i 1, i 2, eq_ix3 i⟩
  exact refOut_apply x g1 b1 g2 b2 w wb g3 b3 p n e

end Cert.ReferenceIdeal.RefRead

end
-- ==== Proof.lean ====
/-
  The kernel fuses a token-interaction block and a memory block: every token row of a batch is normalised,
  each row's scores against all rows of its batch are normalised over the tokens and mix the rows, the result
  is normalised and added to the input, then normalised, mapped affinely, normalised and added again. The
  kernel computes each row normalisation in one pass (mean `s/n`, variance `s₂/n − (s/n)²`, with the
  reciprocal of the width an exact power of two) and keeps a batch's normalised rows in a scratch filled at
  the batch's first grid point; the reference normalises in two passes (variance as the mean of squared
  deviations). On real inputs the two variances are the same number, every intermediate row stays real, and
  so the two programs end with the same result, index by index.

  The kernel's run with its result array named is `Cert.KernelIdeal.Run.run`; the reference's run over its
  operations listed in order is `Cert.ReferenceIdeal.Run.run`, and its term read at an index is
  `Cert.ReferenceIdeal.RefRead.refOut_eq`; `Cert.Assemble.claim_of` joins them through the agreement of the
  two normalisations on real rows (`Cert.Spec.net_lnK_eq_lnR`) and the precondition (`Cert.Finite.real_of_pre`).
-/
import proofs.«402831_j2413771620561_3_alg».proof.Defs
import proofs.«402831_j2413771620561_3_alg».proof.Proof.Assemble
import proofs.«402831_j2413771620561_3_alg».proof.Proof.KernelRun
import proofs.«402831_j2413771620561_3_alg».proof.Proof.RefRun
import proofs.«402831_j2413771620561_3_alg».proof.Proof.RefRead

noncomputable section

namespace Cert.Proof

open Idealize.ShloMosaic Idealize.SL.Sem

theorem claim : Cert.Claim :=
  Cert.Assemble.claim_of Cert.KernelIdeal.Run.run
    (fun m ρ => Cert.ReferenceIdeal.Run.run (F := Ideal) m ρ)
    Cert.ReferenceIdeal.RefRead.refOut_eq

end Cert.Proof

end
